-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x20x512x512 : Shape := ⟨4, ![8, 20, 512, 512]⟩
abbrev S8x1x512x512 : Shape := ⟨4, ![8, 1, 512, 512]⟩
abbrev S8x512x512 : Shape := ⟨3, ![8, 512, 512]⟩
abbrev S_ : Shape := ⟨0, ![]⟩

class Facts : Prop where
  bcast_S_S8x20x512x512 : S_.BroadcastsInDim S8x20x512x512 (![] : Fin 0 → Fin S8x20x512x512.rank)
  reducesTo_S8x20x512x512_S_d0_1_2_3 : S8x20x512x512.ReducesTo [0, 1, 2, 3] S_
  h_S_ : 0 < S_.numel
  bcast_S_S8x1x512x512 : S_.BroadcastsInDim S8x1x512x512 (![] : Fin 0 → Fin S8x1x512x512.rank)
  reducesTo_S8x1x512x512_S_d0_1_2_3 : S8x1x512x512.ReducesTo [0, 1, 2, 3] S_
  bcast_S_S8x512x512 : S_.BroadcastsInDim S8x512x512 (![] : Fin 0 → Fin S8x512x512.rank)
  reducesTo_S8x512x512_S_d0_1_2 : S8x512x512.ReducesTo [0, 1, 2] S_

variable [Facts]

def fn_part1 {F : FTy → Type} [FloatOps F] (main_arg3 : IVec S8x512x512 32) (main_v13 : IVec S_ 1) (main_v15 : IVec S8x512x512 1) (main_c_5 : IVec S_ 32) : IVec S_ 1 :=
  let main_v16 : IVec S8x512x512 32 := broadcastInDim S8x512x512 ![] bcast_S_S8x512x512 main_c_5
  let main_v17 : IVec S8x512x512 1 := cmpi .sge main_arg3 main_v16
  let main_c_6 : IVec S_ 32 := constantI S_ 32 20#32
  let main_v18 : IVec S8x512x512 32 := broadcastInDim S8x512x512 ![] bcast_S_S8x512x512 main_c_6
  let main_v19 : IVec S8x512x512 1 := cmpi .slt main_arg3 main_v18
  let main_v20 : IVec S8x512x512 1 := andi main_v17 main_v19
  let main_v21 : IVec S8x512x512 1 := ori main_v15 main_v20
  let main_c_7 : IVec S_ 1 := constantI S_ 1 1#1
  let main_v22 : IVec S_ 1 := (fun x v => Host.reduce IntOp.andi x v reducesTo_S8x512x512_S_d0_1_2 h_S_) main_v21 main_c_7
  let main_v23 : IVec S_ 1 := andi main_v13 main_v22
  main_v23

def fn {F : FTy → Type} [FloatOps F] (main_arg0 : FVec F S8x20x512x512 .f32) (main_arg1 : FVec F S8x20x512x512 .f32) (main_arg2 : FVec F S8x1x512x512 .f32) (main_arg3 : IVec S8x512x512 32) : IVec S_ 1 :=
  let main_v0 : FVec F S8x20x512x512 .f32 := Host.absf main_arg0
  let main_cst : FVec F S_ .f32 := constant S_ .f32 0x7F800000#32
  let main_v1 : FVec F S8x20x512x512 .f32 := broadcastInDim S8x20x512x512 ![] bcast_S_S8x20x512x512 main_cst
  let main_v2 : IVec S8x20x512x512 1 := cmpf .olt main_v0 main_v1
  let main_c : IVec S_ 1 := constantI S_ 1 1#1
  let main_v3 : IVec S_ 1 := (fun x v => Host.reduce IntOp.andi x v reducesTo_S8x20x512x512_S_d0_1_2_3 h_S_) main_v2 main_c
  let main_v4 : FVec F S8x20x512x512 .f32 := Host.absf main_arg1
  let main_cst_0 : FVec F S_ .f32 := constant S_ .f32 0x7F800000#32
  let main_v5 : FVec F S8x20x512x512 .f32 := broadcastInDim S8x20x512x512 ![] bcast_S_S8x20x512x512 main_cst_0
  let main_v6 : IVec S8x20x512x512 1 := cmpf .olt main_v4 main_v5
  let main_c_1 : IVec S_ 1 := constantI S_ 1 1#1
  let main_v7 : IVec S_ 1 := (fun x v => Host.reduce IntOp.andi x v reducesTo_S8x20x512x512_S_d0_1_2_3 h_S_) main_v6 main_c_1
  let main_v8 : IVec S_ 1 := andi main_v3 main_v7
  let main_v9 : FVec F S8x1x512x512 .f32 := Host.absf main_arg2
  let main_cst_2 : FVec F S_ .f32 := constant S_ .f32 0x7F800000#32
  let main_v10 : FVec F S8x1x512x512 .f32 := broadcastInDim S8x1x512x512 ![] bcast_S_S8x1x512x512 main_cst_2
  let main_v11 : IVec S8x1x512x512 1 := cmpf .olt main_v9 main_v10
  let main_c_3 : IVec S_ 1 := constantI S_ 1 1#1
  let main_v12 : IVec S_ 1 := (fun x v => Host.reduce IntOp.andi x v reducesTo_S8x1x512x512_S_d0_1_2_3 h_S_) main_v11 main_c_3
  let main_v13 : IVec S_ 1 := andi main_v8 main_v12
  let main_c_4 : IVec S_ 32 := constantI S_ 32 255#32
  let main_v14 : IVec S8x512x512 32 := broadcastInDim S8x512x512 ![] bcast_S_S8x512x512 main_c_4
  let main_v15 : IVec S8x512x512 1 := cmpi .eq main_arg3 main_v14
  let main_c_5 : IVec S_ 32 := constantI S_ 32 0#32
  fn_part1 (F := F) main_arg3 main_v13 main_v15 main_c_5
-- ==== Kernel.lean ====
abbrev S8x20x512x512 : Shape := ⟨4, ![8, 20, 512, 512]⟩
abbrev S8x1x512x512 : Shape := ⟨4, ![8, 1, 512, 512]⟩
abbrev S8x512x512 : Shape := ⟨3, ![8, 512, 512]⟩
abbrev S8x1x128 : Shape := ⟨3, ![8, 1, 128]⟩
abbrev S1x20x128x512 : Shape := ⟨4, ![1, 20, 128, 512]⟩
abbrev S1x128x512 : Shape := ⟨3, ![1, 128, 512]⟩
abbrev S1x1x128 : Shape := ⟨3, ![1, 1, 128]⟩
abbrev S1x1x128x512 : Shape := ⟨4, ![1, 1, 128, 512]⟩
abbrev S1x128 : Shape := ⟨2, ![1, 128]⟩
abbrev S1x128x1 : Shape := ⟨3, ![1, 128, 1]⟩
abbrev S1x1 : Shape := ⟨2, ![1, 1]⟩
abbrev S1x1x1 : Shape := ⟨3, ![1, 1, 1]⟩
abbrev S8x1x1 : Shape := ⟨3, ![8, 1, 1]⟩
abbrev S8 : Shape := ⟨1, ![8]⟩
abbrev S_ : Shape := ⟨0, ![]⟩
abbrev S1x512x512 : Shape := ⟨3, ![1, 512, 512]⟩
abbrev S1x1x512x512 : Shape := ⟨4, ![1, 1, 512, 512]⟩
abbrev S1x1x512 : Shape := ⟨3, ![1, 1, 512]⟩
abbrev S1x510x512 : Shape := ⟨3, ![1, 510, 512]⟩
abbrev S1x512x1 : Shape := ⟨3, ![1, 512, 1]⟩
abbrev S1x512x510 : Shape := ⟨3, ![1, 512, 510]⟩
abbrev S1x512 : Shape := ⟨2, ![1, 512]⟩

abbrev nBuf : Space → Nat
  | .hbm => 34
  | .vmem => 18
  | .smem => 0
  | _ => 0

abbrev bufTy : (tb : Table) → Fin (tcTables nBuf tb) → BufTy
  | .hbm, ⟨0, _⟩ => ⟨S8x20x512x512, .f32⟩
  | .hbm, ⟨1, _⟩ => ⟨S8x20x512x512, .f32⟩
  | .hbm, ⟨2, _⟩ => ⟨S8x1x512x512, .f32⟩
  | .hbm, ⟨3, _⟩ => ⟨S8x512x512, .i32⟩
  | .hbm, ⟨4, _⟩ => ⟨S8x1x128, .f32⟩
  | .hbm, ⟨5, _⟩ => ⟨S8x1x128, .f32⟩
  | .hbm, ⟨6, _⟩ => ⟨S8x1x128, .f32⟩
  | .hbm, ⟨7, _⟩ => ⟨S8x1x1, .f32⟩
  | .hbm, ⟨8, _⟩ => ⟨S8, .f32⟩
  | .hbm, ⟨9, _⟩ => ⟨S_, .f32⟩
  | .hbm, ⟨10, _⟩ => ⟨S_, .f32⟩
  | .hbm, ⟨11, _⟩ => ⟨S8x1x1, .f32⟩
  | .hbm, ⟨12, _⟩ => ⟨S8, .f32⟩
  | .hbm, ⟨13, _⟩ => ⟨S_, .f32⟩
  | .hbm, ⟨14, _⟩ => ⟨S_, .f32⟩
  | .hbm, ⟨15, _⟩ => ⟨S8x1x1, .f32⟩
  | .hbm, ⟨16, _⟩ => ⟨S8, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8x1x128, .f32⟩
  | .hbm, ⟨24, _⟩ => ⟨S8x1x1, .f32⟩
  | .hbm, ⟨25, _⟩ => ⟨S8, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S1x20x128x512, .f32⟩
  | .local _ .vmem, ⟨1, _⟩ => ⟨S1x20x128x512, .f32⟩
  | .local _ .vmem, ⟨2, _⟩ => ⟨S1x20x128x512, .f32⟩
  | .local _ .vmem, ⟨3, _⟩ => ⟨S1x20x128x512, .f32⟩
  | .local _ .vmem, ⟨4, _⟩ => ⟨S1x128x512, .i32⟩
  | .local _ .vmem, ⟨5, _⟩ => ⟨S1x128x512, .i32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x512x512, .i32⟩
  | .local _ .vmem, ⟨13, _⟩ => ⟨S1x512x512, .i32⟩
  | .local _ .vmem, ⟨14, _⟩ => ⟨S1x1x512x512, .f32⟩
  | .local _ .vmem, ⟨15, _⟩ => ⟨S1x1x512x512, .f32⟩
  | .local _ .vmem, ⟨16, _⟩ => ⟨S1x1x128, .f32⟩
  | .local _ .vmem, ⟨17, _⟩ => ⟨S1x1x128, .f32⟩
  | _, _ => ⟨S8x20x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x20x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x20x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x512 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1x1x128_S1x1x128_0_0_0 : ∀ a, (![0, 0, 0] : Fin 3 → Nat) a + S1x1x128.size a ≤ S1x1x128.size a
  h_S1x1x128 : 0 < S1x1x128.numel
  inb_S1x20x128x512_S1x20x128x512_0_0_0_0 : ∀ a, (![0, 0, 0, 0] : Fin 4 → Nat) a + S1x20x128x512.size a ≤ S1x20x128x512.size a
  h_S1x20x128x512 : 0 < S1x20x128x512.numel
  inb_S1x128x512_S1x128x512_0_0_0 : ∀ a, (![0, 0, 0] : Fin 3 → Nat) a + S1x128x512.size a ≤ S1x128x512.size a
  h_S1x128x512 : 0 < S1x128x512.numel
  natLt_1_32 : 1 < 32
  iota_S1x20x128x512_d1_w32 : S1x20x128x512.Iotas .tc 32 [1]
  shapeCasts_S1x128x512_S1x1x128x512 : S1x128x512.ShapeCasts S1x1x128x512
  broadcasts_S1x1x128x512_S1x20x128x512 : S1x1x128x512.Broadcasts S1x20x128x512
  reduces_S1x20x128x512_S1x128x512 : S1x20x128x512.Reduces [1] S1x128x512
  shapeCasts_S1x1x128x512_S1x128x512 : S1x1x128x512.ShapeCasts S1x128x512
  reduces_S1x128x512_S1x128 : S1x128x512.Reduces [2] S1x128
  shapeCasts_S1x128_S1x128x1 : S1x128.ShapeCasts S1x128x1
  reduces_S1x128x1_S1x1 : S1x128x1.Reduces [1] S1x1
  shapeCasts_S1x1_S1x1x1 : S1x1.ShapeCasts S1x1x1
  shapeCasts_S1x1x128_S1x1x128 : S1x1x128.ShapeCasts S1x1x128
  shapeCasts_S1x1x1_S1x1x1 : S1x1x1.ShapeCasts S1x1x1
  broadcasts_S1x1x1_S1x1x128 : S1x1x1.Broadcasts S1x1x128
  slices_S8x1x128_S8x1x1_0_0_0 : S8x1x128.Slices ![0, 0, 0] S8x1x1
  shapeCasts_S8x1x1_S8 : S8x1x1.ShapeCasts S8
  reducesTo_S8_S_d0 : S8.ReducesTo [0] S_
  h_S_ : 0 < S_.numel
  inb_S1x512x512_S1x512x512_0_0_0 : ∀ a, (![0, 0, 0] : Fin 3 → Nat) a + S1x512x512.size a ≤ S1x512x512.size a
  h_S1x512x512 : 0 < S1x512x512.numel
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S1x512x512 : S1x1x512x512.ShapeCasts S1x512x512
  slices_S1x512x512_o0_1_0_S1x1x512 : S1x512x512.Slices ![0, 1, 0] S1x1x512
  slices_S1x512x512_o0_0_0_S1x1x512 : S1x512x512.Slices ![0, 0, 0] S1x1x512
  slices_S1x512x512_o0_2_0_S1x510x512 : S1x512x512.Slices ![0, 2, 0] S1x510x512
  slices_S1x512x512_o0_0_0_S1x510x512 : S1x512x512.Slices ![0, 0, 0] S1x510x512
  slices_S1x512x512_o0_511_0_S1x1x512 : S1x512x512.Slices ![0, 511, 0] S1x1x512
  slices_S1x512x512_o0_510_0_S1x1x512 : S1x512x512.Slices ![0, 510, 0] S1x1x512
  concatenates_S1x1x512_S1x510x512_S1x1x512_S1x512x512_d1 : Shape.Concatenates [S1x1x512, S1x510x512, S1x1x512] S1x512x512 1
  slices_S1x512x512_o0_0_1_S1x512x1 : S1x512x512.Slices ![0, 0, 1] S1x512x1
  slices_S1x512x512_o0_0_0_S1x512x1 : S1x512x512.Slices ![0, 0, 0] S1x512x1
  slices_S1x512x512_o0_0_2_S1x512x510 : S1x512x512.Slices ![0, 0, 2] S1x512x510
  slices_S1x512x512_o0_0_0_S1x512x510 : S1x512x512.Slices ![0, 0, 0] S1x512x510
  slices_S1x512x512_o0_0_511_S1x512x1 : S1x512x512.Slices ![0, 0, 511] S1x512x1
  slices_S1x512x512_o0_0_510_S1x512x1 : S1x512x512.Slices ![0, 0, 510] S1x512x1
  concatenates_S1x512x1_S1x512x510_S1x512x1_S1x512x512_d2 : Shape.Concatenates [S1x512x1, S1x512x510, S1x512x1] S1x512x512 2
  reduces_S1x512x512_S1x512 : S1x512x512.Reduces [2] S1x512
  shapeCasts_S1x512_S1x512x1 : S1x512.ShapeCasts S1x512x1
  reduces_S1x512x1_S1x1 : S1x512x1.Reduces [1] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x20x128x512.size a ≤ S8x20x512x512.size a
  hwx0_0 : ∀ i : grid0.Coords, EltTy.bits .f32 = 32 ∨ (Rect.block (s := S8x20x512x512) S1x20x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x20x128x512.size a ≤ S8x20x512x512.size a
  hwx0_1 : ∀ i : grid0.Coords, EltTy.bits .f32 = 32 ∨ (Rect.block (s := S8x20x512x512) S1x20x128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x512.size a ≤ S8x512x512.size a
  hwx0_2 : ∀ i : grid0.Coords, EltTy.bits .i32 = 32 ∨ (Rect.block (s := S8x512x512) S1x128x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S8x1x128.size a
  hwx0_3 : ∀ i : grid0.Coords, EltTy.bits .f32 = 32 ∨ (Rect.block (s := S8x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S8x1x128.size a
  hwx0_4 : ∀ i : grid0.Coords, EltTy.bits .f32 = 32 ∨ (Rect.block (s := S8x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S8x1x128.size a
  hwx0_5 : ∀ i : grid0.Coords, EltTy.bits .f32 = 32 ∨ (Rect.block (s := S8x1x128) S1x1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x512.size a ≤ S8x512x512.size a
  hwx1_0 : ∀ i : grid1.Coords, EltTy.bits .i32 = 32 ∨ (Rect.block (s := S8x512x512) S1x512x512.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x512x512.size a ≤ S8x1x512x512.size a
  hwx1_1 : ∀ i : grid1.Coords, EltTy.bits .f32 = 32 ∨ (Rect.block (s := S8x1x512x512) S1x1x512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x128.size a ≤ S8x1x128.size a
  hwx1_2 : ∀ i : grid1.Coords, EltTy.bits .f32 = 32 ∨ (Rect.block (s := S8x1x128) S1x1x128.size (cc1_transform_2 i) (hinb1_2 i)).WholeWords (EltTy.packing .f32)

variable [Facts₀]

abbrev win0_0 : Pipeline.Window sig grid0 :=
  Pipeline.Window.ofSpec (Memref.whole main_arg0) S1x20x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x20x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg3) S1x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x1x512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x1x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x20x512x512 : Shape := ⟨4, ![8, 20, 512, 512]⟩
abbrev S8x1x512x512 : Shape := ⟨4, ![8, 1, 512, 512]⟩
abbrev S8x512x512 : Shape := ⟨3, ![8, 512, 512]⟩
abbrev S_ : Shape := ⟨0, ![]⟩
abbrev S8x1x512x512x1 : Shape := ⟨5, ![8, 1, 512, 512, 1]⟩
abbrev S1 : Shape := ⟨1, ![1]⟩
abbrev S1x1x1x1x1 : Shape := ⟨5, ![1, 1, 1, 1, 1]⟩
abbrev S8x512x1 : Shape := ⟨3, ![8, 512, 1]⟩
abbrev S8x512x510 : Shape := ⟨3, ![8, 512, 510]⟩

abbrev nBuf : Space → Nat
  | .hbm => 187
  | .vmem => 0
  | .smem => 0
  | _ => 0

abbrev hbmTy0_0 (i : Nat) : BufTy := match i % 128 with
  | 0 => ⟨S8x20x512x512, .f32⟩
  | 1 => ⟨S8x20x512x512, .f32⟩
  | 2 => ⟨S8x1x512x512, .f32⟩
  | 3 => ⟨S8x512x512, .i32⟩
  | 4 => ⟨S_, .i32⟩
  | 5 => ⟨S8x512x512, .i32⟩
  | 6 => ⟨S8x512x512, .i1⟩
  | 7 => ⟨S_, .i32⟩
  | 8 => ⟨S_, .i32⟩
  | 9 => ⟨S8x512x512, .i32⟩
  | 10 => ⟨S8x512x512, .i32⟩
  | 11 => ⟨S_, .f32⟩
  | 12 => ⟨S8x512x512, .f32⟩
  | 13 => ⟨S_, .f32⟩
  | 14 => ⟨S8x512x512, .f32⟩
  | 15 => ⟨S8x512x512, .f32⟩
  | 16 => ⟨S8x1x512x512, .f32⟩
  | 17 => ⟨S8x20x512x512, .f32⟩
  | 18 => ⟨S8x20x512x512, .f32⟩
  | 19 => ⟨S8x20x512x512, .f32⟩
  | 20 => ⟨S_, .f32⟩
  | 21 => ⟨S8x512x512, .f32⟩
  | 22 => ⟨S8x1x512x512, .f32⟩
  | 23 => ⟨S8x1x512x512, .f32⟩
  | 24 => ⟨S8x20x512x512, .f32⟩
  | 25 => ⟨S8x20x512x512, .f32⟩
  | 26 => ⟨S8x1x512x512, .i32⟩
  | 27 => ⟨S_, .i32⟩
  | 28 => ⟨S8x1x512x512, .i32⟩
  | 29 => ⟨S8x1x512x512, .i1⟩
  | 30 => ⟨S_, .i32⟩
  | 31 => ⟨S8x1x512x512, .i32⟩
  | 32 => ⟨S8x1x512x512, .i32⟩
  | 33 => ⟨S8x1x512x512, .i32⟩
  | 34 => ⟨S8x1x512x512x1, .i32⟩
  | 35 => ⟨S1, .i32⟩
  | 36 => ⟨S_, .i32⟩
  | 37 => ⟨S8x1x512x512x1, .i32⟩
  | 38 => ⟨S8x1x512x512x1, .i1⟩
  | 39 => ⟨S1x1x1x1x1, .i32⟩
  | 40 => ⟨S8x1x512x512x1, .i32⟩
  | 41 => ⟨S8x1x512x512x1, .i1⟩
  | 42 => ⟨S8x1x512x512x1, .i1⟩
  | 43 => ⟨S_, .i1⟩
  | 44 => ⟨S8x1x512x512, .i1⟩
  | 45 => ⟨S8x1x512x512, .f32⟩
  | 46 => ⟨S_, .f32⟩
  | 47 => ⟨S8x1x512x512, .f32⟩
  | 48 => ⟨S8x1x512x512, .f32⟩
  | 49 => ⟨S8x512x512, .f32⟩
  | 50 => ⟨S8x512x512, .f32⟩
  | 51 => ⟨S8x512x512, .f32⟩
  | 52 => ⟨S8x512x512, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .i32⟩
  | 61 => ⟨S8x512x512, .i32⟩
  | 62 => ⟨S8x512x512, .i1⟩
  | 63 => ⟨S_, .i32⟩
  | 64 => ⟨S_, .i32⟩
  | 65 => ⟨S8x512x512, .i32⟩
  | 66 => ⟨S8x512x512, .i32⟩
  | 67 => ⟨S_, .f32⟩
  | 68 => ⟨S8x512x512, .f32⟩
  | 69 => ⟨S_, .f32⟩
  | 70 => ⟨S8x512x512, .f32⟩
  | 71 => ⟨S8x512x512, .f32⟩
  | 72 => ⟨S8x1x512x512, .f32⟩
  | 73 => ⟨S8x20x512x512, .f32⟩
  | 74 => ⟨S8x20x512x512, .f32⟩
  | 75 => ⟨S8x20x512x512, .f32⟩
  | 76 => ⟨S_, .f32⟩
  | 77 => ⟨S8x512x512, .f32⟩
  | 78 => ⟨S8x1x512x512, .f32⟩
  | 79 => ⟨S8x1x512x512, .f32⟩
  | 80 => ⟨S8x20x512x512, .f32⟩
  | 81 => ⟨S8x20x512x512, .f32⟩
  | 82 => ⟨S8x1x512x512, .i32⟩
  | 83 => ⟨S_, .i32⟩
  | 84 => ⟨S8x1x512x512, .i32⟩
  | 85 => ⟨S8x1x512x512, .i1⟩
  | 86 => ⟨S_, .i32⟩
  | 87 => ⟨S8x1x512x512, .i32⟩
  | 88 => ⟨S8x1x512x512, .i32⟩
  | 89 => ⟨S8x1x512x512, .i32⟩
  | 90 => ⟨S8x1x512x512x1, .i32⟩
  | 91 => ⟨S1, .i32⟩
  | 92 => ⟨S_, .i32⟩
  | 93 => ⟨S8x1x512x512x1, .i32⟩
  | 94 => ⟨S8x1x512x512x1, .i1⟩
  | 95 => ⟨S1x1x1x1x1, .i32⟩
  | 96 => ⟨S8x1x512x512x1, .i32⟩
  | 97 => ⟨S8x1x512x512x1, .i1⟩
  | 98 => ⟨S8x1x512x512x1, .i1⟩
  | 99 => ⟨S_, .i1⟩
  | 100 => ⟨S8x1x512x512, .i1⟩
  | 101 => ⟨S8x1x512x512, .f32⟩
  | 102 => ⟨S_, .f32⟩
  | 103 => ⟨S8x1x512x512, .f32⟩
  | 104 => ⟨S8x1x512x512, .f32⟩
  | 105 => ⟨S8x512x512, .f32⟩
  | 106 => ⟨S8x512x512, .f32⟩
  | 107 => ⟨S8x512x512, .f32⟩
  | 108 => ⟨S8x512x512, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .i32⟩
  | 117 => ⟨S8x512x512, .i32⟩
  | 118 => ⟨S8x512x512, .i1⟩
  | 119 => ⟨S_, .i32⟩
  | 120 => ⟨S_, .i32⟩
  | 121 => ⟨S8x512x512, .i32⟩
  | 122 => ⟨S8x512x512, .i32⟩
  | 123 => ⟨S8x512x512, .f32⟩
  | 124 => ⟨S8x512x512, .f32⟩
  | 125 => ⟨S8x512x1, .f32⟩
  | 126 => ⟨S8x512x1, .f32⟩
  | 127 => ⟨S8x512x1, .f32⟩
  | _ => ⟨S8x20x512x512, .f32⟩

abbrev hbmTy0_1 (i : Nat) : BufTy := match i % 128 with
  | 0 => ⟨S8x512x510, .f32⟩
  | 1 => ⟨S8x512x510, .f32⟩
  | 2 => ⟨S8x512x510, .f32⟩
  | 3 => ⟨S_, .f32⟩
  | 4 => ⟨S8x512x510, .f32⟩
  | 5 => ⟨S8x512x510, .f32⟩
  | 6 => ⟨S8x512x1, .f32⟩
  | 7 => ⟨S8x512x1, .f32⟩
  | 8 => ⟨S8x512x1, .f32⟩
  | 9 => ⟨S8x512x512, .f32⟩
  | 10 => ⟨S8x512x512, .f32⟩
  | 11 => ⟨S8x512x1, .f32⟩
  | 12 => ⟨S8x512x1, .f32⟩
  | 13 => ⟨S8x512x1, .f32⟩
  | 14 => ⟨S8x512x510, .f32⟩
  | 15 => ⟨S8x512x510, .f32⟩
  | 16 => ⟨S8x512x510, .f32⟩
  | 17 => ⟨S_, .f32⟩
  | 18 => ⟨S8x512x510, .f32⟩
  | 19 => ⟨S8x512x510, .f32⟩
  | 20 => ⟨S8x512x1, .f32⟩
  | 21 => ⟨S8x512x1, .f32⟩
  | 22 => ⟨S8x512x1, .f32⟩
  | 23 => ⟨S8x512x512, .f32⟩
  | 24 => ⟨S8x512x512, .f32⟩
  | 25 => ⟨S_, .f32⟩
  | 26 => ⟨S8x512x512, .f32⟩
  | 27 => ⟨S8x512x512, .i1⟩
  | 28 => ⟨S8x512x512, .f32⟩
  | 29 => ⟨S_, .f32⟩
  | 30 => ⟨S8x512x512, .f32⟩
  | 31 => ⟨S8x512x512, .i1⟩
  | 32 => ⟨S8x512x512, .i1⟩
  | 33 => ⟨S8x512x512, .f32⟩
  | 34 => ⟨S_, .i32⟩
  | 35 => ⟨S8x512x512, .i32⟩
  | 36 => ⟨S8x512x512, .i1⟩
  | 37 => ⟨S8x512x512, .f32⟩
  | 38 => ⟨S8x512x512, .f32⟩
  | 39 => ⟨S8x512x512, .f32⟩
  | 40 => ⟨S8x512x512, .f32⟩
  | 41 => ⟨S_, .f32⟩
  | 42 => ⟨S8x512x512, .f32⟩
  | 43 => ⟨S8x512x512, .f32⟩
  | 44 => ⟨S8x512x512, .f32⟩
  | 45 => ⟨S8x512x512, .f32⟩
  | 46 => ⟨S8x512x512, .f32⟩
  | 47 => ⟨S8x512x512, .f32⟩
  | 48 => ⟨S8x512x512, .f32⟩
  | 49 => ⟨S8x512x512, .f32⟩
  | 50 => ⟨S8x512x512, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | _ => ⟨S8x20x512x512, .f32⟩

abbrev hbmTy (i : Nat) : BufTy := match i / 128 with
  | 0 => hbmTy0_0 i
  | 1 => hbmTy0_1 i
  | _ => ⟨S8x20x512x512, .f32⟩

abbrev bufTy : (tb : Table) → Fin (tcTables nBuf tb) → BufTy
  | .hbm, ⟨i, _⟩ => hbmTy i
  | _, _ => ⟨S8x20x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_call1_cst : Ref sig .tc := ⟨.hbm, 11, rfl⟩
abbrev main_call1_v0 : Ref sig .tc := ⟨.hbm, 12, rfl⟩
abbrev main_call1_cst_0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_call1_v5 : Ref sig .tc := ⟨.hbm, 18, rfl⟩
abbrev main_call1_v6 : Ref sig .tc := ⟨.hbm, 19, rfl⟩
abbrev main_call1_cst_1 : Ref sig .tc := ⟨.hbm, 20, rfl⟩
abbrev main_call1_v7 : Ref sig .tc := ⟨.hbm, 21, rfl⟩
abbrev main_call1_v8 : Ref sig .tc := ⟨.hbm, 22, rfl⟩
abbrev main_call1_v9 : Ref sig .tc := ⟨.hbm, 23, rfl⟩
abbrev main_call1_v10 : Ref sig .tc := ⟨.hbm, 24, rfl⟩
abbrev main_v3 : Ref sig .tc := ⟨.hbm, 25, rfl⟩
abbrev main_v4 : Ref sig .tc := ⟨.hbm, 26, rfl⟩
abbrev main_call2_c : Ref sig .tc := ⟨.hbm, 27, rfl⟩
abbrev main_call2_v0 : Ref sig .tc := ⟨.hbm, 28, rfl⟩
abbrev main_call2_v1 : Ref sig .tc := ⟨.hbm, 29, rfl⟩
abbrev main_call2_c_0 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_call2_c_1 : Ref sig .tc := ⟨.hbm, 35, rfl⟩
abbrev main_call2_c_2 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_c_3 : Ref sig .tc := ⟨.hbm, 43, rfl⟩
abbrev main_call2_v12 : Ref sig .tc := ⟨.hbm, 44, rfl⟩
abbrev main_call2_v13 : Ref sig .tc := ⟨.hbm, 45, rfl⟩
abbrev main_call2_cst : Ref sig .tc := ⟨.hbm, 46, rfl⟩
abbrev main_call2_v14 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_cst : Ref sig .tc := ⟨.hbm, 53, rfl⟩
abbrev main_v10 : Ref sig .tc := ⟨.hbm, 54, rfl⟩
abbrev main_cst_1 : Ref sig .tc := ⟨.hbm, 55, rfl⟩
abbrev main_v11 : Ref sig .tc := ⟨.hbm, 56, rfl⟩
abbrev main_cst_2 : Ref sig .tc := ⟨.hbm, 57, rfl⟩
abbrev main_v12 : Ref sig .tc := ⟨.hbm, 58, rfl⟩
abbrev main_v13 : Ref sig .tc := ⟨.hbm, 59, rfl⟩
abbrev main_c_3 : Ref sig .tc := ⟨.hbm, 60, rfl⟩
abbrev main_v14 : Ref sig .tc := ⟨.hbm, 61, rfl⟩
abbrev main_v15 : Ref sig .tc := ⟨.hbm, 62, rfl⟩
abbrev main_c_4 : Ref sig .tc := ⟨.hbm, 63, rfl⟩
abbrev main_call3_v0 : Ref sig .tc := ⟨.hbm, 64, rfl⟩
abbrev main_call3_v1 : Ref sig .tc := ⟨.hbm, 65, rfl⟩
abbrev main_v16 : Ref sig .tc := ⟨.hbm, 66, rfl⟩
abbrev main_call4_cst : Ref sig .tc := ⟨.hbm, 67, rfl⟩
abbrev main_call4_v0 : Ref sig .tc := ⟨.hbm, 68, rfl⟩
abbrev main_call4_cst_0 : Ref sig .tc := ⟨.hbm, 69, rfl⟩
abbrev main_call4_v1 : Ref sig .tc := ⟨.hbm, 70, rfl⟩
abbrev main_call4_v2 : Ref sig .tc := ⟨.hbm, 71, rfl⟩
abbrev main_call4_v3 : Ref sig .tc := ⟨.hbm, 72, rfl⟩
abbrev main_call4_v4 : Ref sig .tc := ⟨.hbm, 73, rfl⟩
abbrev main_call4_v5 : Ref sig .tc := ⟨.hbm, 74, rfl⟩
abbrev main_call4_v6 : Ref sig .tc := ⟨.hbm, 75, rfl⟩
abbrev main_call4_cst_1 : Ref sig .tc := ⟨.hbm, 76, rfl⟩
abbrev main_call4_v7 : Ref sig .tc := ⟨.hbm, 77, rfl⟩
abbrev main_call4_v8 : Ref sig .tc := ⟨.hbm, 78, rfl⟩
abbrev main_call4_v9 : Ref sig .tc := ⟨.hbm, 79, rfl⟩
abbrev main_call4_v10 : Ref sig .tc := ⟨.hbm, 80, rfl⟩
abbrev main_v17 : Ref sig .tc := ⟨.hbm, 81, rfl⟩
abbrev main_v18 : Ref sig .tc := ⟨.hbm, 82, rfl⟩
abbrev main_call5_c : Ref sig .tc := ⟨.hbm, 83, rfl⟩
abbrev main_call5_v0 : Ref sig .tc := ⟨.hbm, 84, rfl⟩
abbrev main_call5_v1 : Ref sig .tc := ⟨.hbm, 85, rfl⟩
abbrev main_call5_c_0 : Ref sig .tc := ⟨.hbm, 86, rfl⟩
abbrev main_call5_v2 : Ref sig .tc := ⟨.hbm, 87, rfl⟩
abbrev main_call5_v3 : Ref sig .tc := ⟨.hbm, 88, rfl⟩
abbrev main_call5_v4 : Ref sig .tc := ⟨.hbm, 89, rfl⟩
abbrev main_call5_v5 : Ref sig .tc := ⟨.hbm, 90, rfl⟩
abbrev main_call5_c_1 : Ref sig .tc := ⟨.hbm, 91, rfl⟩
abbrev main_call5_c_2 : Ref sig .tc := ⟨.hbm, 92, rfl⟩
abbrev main_call5_v6 : Ref sig .tc := ⟨.hbm, 93, rfl⟩
abbrev main_call5_v7 : Ref sig .tc := ⟨.hbm, 94, rfl⟩
abbrev main_call5_v8 : Ref sig .tc := ⟨.hbm, 95, rfl⟩
abbrev main_call5_v9 : Ref sig .tc := ⟨.hbm, 96, rfl⟩
abbrev main_call5_v10 : Ref sig .tc := ⟨.hbm, 97, rfl⟩
abbrev main_call5_v11 : Ref sig .tc := ⟨.hbm, 98, rfl⟩
abbrev main_call5_c_3 : Ref sig .tc := ⟨.hbm, 99, rfl⟩
abbrev main_call5_v12 : Ref sig .tc := ⟨.hbm, 100, rfl⟩
abbrev main_call5_v13 : Ref sig .tc := ⟨.hbm, 101, rfl⟩
abbrev main_call5_cst : Ref sig .tc := ⟨.hbm, 102, rfl⟩
abbrev main_call5_v14 : Ref sig .tc := ⟨.hbm, 103, rfl⟩
abbrev main_v19 : Ref sig .tc := ⟨.hbm, 104, rfl⟩
abbrev main_v20 : Ref sig .tc := ⟨.hbm, 105, rfl⟩
abbrev main_v21 : Ref sig .tc := ⟨.hbm, 106, rfl⟩
abbrev main_v22 : Ref sig .tc := ⟨.hbm, 107, rfl⟩
abbrev main_v23 : Ref sig .tc := ⟨.hbm, 108, rfl⟩
abbrev main_cst_5 : Ref sig .tc := ⟨.hbm, 109, rfl⟩
abbrev main_v24 : Ref sig .tc := ⟨.hbm, 110, rfl⟩
abbrev main_cst_6 : Ref sig .tc := ⟨.hbm, 111, rfl⟩
abbrev main_v25 : Ref sig .tc := ⟨.hbm, 112, rfl⟩
abbrev main_cst_7 : Ref sig .tc := ⟨.hbm, 113, rfl⟩
abbrev main_v26 : Ref sig .tc := ⟨.hbm, 114, rfl⟩
abbrev main_v27 : Ref sig .tc := ⟨.hbm, 115, rfl⟩
abbrev main_c_8 : Ref sig .tc := ⟨.hbm, 116, rfl⟩
abbrev main_v28 : Ref sig .tc := ⟨.hbm, 117, rfl⟩
abbrev main_v29 : Ref sig .tc := ⟨.hbm, 118, rfl⟩
abbrev main_c_9 : Ref sig .tc := ⟨.hbm, 119, rfl⟩
abbrev main_call6_v0 : Ref sig .tc := ⟨.hbm, 120, rfl⟩
abbrev main_call6_v1 : Ref sig .tc := ⟨.hbm, 121, rfl⟩
abbrev main_v30 : Ref sig .tc := ⟨.hbm, 122, rfl⟩
abbrev main_v31 : Ref sig .tc := ⟨.hbm, 123, rfl⟩
abbrev main_v32 : Ref sig .tc := ⟨.hbm, 124, rfl⟩
abbrev main_v33 : Ref sig .tc := ⟨.hbm, 125, rfl⟩
abbrev main_v34 : Ref sig .tc := ⟨.hbm, 126, rfl⟩
abbrev main_v35 : Ref sig .tc := ⟨.hbm, 127, rfl⟩
abbrev main_v36 : Ref sig .tc := ⟨.hbm, 128, rfl⟩
abbrev main_v37 : Ref sig .tc := ⟨.hbm, 129, rfl⟩
abbrev main_v38 : Ref sig .tc := ⟨.hbm, 130, rfl⟩
abbrev main_cst_10 : Ref sig .tc := ⟨.hbm, 131, rfl⟩
abbrev main_v39 : Ref sig .tc := ⟨.hbm, 132, rfl⟩
abbrev main_v40 : Ref sig .tc := ⟨.hbm, 133, rfl⟩
abbrev main_v41 : Ref sig .tc := ⟨.hbm, 134, rfl⟩
abbrev main_v42 : Ref sig .tc := ⟨.hbm, 135, rfl⟩
abbrev main_v43 : Ref sig .tc := ⟨.hbm, 136, rfl⟩
abbrev main_v44 : Ref sig .tc := ⟨.hbm, 137, rfl⟩
abbrev main_v45 : Ref sig .tc := ⟨.hbm, 138, rfl⟩
abbrev main_v46 : Ref sig .tc := ⟨.hbm, 139, rfl⟩
abbrev main_v47 : Ref sig .tc := ⟨.hbm, 140, rfl⟩
abbrev main_v48 : Ref sig .tc := ⟨.hbm, 141, rfl⟩
abbrev main_v49 : Ref sig .tc := ⟨.hbm, 142, rfl⟩
abbrev main_v50 : Ref sig .tc := ⟨.hbm, 143, rfl⟩
abbrev main_v51 : Ref sig .tc := ⟨.hbm, 144, rfl⟩
abbrev main_cst_11 : Ref sig .tc := ⟨.hbm, 145, rfl⟩
abbrev main_v52 : Ref sig .tc := ⟨.hbm, 146, rfl⟩
abbrev main_v53 : Ref sig .tc := ⟨.hbm, 147, rfl⟩
abbrev main_v54 : Ref sig .tc := ⟨.hbm, 148, rfl⟩
abbrev main_v55 : Ref sig .tc := ⟨.hbm, 149, rfl⟩
abbrev main_v56 : Ref sig .tc := ⟨.hbm, 150, rfl⟩
abbrev main_v57 : Ref sig .tc := ⟨.hbm, 151, rfl⟩
abbrev main_v58 : Ref sig .tc := ⟨.hbm, 152, rfl⟩
abbrev main_cst_12 : Ref sig .tc := ⟨.hbm, 153, rfl⟩
abbrev main_v59 : Ref sig .tc := ⟨.hbm, 154, rfl⟩
abbrev main_v60 : Ref sig .tc := ⟨.hbm, 155, rfl⟩
abbrev main_v61 : Ref sig .tc := ⟨.hbm, 156, rfl⟩
abbrev main_cst_13 : Ref sig .tc := ⟨.hbm, 157, rfl⟩
abbrev main_v62 : Ref sig .tc := ⟨.hbm, 158, rfl⟩
abbrev main_v63 : Ref sig .tc := ⟨.hbm, 159, rfl⟩
abbrev main_v64 : Ref sig .tc := ⟨.hbm, 160, rfl⟩
abbrev main_v65 : Ref sig .tc := ⟨.hbm, 161, rfl⟩
abbrev main_c_14 : Ref sig .tc := ⟨.hbm, 162, rfl⟩
abbrev main_v66 : Ref sig .tc := ⟨.hbm, 163, rfl⟩
abbrev main_v67 : Ref sig .tc := ⟨.hbm, 164, rfl⟩
abbrev main_v68 : Ref sig .tc := ⟨.hbm, 165, rfl⟩
abbrev main_v69 : Ref sig .tc := ⟨.hbm, 166, rfl⟩
abbrev main_v70 : Ref sig .tc := ⟨.hbm, 167, rfl⟩
abbrev main_v71 : Ref sig .tc := ⟨.hbm, 168, rfl⟩
abbrev main_cst_15 : Ref sig .tc := ⟨.hbm, 169, rfl⟩
abbrev main_v72 : Ref sig .tc := ⟨.hbm, 170, rfl⟩
abbrev main_v73 : Ref sig .tc := ⟨.hbm, 171, rfl⟩
abbrev main_v74 : Ref sig .tc := ⟨.hbm, 172, rfl⟩
abbrev main_v75 : Ref sig .tc := ⟨.hbm, 173, rfl⟩
abbrev main_v76 : Ref sig .tc := ⟨.hbm, 174, rfl⟩
abbrev main_v77 : Ref sig .tc := ⟨.hbm, 175, rfl⟩
abbrev main_v78 : Ref sig .tc := ⟨.hbm, 176, rfl⟩
abbrev main_v79 : Ref sig .tc := ⟨.hbm, 177, rfl⟩
abbrev main_v80 : Ref sig .tc := ⟨.hbm, 178, rfl⟩
abbrev main_cst_16 : Ref sig .tc := ⟨.hbm, 179, rfl⟩
abbrev main_v81 : Ref sig .tc := ⟨.hbm, 180, rfl⟩
abbrev main_cst_17 : Ref sig .tc := ⟨.hbm, 181, rfl⟩
abbrev main_v82 : Ref sig .tc := ⟨.hbm, 182, rfl⟩
abbrev main_v83 : Ref sig .tc := ⟨.hbm, 183, rfl⟩
abbrev main_cst_18 : Ref sig .tc := ⟨.hbm, 184, rfl⟩
abbrev main_v84 : Ref sig .tc := ⟨.hbm, 185, rfl⟩
abbrev main_v85 : Ref sig .tc := ⟨.hbm, 186, rfl⟩

abbrev nD : Nat := 1
abbrev τ : Topo := Topo.v7x

variable {F : FTy → Type} [FloatOps F]

class Facts₀ : Prop where
  bcast_S_S8x512x512 : S_.BroadcastsInDim S8x512x512 (![] : Fin 0 → Fin S8x512x512.rank)
  reducesTo_S8x20x512x512_S8x512x512_d1 : S8x20x512x512.ReducesTo [1] S8x512x512
  h_S_ : 0 < S_.numel
  bcast_S8x512x512_S8x1x512x512_0_2_3 : S8x512x512.BroadcastsInDim S8x1x512x512 (![0, 2, 3] : Fin 3 → Fin S8x1x512x512.rank)
  bcast_S8x1x512x512_S8x20x512x512_0_1_2_3 : S8x1x512x512.BroadcastsInDim S8x20x512x512 (![0, 1, 2, 3] : Fin 4 → Fin S8x20x512x512.rank)
  bcast_S_S8x1x512x512 : S_.BroadcastsInDim S8x1x512x512 (![] : Fin 0 → Fin S8x1x512x512.rank)
  shapeCasts_S8x1x512x512_S8x1x512x512x1 : S8x1x512x512.ShapeCasts S8x1x512x512x1
  bcast_S_S8x1x512x512x1 : S_.BroadcastsInDim S8x1x512x512x1 (![] : Fin 0 → Fin S8x1x512x512x1.rank)
  bcast_S1_S1x1x1x1x1_4 : S1.BroadcastsInDim S1x1x1x1x1 (![4] : Fin 1 → Fin S1x1x1x1x1.rank)
  bcast_S1x1x1x1x1_S8x1x512x512x1_0_1_2_3_4 : S1x1x1x1x1.BroadcastsInDim S8x1x512x512x1 (![0, 1, 2, 3, 4] : Fin 5 → Fin S8x1x512x512x1.rank)
  reducesTo_S8x1x512x512x1_S8x1x512x512_d4 : S8x1x512x512x1.ReducesTo [4] S8x1x512x512
  shapeCasts_S8x1x512x512_S8x512x512 : S8x1x512x512.ShapeCasts S8x512x512
  reducesTo_S8x512x512_S_d0_1_2 : S8x512x512.ReducesTo [0, 1, 2] S_
  transposes_S8x512x512_S8x512x512_0_2_1 : S8x512x512.Transposes [0, 2, 1] S8x512x512
  slices_S8x512x512_S8x512x1_0_0_1 : S8x512x512.Slices ![0, 0, 1] S8x512x1
  slices_S8x512x512_S8x512x1_0_0_0 : S8x512x512.Slices ![0, 0, 0] S8x512x1
  slices_S8x512x512_S8x512x510_0_0_2 : S8x512x512.Slices ![0, 0, 2] S8x512x510
  slices_S8x512x512_S8x512x510_0_0_0 : S8x512x512.Slices ![0, 0, 0] S8x512x510
  bcast_S_S8x512x510 : S_.BroadcastsInDim S8x512x510 (![] : Fin 0 → Fin S8x512x510.rank)
  slices_S8x512x512_S8x512x1_0_0_511 : S8x512x512.Slices ![0, 0, 511] S8x512x1
  slices_S8x512x512_S8x512x1_0_0_510 : S8x512x512.Slices ![0, 0, 510] S8x512x1
  concatenates_S8x512x1_S8x512x510_S8x512x1_S8x512x512_d2 : Shape.Concatenates [S8x512x1, S8x512x510, S8x512x1] S8x512x512 2
  gather_S8x20x512x512_S8x1x512x512x1_S8x1x512x512_n_1_023_023_1_4_1111_wf : GatherDims.WF S8x20x512x512 S8x1x512x512x1 S8x1x512x512 [] [1] [0, 2, 3] [1] [0, 2, 3] 4 ![1, 1, 1, 1]

variable [Facts₀]

def gather_S8x20x512x512_S8x1x512x512x1_S8x1x512x512_n_1_023_023_1_4_1111 : GatherDims S8x20x512x512 S8x1x512x512x1 S8x1x512x512 where
  offsetDims := []
  collapsedSliceDims := [1]
  operandBatchingDims := [0, 2, 3]
  startIndicesBatchingDims := [0, 2, 3]
  startIndexMap := [1]
  indexVectorDim := 4
  sliceSizes := ![1, 1, 1, 1]
  wf := gather_S8x20x512x512_S8x1x512x512x1_S8x1x512x512_n_1_023_023_1_4_1111_wf

class Facts : Prop extends Facts₀ where

variable [Facts]
-- ==== Proof.Spec.lean ====
/-
  The loss that both programs compute, written once as extended-real functions of the four argument arrays:
  two cross-entropy terms (coarse and refined logits against the label map, ignored pixels dropped, divided by the
  number of labelled pixels, at least one) and an edge term (a binary cross-entropy of the edge logits against the
  indicator "the label map changes here along a row or a column", averaged over every pixel), added with weight 0.4.

  A pixel is (b, y, x) with b < 8 and y, x < 512. Per pixel the cross-entropy is the negative log-softmax of the pixel's
  twenty logits at the pixel's class; it is written twice, in the two arrangements the programs use:
    nllK v t = (log Σₖ exp (vₖ − max v) + max v) − Σₖ [k = t] vₖ
    nllR v t = −((v_t − max v) − log Σₖ exp (vₖ − max v))
  which agree when the logits are real numbers and the class is one of the twenty. The sums over pixels are written in
  the three orders in which they are taken: every pixel at once; by image, by band of 128 rows, by row, by column; by
  image, by row, by column.
-/
import Idealize.ShloMosaic.PureOps.Ideal
import Idealize.ShloMosaic.Lib.ValueIdx

noncomputable section

namespace Cert.Spec

open Idealize.ShloMosaic Idealize.ShloMosaic.ValueIdx

/-- The logits' shape, the edge logits' shape and the label map's shape. -/
abbrev SX : Shape := ⟨4, ![8, 20, 512, 512]⟩
abbrev SE : Shape := ⟨4, ![8, 1, 512, 512]⟩
abbrev ST : Shape := ⟨3, ![8, 512, 512]⟩

abbrev Logits := SX.Idx → EReal
abbrev Edge := SE.Idx → EReal
abbrev Labels := ST.Idx → BitVec 32

/-- The twenty logits of pixel (b, y, x). -/
def logits (X : Logits) (b : Fin 8) (y x : Fin 512) : Fin 20 → EReal := fun k => X (ix4 b k y x)
/-- The label of pixel (b, y, x). -/
def label (T : Labels) (b : Fin 8) (y x : Fin 512) : BitVec 32 := T (ix3 b y x)
/-- The edge logit of pixel (b, y, x). -/
def elogit (E : Edge) (b : Fin 8) (y x : Fin 512) : EReal := E (ix4 b 0 y x)

/-- The float zero, one, one half, the weight 0.4 and the pixel count 2²¹, as the words both programs carry. -/
abbrev zero : EReal := Ideal.ofBits .f32 0x00000000#32
abbrev one : EReal := Ideal.ofBits .f32 0x3F800000#32
abbrev half : EReal := Ideal.ofBits .f32 0x3F000000#32
abbrev weight : EReal := Ideal.ofBits .f32 0x3ECCCCCD#32
abbrev npix : EReal := Ideal.ofBits .f32 0x4A000000#32

/-- A one-bit word as the number 0 or 1. -/
def bit01 (b : BitVec 1) : EReal := ((b.toNat : ℝ) : EReal)

/-- 1 on a labelled pixel, 0 on an ignored one (label 255). -/
def valid (t : BitVec 32) : EReal := bit01 (IntOp.cmpi .ne t 255#32)

/-- The class a pixel is scored at: its label, an ignored pixel at class 0. -/
def tsafe (t : BitVec 32) : BitVec 32 := if t = 255#32 then 0#32 else t

/-- That class as one of the twenty (meaningful when the label is 255 or below 20). -/
def classOf (t : BitVec 32) : Fin 20 := ⟨(tsafe t).toNat % 20, Nat.mod_lt _ (by decide)⟩

/-- The largest of a pixel's logits, taken from −∞. -/
def vmax (v : Fin 20 → EReal) : EReal := (Finset.univ : Finset (Fin 20)).fold max (Ideal.ofBits .f32 0xFF800000#32) v

/-- Σₖ exp (vₖ − max v). -/
def sumexp (v : Fin 20 → EReal) : EReal := ∑ k : Fin 20, Ideal.exp (v k - vmax v)

/-- The negative log-likelihood as the kernel arranges it: log-sum-exp minus the logit picked by a one-hot sum. -/
def nllK (v : Fin 20 → EReal) (t : BitVec 32) : EReal :=
  (Ideal.log (sumexp v) + vmax v) - ∑ k : Fin 20, (if BitVec.ofNat 32 k.val = tsafe t then v k else zero)

/-- The negative log-likelihood as the reference arranges it: minus the log-softmax read at the class. -/
def nllR (v : Fin 20 → EReal) (t : BitVec 32) : EReal :=
  -((v (classOf t) - vmax v) - Ideal.log (sumexp v))

/-- A pixel's cross-entropy contribution, ignored pixels weighted 0, in the two arrangements. -/
def pixCK (X : Logits) (T : Labels) (b : Fin 8) (y x : Fin 512) : EReal :=
  nllK (logits X b y x) (label T b y x) * valid (label T b y x)
def pixCR (X : Logits) (T : Labels) (b : Fin 8) (y x : Fin 512) : EReal :=
  nllR (logits X b y x) (label T b y x) * valid (label T b y x)
/-- A pixel's contribution to the count of labelled pixels. -/
def pixV (T : Labels) (b : Fin 8) (y x : Fin 512) : EReal := valid (label T b y x)

/-- A label as a number, an ignored pixel as −1. -/
def lab (t : BitVec 32) : EReal := (((if t = 255#32 then 4294967295#32 else t).toInt : ℝ) : EReal)

/-- A line of 512 numbers read at a natural position (0 outside). -/
def lineAt (M : Fin 512 → EReal) (n : ℕ) : EReal := if h : n < 512 then M ⟨n, h⟩ else 0

/-- The finite-difference gradient of a line at position p: one-sided at the two ends, central (halved) inside. -/
def grad (M : Fin 512 → EReal) (p : Fin 512) : EReal :=
  if p.val = 0 then lineAt M 1 - lineAt M 0
  else if p.val = 511 then lineAt M 511 - lineAt M 510
  else (lineAt M (p.val + 1) - lineAt M (p.val - 1)) * half

/-- The label map's gradient along a row (x moves) and along a column (y moves) at pixel (b, y, x). -/
def gradX (T : Labels) (b : Fin 8) (y x : Fin 512) : EReal := grad (fun x' => lab (label T b y x')) x
def gradY (T : Labels) (b : Fin 8) (y x : Fin 512) : EReal := grad (fun y' => lab (label T b y' x)) y

/-- The edge indicator of two gradients: one when either is nonzero (|g| > 0), as a bit. -/
def edgeBit (gx gy : EReal) : BitVec 1 :=
  IntOp.ori (Ideal.cmp .ogt (max gx (-gx)) zero) (Ideal.cmp .ogt (max gy (-gy)) zero)

/-- The binary cross-entropy with logits of z against the target y: max z 0 − z·y + log(1 + exp(−|z|)). -/
def bce (z y : EReal) : EReal := (max z zero - z * y) + Ideal.log1p (Ideal.exp (-(max z (-z))))

/-- A pixel's contribution to the edge term: logit and target both weighted by the pixel's validity. -/
def pixE (E : Edge) (T : Labels) (b : Fin 8) (y x : Fin 512) : EReal :=
  bce (elogit E b y x * valid (label T b y x))
    (bit01 (edgeBit (gradX T b y x) (gradY T b y x)) * valid (label T b y x))

/-- The sum of a pixel function over every pixel at once. -/
def sumPix (f : Fin 8 → Fin 512 → Fin 512 → EReal) : EReal := ∑ i : ST.Idx, f (i 0) (i 1) (i 2)
/-- The same by image, by band of 128 rows, by row in the band, by column. -/
def sumBands (f : Fin 8 → Fin 512 → Fin 512 → EReal) : EReal :=
  ∑ b : Fin 8, ∑ h : Fin 4, ∑ i : Fin 128, ∑ j : Fin 512, f b ⟨128 * h.val + i.val, by omega⟩ j
/-- The same by image, by row, by column. -/
def sumRows (f : Fin 8 → Fin 512 → Fin 512 → EReal) : EReal :=
  ∑ b : Fin 8, ∑ i : Fin 512, ∑ j : Fin 512, f b i j

/-- The kernel's partial-sum arrays' shape: one row of 128 equal lanes per image. -/
abbrev SO : Shape := ⟨3, ![8, 1, 128]⟩

/-- Per image, the sum of a pixel function over its four bands of 128 rows, on every lane. -/
def bandArr (f : Fin 8 → Fin 512 → Fin 512 → EReal) : SO.Idx → EReal :=
  fun o => ∑ h : Fin 4, ∑ i : Fin 128, ∑ j : Fin 512, f (o 0) ⟨128 * h.val + i.val, by omega⟩ j
/-- Per image, the sum of a pixel function over its rows and columns, on every lane. -/
def rowArr (f : Fin 8 → Fin 512 → Fin 512 → EReal) : SO.Idx → EReal :=
  fun o => ∑ i : Fin 512, ∑ j : Fin 512, f (o 0) i j

/-- The loss from its four sums: coarse and refined cross-entropy sums, the labelled-pixel count, the edge sum. -/
def total (c r v e : EReal) : EReal :=
  (Ideal.div c (max v one) + Ideal.div r (max v one)) + weight * Ideal.div e npix

/-- The loss as the kernel program accumulates it. -/
def kernelTotal (X0 X1 : Logits) (E : Edge) (T : Labels) : EReal :=
  total (sumBands (pixCK X0 T)) (sumBands (pixCK X1 T)) (sumBands (pixV T)) (sumRows (pixE E T))

/-- The loss as the reference program accumulates it. -/
def refTotal (X0 X1 : Logits) (E : Edge) (T : Labels) : EReal :=
  total (sumPix (pixCR X0 T)) (sumPix (pixCR X1 T)) (sumPix (pixV T)) (sumPix (pixE E T))

/-- Every entry of a float array is a real number. -/
def Real' {s : Shape} (X : s.Idx → EReal) : Prop := ∀ i, ∃ r : ℝ, X i = (r : EReal)

/-- Every label is the ignore mark 255 or one of the twenty classes. -/
def InRange (T : Labels) : Prop := ∀ i, T i = 255#32 ∨ (T i).toNat < 20

end Cert.Spec

end
-- ==== Proof.Tiles.lean ====
/- One grid point's share of the sums, as a function of the blocks the point sees: a band of 128 rows of one image
   for the cross-entropy launch, a whole image for the edge launch. -/
import proofs.«413300_j1606317769444_2_alg».proof.Proof.Spec

noncomputable section

namespace Cert.Spec

open Idealize.ShloMosaic Idealize.ShloMosaic.ValueIdx

/-- A band's logits, a band's labels, an image's labels, an image's edge logits: the blocks' shapes. -/
abbrev BX : Shape := ⟨4, ![1, 20, 128, 512]⟩
abbrev BT : Shape := ⟨3, ![1, 128, 512]⟩
abbrev IT : Shape := ⟨3, ![1, 512, 512]⟩
abbrev IE : Shape := ⟨4, ![1, 1, 512, 512]⟩

/-- The cross-entropy sum of one band: over its 128 rows and 512 columns, the pixel's negative log-likelihood
    (kernel's arrangement) times its validity. -/
def tileC (x : BX.Idx → EReal) (t : BT.Idx → BitVec 32) : EReal :=
  ∑ i : Fin 128, ∑ j : Fin 512, nllK (fun k => x (ix4 0 k i j)) (t (ix3 0 i j)) * valid (t (ix3 0 i j))

/-- The count of labelled pixels of one band. -/
def tileV (t : BT.Idx → BitVec 32) : EReal := ∑ i : Fin 128, ∑ j : Fin 512, valid (t (ix3 0 i j))

/-- The edge sum of one image: over its rows and columns, the binary cross-entropy of the masked edge logit against the
    masked edge indicator of the image's own label map. -/
def tileE (t : IT.Idx → BitVec 32) (e : IE.Idx → EReal) : EReal :=
  ∑ i : Fin 512, ∑ j : Fin 512,
    bce (e (ix4 0 0 i j) * valid (t (ix3 0 i j)))
      (bit01 (edgeBit (grad (fun j' => lab (t (ix3 0 i j'))) j) (grad (fun i' => lab (t (ix3 0 i' j))) i))
        * valid (t (ix3 0 i j)))

end Cert.Spec

end
-- ==== Proof.Region0Pieces.lean ====
/- What one grid point of the cross-entropy launch leaves in the three accumulators: at an image's first band the
   band's sums themselves (the accumulators are reset first), at a later band the running sums plus the band's.

   The band's arithmetic is read pixel by pixel. At pixel (i, j) of the band the validity is 1 or 0 as the label is not or
   is 255; the scored class is the label, or class 0 for an ignored pixel; the one-hot mask at channel k compares k with
   that class; the negative log-likelihood is log Σₖ exp (xₖ − max x) + max x minus the one-hot sum Σₖ [k = class] xₖ,
   the maximum a fold of max from −∞ over the twenty channels. The band's number is the sum along the 512 columns of each
   row, then over the 128 rows, of the pixel's term (log-likelihood times validity, or validity alone): a double sum over
   rows and columns. Each accumulator's new value is, on every lane, what it held plus that number; after a reset it held
   zero. -/
import proofs.«413300_j1606317769444_2_alg».proof.Proof.Gen.KernelIdeal.Frame
import proofs.«413300_j1606317769444_2_alg».proof.Proof.Spec
import proofs.«413300_j1606317769444_2_alg».proof.Proof.Tiles
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.R0

open Cert.KernelIdeal Cert.KernelIdeal.Gen Idealize.ShloMosaic Idealize.ShloMosaic.TcCoe Idealize.SL.Sem
open Idealize.ShloMosaic.Pipeline (Dat)
open Idealize.ShloMosaic.ValueIdx

namespace Pieces

/-- A one-bit word widened to 32 bits and read signed is the bit as a number. -/
theorem bit_toInt (b : BitVec 1) : (((b.setWidth 32).toInt : ℝ) : EReal) = Spec.bit01 b := by
  unfold Spec.bit01
  rcases BitVec.eq_zero_or_eq_one b with h | h <;> subst h <;> simp

/-- The validity of a pixel as a number: 1 when its label is not 255, else 0. -/
theorem pay6_apply (t : Vec Ideal S1x128x512 .i32) (p : S1x128x512.Idx) :
    k0_pay6 (F := Ideal) t p = Spec.valid (t p) := by
  unfold k0_pay6 k0_pay5 Spec.valid
  exact bit_toInt _

/-- The class a pixel is scored at: its label, class 0 when the label is 255. -/
theorem select_ne (t : BitVec 32) : Scalar.select (IntOp.cmpi .ne t 255#32) t 0#32 = Spec.tsafe t := by
  unfold Spec.tsafe Scalar.select IntOp.cmpi
  by_cases h : t = 255#32
  · subst h; rfl
  · have e : (t != 255#32) = true := by simp [h]
    rw [if_neg h, e]; rfl

/-- A choice on the equality of two words is the `if` on it. -/
theorem select_eq {α : Type} (a b : BitVec 32) (u v : α) : Scalar.select (IntOp.cmpi .eq a b) u v = if a = b then u else v := by
  unfold Scalar.select IntOp.cmpi
  by_cases h : a = b
  · subst h; simp
  · have e : (a == b) = false := by simp [h]
    rw [if_neg h, e]; rfl

/-- The one-hot mask at class k of a pixel: class k against the pixel's scored class. -/
theorem pay7_apply (t : Vec Ideal S1x128x512 .i32) (k : Fin 20) (i : Fin 128) (j : Fin 512) :
    k0_pay7 (F := Ideal) t (ix4 (0 : Fin 1) k i j)
      = IntOp.cmpi .eq (BitVec.ofNat 32 k.val) (Spec.tsafe (t (ix3 (0 : Fin 1) i j))) := by
  unfold k0_pay7 k0_pay5
  refine congrArg₂ (IntOp.cmpi .eq) ?_ ?_
  · exact iota_single_apply .tc S1x20x128x512 32 1 _ (ix4 (0 : Fin 1) k i j)
  · refine (broadcastTo_apply _ _ (ix4 (0 : Fin 1) k i j) (ix4 (0 : Fin 1) (0 : Fin 1) i j) (fun a => ?_)).trans ?_
    · match a with
      | ⟨0, _⟩ => rfl
      | ⟨1, _⟩ => rfl
      | ⟨2, _⟩ => rfl
      | ⟨3, _⟩ => rfl
    · refine (shapeCast_abc_1abc_apply _ _ (0 : Fin 1) (0 : Fin 1) i j).trans ?_
      exact select_ne _

/-- Pixel (i, j) with channel k put back on the channel axis is entry (0, k, i, j) of the band. -/
theorem lift20 (h : S1x20x128x512.Reduces [1] S1x128x512) (i : Fin 128) (j : Fin 512) (k : Fin 20) :
    h.lift (ix3 (0 : Fin 1) i j) k = ix4 (0 : Fin 1) k i j := by
  funext c; apply Fin.ext
  match c with
  | ⟨0, _⟩ => rfl
  | ⟨1, _⟩ => rfl
  | ⟨2, _⟩ => rfl
  | ⟨3, _⟩ => rfl

/-- A sum over the twenty channels of a pixel. -/
theorem sum20 (src : FVec Ideal S1x20x128x512 .f32) (h : S1x20x128x512.Reduces [1] S1x128x512) (hφ : FKind.Formats .f32)
    (hacc : (0x00000000#32 : BitVec 32) = FKind.add.neutral .f32 hφ) (i : Fin 128) (j : Fin 512) :
    multiReduction .add [1] S1x128x512 src 0x00000000#32 h hφ hacc (ix3 (0 : Fin 1) i j)
      = ∑ k : Fin 20, src (ix4 (0 : Fin 1) k i j) := by
  refine (Ideal.multiReduction_add_single src _ h hφ hacc (ix3 (0 : Fin 1) i j)).trans ?_
  exact Finset.sum_congr rfl fun k _ => congrArg src (lift20 h i j k)

/-- The largest of the twenty channels of a pixel. -/
theorem max20 (src : FVec Ideal S1x20x128x512 .f32) (h : S1x20x128x512.Reduces [1] S1x128x512) (hφ : FKind.Formats .f32)
    (hacc : (0xFF800000#32 : BitVec 32) = FKind.maximumf.neutral .f32 hφ) (i : Fin 128) (j : Fin 512) :
    multiReduction .maximumf [1] S1x128x512 src 0xFF800000#32 h hφ hacc (ix3 (0 : Fin 1) i j)
      = Spec.vmax (fun k => src (ix4 (0 : Fin 1) k i j)) := by
  refine (Ideal.multiReduction_maximumf_single src _ h hφ hacc (ix3 (0 : Fin 1) i j)).trans ?_
  have e : (src ∘ h.lift (ix3 (0 : Fin 1) i j)) = fun k : Fin 20 => src (ix4 (0 : Fin 1) k i j) :=
    funext fun k => congrArg src (lift20 h i j k)
  rw [e]; rfl

/-- The per-pixel negative log-likelihood the band computes is the specification's, in the kernel's arrangement. -/
theorem pay8_apply (x : Vec Ideal S1x20x128x512 .f32) (t : Vec Ideal S1x128x512 .i32) (i : Fin 128) (j : Fin 512) :
    k0_pay8 (F := Ideal) x t (ix3 (0 : Fin 1) i j)
      = Spec.nllK (fun k => x (ix4 (0 : Fin 1) k i j)) (t (ix3 (0 : Fin 1) i j)) := by
  unfold k0_pay8
  refine (shapeCast_1abc_abc_apply _ _ (0 : Fin 1) i j).trans ?_
  unfold Spec.nllK
  refine congrArg₂ (· - ·) ?_ ?_
  · refine congrArg₂ (· + ·) ?_ ?_
    · refine congrArg Ideal.log ?_
      refine (shapeCast_abc_1abc_apply _ _ (0 : Fin 1) (0 : Fin 1) i j).trans ?_
      refine (sum20 _ _ _ _ i j).trans ?_
      unfold Spec.sumexp
      refine Finset.sum_congr rfl fun k _ => ?_
      refine congrArg Ideal.exp ?_
      refine congrArg₂ (· - ·) rfl ?_
      refine (broadcastTo_apply _ _ (ix4 (0 : Fin 1) k i j) (ix4 (0 : Fin 1) (0 : Fin 1) i j) (fun a => ?_)).trans ?_
      · match a with
      | ⟨0, _⟩ => rfl
      | ⟨1, _⟩ => rfl
      | ⟨2, _⟩ => rfl
      | ⟨3, _⟩ => rfl
      · refine (shapeCast_abc_1abc_apply _ _ (0 : Fin 1) (0 : Fin 1) i j).trans ?_
        exact max20 _ _ _ _ i j
    · refine (shapeCast_abc_1abc_apply _ _ (0 : Fin 1) (0 : Fin 1) i j).trans ?_
      exact max20 _ _ _ _ i j
  · refine (shapeCast_abc_1abc_apply _ _ (0 : Fin 1) (0 : Fin 1) i j).trans ?_
    refine (sum20 _ _ _ _ i j).trans ?_
    refine Finset.sum_congr rfl fun k _ => ?_
    refine (select_apply _ _ _ _).trans ?_
    rw [pay7_apply]
    exact select_eq _ _ _ _

/-- Row i with column j put back is pixel (0, i, j). -/
theorem lift512 (h : S1x128x512.Reduces [2] S1x128) (i : Fin 128) (j : Fin 512) :
    h.lift (ix2 (0 : Fin 1) i) j = ix3 (0 : Fin 1) i j := by
  funext c; apply Fin.ext
  match c with
  | ⟨0, _⟩ => rfl
  | ⟨1, _⟩ => rfl
  | ⟨2, _⟩ => rfl

/-- The one remaining entry with row i put back is entry (0, i, 0) of the column of row sums. -/
theorem lift128 (h : S1x128x1.Reduces [1] S1x1) (i : Fin 128) :
    h.lift (ix2 (0 : Fin 1) (0 : Fin 1)) i = ix3 (0 : Fin 1) i (0 : Fin 1) := by
  funext c; apply Fin.ext
  match c with
  | ⟨0, _⟩ => rfl
  | ⟨1, _⟩ => rfl
  | ⟨2, _⟩ => rfl

/-- The band's sum as the kernel takes it — along the 512 columns of each row, then over the 128 rows — is the double
    sum over rows and columns. -/
theorem tileSum (f : FVec Ideal S1x128x512 .f32) (h1 : S1x128x512.Reduces [2] S1x128) (hφ1 : FKind.Formats .f32)
    (hacc1 : (0x00000000#32 : BitVec 32) = FKind.add.neutral .f32 hφ1) (hc1 : S1x128.ShapeCasts S1x128x1)
    (h2 : S1x128x1.Reduces [1] S1x1) (hφ2 : FKind.Formats .f32)
    (hacc2 : (0x00000000#32 : BitVec 32) = FKind.add.neutral .f32 hφ2) (hc2 : S1x1.ShapeCasts S1x1x1) :
    shapeCast S1x1x1 (multiReduction .add [1] S1x1
        (shapeCast S1x128x1 (multiReduction .add [2] S1x128 f 0x00000000#32 h1 hφ1 hacc1) hc1) 0x00000000#32 h2 hφ2 hacc2) hc2
        (ix3 (0 : Fin 1) (0 : Fin 1) (0 : Fin 1))
      = ∑ i : Fin 128, ∑ j : Fin 512, f (ix3 (0 : Fin 1) i j) := by
  refine (shapeCast_apply _ hc2 (ix3 (0 : Fin 1) (0 : Fin 1) (0 : Fin 1)) (ix2 (0 : Fin 1) (0 : Fin 1)) (by
    rw [Shape.rowMajor_val_two, Shape.rowMajor_val_three]; rfl)).trans ?_
  refine (Ideal.multiReduction_add_single _ _ h2 hφ2 hacc2 (ix2 (0 : Fin 1) (0 : Fin 1))).trans ?_
  refine Finset.sum_congr rfl fun i _ => ?_
  rw [lift128 h2 i]
  refine (shapeCast_apply _ hc1 (ix3 (0 : Fin 1) i (0 : Fin 1)) (ix2 (0 : Fin 1) i) (by
    rw [Shape.rowMajor_val_two, Shape.rowMajor_val_three]
    show 0 * 128 + i.val = (0 * 128 + i.val) * 1 + 0
    omega)).trans ?_
  refine (Ideal.multiReduction_add_single f _ h1 hφ1 hacc1 (ix2 (0 : Fin 1) i)).trans ?_
  exact Finset.sum_congr rfl fun j _ => congrArg f (lift512 h1 i j)

/-- An accumulator update: on every lane, what was loaded plus the band's one number. -/
theorem acc_apply (v60 : Vec Ideal S1x1x128 .f32) (v50 : FVec Ideal S1x1x1 .f32) (hs : S1x1x128.ShapeCasts S1x1x128)
    (hs1 : S1x1x1.ShapeCasts S1x1x1) (hb : S1x1x1.Broadcasts S1x1x128) (l : S1x1x128.Idx) :
    addf (shapeCast S1x1x128 v60 hs) (broadcastTo S1x1x128 (shapeCast S1x1x1 v50 hs1) hb) l
      = v60 l + v50 (ix3 (0 : Fin 1) (0 : Fin 1) (0 : Fin 1)) := by
  refine congrArg₂ (· + ·) ?_ ?_
  · exact congrFun (shapeCast_self _ _) l
  · refine (broadcastTo_apply _ _ l (ix3 (0 : Fin 1) (0 : Fin 1) (0 : Fin 1)) (fun a => ?_)).trans ?_
    · match a with
      | ⟨0, _⟩ => rfl
      | ⟨1, _⟩ => rfl
      | ⟨2, _⟩ => rfl
    · exact congrFun (shapeCast_self _ _) _

/-- The coarse accumulator's update over any two pixel arrays: what was held plus the band's sum of their products. -/
theorem pay12_eq (v11 v30 : FVec Ideal S1x128x512 .f32) (v60 : Vec Ideal S1x1x128 .f32) :
    k0_pay12 v11 v30 v60
      = fun l => v60 l + ∑ i : Fin 128, ∑ j : Fin 512, v30 (ix3 (0 : Fin 1) i j) * v11 (ix3 (0 : Fin 1) i j) := by
  funext l
  unfold k0_pay12
  refine (acc_apply _ _ _ _ _ l).trans ?_
  refine congrArg (v60 l + ·) ?_
  exact tileSum _ _ _ _ _ _ _ _ _

/-- The band's count: the double sum of the validity array. -/
theorem pay11_eq (v11 : FVec Ideal S1x128x512 .f32) :
    k0_pay11 v11 (ix3 (0 : Fin 1) (0 : Fin 1) (0 : Fin 1)) = ∑ i : Fin 128, ∑ j : Fin 512, v11 (ix3 (0 : Fin 1) i j) := by
  unfold k0_pay11
  exact tileSum _ _ _ _ _ _ _ _ _

/-- The count accumulator's update: what was held plus the band's one number. -/
theorem pay1_eq (v59 : FVec Ideal S1x1x1 .f32) (v72 : Vec Ideal S1x1x128 .f32) :
    k0_pay1 v59 v72 = fun l => v72 l + v59 (ix3 (0 : Fin 1) (0 : Fin 1) (0 : Fin 1)) := by
  funext l
  unfold k0_pay1
  exact acc_apply _ _ _ _ _ l

/-- The largest logit of a pixel, as the refined branch carries it. -/
theorem pay9_apply (x : Vec Ideal S1x20x128x512 .f32) (i : Fin 128) (j : Fin 512) :
    k0_pay9 (F := Ideal) x (ix4 (0 : Fin 1) (0 : Fin 1) i j) = Spec.vmax (fun k => x (ix4 (0 : Fin 1) k i j)) := by
  unfold k0_pay9
  refine (shapeCast_abc_1abc_apply _ _ (0 : Fin 1) (0 : Fin 1) i j).trans ?_
  exact max20 _ _ _ _ i j

/-- The shifted exponential of one logit of a pixel. -/
theorem pay10_apply (x : Vec Ideal S1x20x128x512 .f32) (k : Fin 20) (i : Fin 128) (j : Fin 512) :
    k0_pay10 (F := Ideal) x (ix4 (0 : Fin 1) k i j)
      = Ideal.exp (x (ix4 (0 : Fin 1) k i j) - Spec.vmax (fun k => x (ix4 (0 : Fin 1) k i j))) := by
  unfold k0_pay10
  refine congrArg Ideal.exp ?_
  refine congrArg₂ (· - ·) rfl ?_
  refine (broadcastTo_apply _ _ (ix4 (0 : Fin 1) k i j) (ix4 (0 : Fin 1) (0 : Fin 1) i j) (fun a => ?_)).trans ?_
  · match a with
      | ⟨0, _⟩ => rfl
      | ⟨1, _⟩ => rfl
      | ⟨2, _⟩ => rfl
      | ⟨3, _⟩ => rfl
  · exact pay9_apply x i j

/-- The coarse accumulator's new value: what it held plus the band's cross-entropy sum. -/
theorem pay12_tile (x : Vec Ideal S1x20x128x512 .f32) (t : Vec Ideal S1x128x512 .i32) (xo : Vec Ideal S1x1x128 .f32) :
    k0_pay12 (k0_pay6 t) (k0_pay8 x t) xo = fun l => xo l + Spec.tileC x t := by
  rw [pay12_eq]
  funext l
  unfold Spec.tileC
  refine congrArg (xo l + ·) ?_
  exact Finset.sum_congr rfl fun i _ => Finset.sum_congr rfl fun j _ =>
    congrArg₂ (· * ·) (pay8_apply x t i j) (pay6_apply t _)

/-- The refined accumulator's new value: the same sum of the refined logits, its softmax pieces carried separately. -/
theorem pay13_tile (x : Vec Ideal S1x20x128x512 .f32) (t : Vec Ideal S1x128x512 .i32) (xo : Vec Ideal S1x1x128 .f32) :
    k0_pay13 x (k0_pay6 t) (k0_pay7 t) (k0_pay9 x) (k0_pay10 x) xo = fun l => xo l + Spec.tileC x t := by
  funext l
  unfold k0_pay13
  refine (acc_apply _ _ _ _ _ l).trans ?_
  refine congrArg (xo l + ·) ?_
  refine (tileSum _ _ _ _ _ _ _ _ _).trans ?_
  unfold Spec.tileC
  refine Finset.sum_congr rfl fun i _ => Finset.sum_congr rfl fun j _ => ?_
  refine congrArg₂ (· * ·) ?_ (pay6_apply t _)
  refine (shapeCast_1abc_abc_apply _ _ (0 : Fin 1) i j).trans ?_
  unfold Spec.nllK
  refine congrArg₂ (· - ·) ?_ ?_
  · refine congrArg₂ (· + ·) ?_ (pay9_apply x i j)
    refine congrArg Ideal.log ?_
    refine (shapeCast_abc_1abc_apply _ _ (0 : Fin 1) (0 : Fin 1) i j).trans ?_
    refine (sum20 _ _ _ _ i j).trans ?_
    unfold Spec.sumexp
    exact Finset.sum_congr rfl fun k _ => pay10_apply x k i j
  · refine (shapeCast_abc_1abc_apply _ _ (0 : Fin 1) (0 : Fin 1) i j).trans ?_
    refine (sum20 _ _ _ _ i j).trans ?_
    refine Finset.sum_congr rfl fun k _ => ?_
    refine (select_apply _ _ _ _).trans ?_
    rw [pay7_apply]
    exact select_eq _ _ _ _

/-- The count accumulator's new value: what it held plus the band's number of labelled pixels. -/
theorem pay1_tile (t : Vec Ideal S1x128x512 .i32) (xo : Vec Ideal S1x1x128 .f32) :
    k0_pay1 (k0_pay11 (k0_pay6 t)) xo = fun l => xo l + Spec.tileV t := by
  rw [pay1_eq, pay11_eq]
  funext l
  unfold Spec.tileV
  refine congrArg (xo l + ·) ?_
  exact Finset.sum_congr rfl fun i _ => Finset.sum_congr rfl fun j _ => pay6_apply t _

/-- The reset value is zero on every lane. -/
theorem zero2 (l : S1x1x128.Idx) (a : EReal) : (k0_pay2 (F := Ideal)) l + a = a := by
  show Ideal.ofBits .f32 0x00000000#32 + a = a
  rw [Ideal.ofBits_zero_f32, zero_add]
theorem zero3 (l : S1x1x128.Idx) (a : EReal) : (k0_pay3 (F := Ideal)) l + a = a := by
  show Ideal.ofBits .f32 0x00000000#32 + a = a
  rw [Ideal.ofBits_zero_f32, zero_add]
theorem zero4 (l : S1x1x128.Idx) (a : EReal) : (k0_pay4 (F := Ideal)) l + a = a := by
  show Ideal.ofBits .f32 0x00000000#32 + a = a
  rw [Ideal.ofBits_zero_f32, zero_add]

/-- The zero offsets of a whole-block access, rank 3 and rank 4. -/
theorem hz : (![0, 0, 0] : Fin 3 → Nat) = fun _ => 0 := funext fun a => by fin_cases a <;> rfl
theorem hz4 : (![0, 0, 0, 0] : Fin 4 → Nat) = fun _ => 0 := funext fun a => by fin_cases a <;> rfl

end Pieces

open Pieces

/-- First band: the coarse accumulator holds the band's cross-entropy sum on every lane. -/
theorem out_A_3 (c : Dev nD) (i : grid0.Coords) (a2 : Memref sig .tc .vmem S1x20x128x512 .f32) (h2 : a2.IsWhole) (a3 : Memref sig .tc .vmem S1x20x128x512 .f32) (h3 : a3.IsWhole) (a4 : Memref sig .tc .vmem S1x128x512 .i32) (h4 : a4.IsWhole) (a5 : Memref sig .tc .vmem S1x1x128 .f32) (h5 : a5.IsWhole) (a6 : Memref sig .tc .vmem S1x1x128 .f32) (h6 : a6.IsWhole) (a7 : Memref sig .tc .vmem S1x1x128 .f32) (h7 : a7.IsWhole) (hc : cond0_0 i) (x0 x1 : Vec Ideal S1x20x128x512 .f32) (x2 : Vec Ideal S1x128x512 .i32) :
    out0_A_3 (F := Ideal) c i a2 h2 a3 h3 a4 h4 a5 h5 a6 h6 a7 h7 hc x0 x1 x2 = fun _ => Spec.tileC x0 x2 := by
  unfold out0_A_3
  rw [View.read_writes_eq_canon _ _ _ (cover0_A_3 c i a2 h2 a3 h3 a4 h4 a5 h5 a6 h6 a7 h7 hc x0 x1 x2)]
  unfold kernelRun0_A
  dsimp only
  sl_unfold_words
  rw [View.canon_cons_unit_zero (S := S1x1x128) hz, View.readCov_unit_zero (S := S1x1x128) _ hz]
  simp only [View.readAt_eq_ld, h2.read_unread, h3.read_unread, h4.read_unread, h5.read_unread, h6.read_unread, h7.read_unread, View.ld_unit_zero (S := S1x1x128) hz, View.ld_unit_zero (S := S1x128x512) hz, View.ld_unit_zero (S := S1x20x128x512) hz4, shapeCast_self]
  rw [pay12_tile]
  exact funext fun l => zero2 l _

/-- First band: the refined accumulator. -/
theorem out_A_4 (c : Dev nD) (i : grid0.Coords) (a2 : Memref sig .tc .vmem S1x20x128x512 .f32) (h2 : a2.IsWhole) (a3 : Memref sig .tc .vmem S1x20x128x512 .f32) (h3 : a3.IsWhole) (a4 : Memref sig .tc .vmem S1x128x512 .i32) (h4 : a4.IsWhole) (a5 : Memref sig .tc .vmem S1x1x128 .f32) (h5 : a5.IsWhole) (a6 : Memref sig .tc .vmem S1x1x128 .f32) (h6 : a6.IsWhole) (a7 : Memref sig .tc .vmem S1x1x128 .f32) (h7 : a7.IsWhole) (hc : cond0_0 i) (x0 x1 : Vec Ideal S1x20x128x512 .f32) (x2 : Vec Ideal S1x128x512 .i32) :
    out0_A_4 (F := Ideal) c i a2 h2 a3 h3 a4 h4 a5 h5 a6 h6 a7 h7 hc x0 x1 x2 = fun _ => Spec.tileC x1 x2 := by
  unfold out0_A_4
  rw [View.read_writes_eq_canon _ _ _ (cover0_A_4 c i a2 h2 a3 h3 a4 h4 a5 h5 a6 h6 a7 h7 hc x0 x1 x2)]
  unfold kernelRun0_A
  dsimp only
  sl_unfold_words
  rw [View.canon_cons_unit_zero (S := S1x1x128) hz, View.readCov_unit_zero (S := S1x1x128) _ hz]
  simp only [View.readAt_eq_ld, h2.read_unread, h3.read_unread, h4.read_unread, h5.read_unread, h6.read_unread, h7.read_unread, View.ld_unit_zero (S := S1x1x128) hz, View.ld_unit_zero (S := S1x128x512) hz, View.ld_unit_zero (S := S1x20x128x512) hz4, shapeCast_self]
  rw [pay13_tile]
  exact funext fun l => zero3 l _

/-- First band: the count accumulator. -/
theorem out_A_5 (c : Dev nD) (i : grid0.Coords) (a2 : Memref sig .tc .vmem S1x20x128x512 .f32) (h2 : a2.IsWhole) (a3 : Memref sig .tc .vmem S1x20x128x512 .f32) (h3 : a3.IsWhole) (a4 : Memref sig .tc .vmem S1x128x512 .i32) (h4 : a4.IsWhole) (a5 : Memref sig .tc .vmem S1x1x128 .f32) (h5 : a5.IsWhole) (a6 : Memref sig .tc .vmem S1x1x128 .f32) (h6 : a6.IsWhole) (a7 : Memref sig .tc .vmem S1x1x128 .f32) (h7 : a7.IsWhole) (hc : cond0_0 i) (x0 x1 : Vec Ideal S1x20x128x512 .f32) (x2 : Vec Ideal S1x128x512 .i32) :
    out0_A_5 (F := Ideal) c i a2 h2 a3 h3 a4 h4 a5 h5 a6 h6 a7 h7 hc x0 x1 x2 = fun _ => Spec.tileV x2 := by
  unfold out0_A_5
  rw [View.read_writes_eq_canon _ _ _ (cover0_A_5 c i a2 h2 a3 h3 a4 h4 a5 h5 a6 h6 a7 h7 hc x0 x1 x2)]
  unfold kernelRun0_A
  dsimp only
  sl_unfold_words
  rw [View.canon_cons_unit_zero (S := S1x1x128) hz, View.readCov_unit_zero (S := S1x1x128) _ hz]
  simp only [View.readAt_eq_ld, h2.read_unread, h3.read_unread, h4.read_unread, h5.read_unread, h6.read_unread, h7.read_unread, View.ld_unit_zero (S := S1x1x128) hz, View.ld_unit_zero (S := S1x128x512) hz, View.ld_unit_zero (S := S1x20x128x512) hz4, shapeCast_self]
  rw [pay1_tile]
  exact funext fun l => zero4 l _

/-- Later band: the coarse accumulator holds what it held plus the band's cross-entropy sum. -/
theorem out_B_3 (c : Dev nD) (i : grid0.Coords) (a2 : Memref sig .tc .vmem S1x20x128x512 .f32) (h2 : a2.IsWhole) (a3 : Memref sig .tc .vmem S1x20x128x512 .f32) (h3 : a3.IsWhole) (a4 : Memref sig .tc .vmem S1x128x512 .i32) (h4 : a4.IsWhole) (a5 : Memref sig .tc .vmem S1x1x128 .f32) (h5 : a5.IsWhole) (a6 : Memref sig .tc .vmem S1x1x128 .f32) (h6 : a6.IsWhole) (a7 : Memref sig .tc .vmem S1x1x128 .f32) (h7 : a7.IsWhole) (hc : ¬cond0_0 i) (x0 x1 : Vec Ideal S1x20x128x512 .f32) (x2 : Vec Ideal S1x128x512 .i32) (xo3 xo4 xo5 : Vec Ideal S1x1x128 .f32) :
    out0_B_3 (F := Ideal) c i a2 h2 a3 h3 a4 h4 a5 h5 a6 h6 a7 h7 hc x0 x1 x2 xo3 xo4 xo5 = fun l => xo3 l + Spec.tileC x0 x2 := by
  unfold out0_B_3
  rw [View.read_writes_eq_canon _ _ _ (cover0_B_3 c i a2 h2 a3 h3 a4 h4 a5 h5 a6 h6 a7 h7 hc x0 x1 x2 xo3 xo4 xo5)]
  unfold kernelRun0_B
  dsimp only
  sl_unfold_words
  rw [View.canon_unit_zero hz]
  simp only [View.readAt_eq_ld, h2.read_unread, h3.read_unread, h4.read_unread, h5.read_unread, h6.read_unread, h7.read_unread, View.ld_unit_zero (S := S1x1x128) hz, View.ld_unit_zero (S := S1x128x512) hz, View.ld_unit_zero (S := S1x20x128x512) hz4, shapeCast_self]
  exact pay12_tile x0 x2 xo3

/-- Later band: the refined accumulator. -/
theorem out_B_4 (c : Dev nD) (i : grid0.Coords) (a2 : Memref sig .tc .vmem S1x20x128x512 .f32) (h2 : a2.IsWhole) (a3 : Memref sig .tc .vmem S1x20x128x512 .f32) (h3 : a3.IsWhole) (a4 : Memref sig .tc .vmem S1x128x512 .i32) (h4 : a4.IsWhole) (a5 : Memref sig .tc .vmem S1x1x128 .f32) (h5 : a5.IsWhole) (a6 : Memref sig .tc .vmem S1x1x128 .f32) (h6 : a6.IsWhole) (a7 : Memref sig .tc .vmem S1x1x128 .f32) (h7 : a7.IsWhole) (hc : ¬cond0_0 i) (x0 x1 : Vec Ideal S1x20x128x512 .f32) (x2 : Vec Ideal S1x128x512 .i32) (xo3 xo4 xo5 : Vec Ideal S1x1x128 .f32) :
    out0_B_4 (F := Ideal) c i a2 h2 a3 h3 a4 h4 a5 h5 a6 h6 a7 h7 hc x0 x1 x2 xo3 xo4 xo5 = fun l => xo4 l + Spec.tileC x1 x2 := by
  unfold out0_B_4
  rw [View.read_writes_eq_canon _ _ _ (cover0_B_4 c i a2 h2 a3 h3 a4 h4 a5 h5 a6 h6 a7 h7 hc x0 x1 x2 xo3 xo4 xo5)]
  unfold kernelRun0_B
  dsimp only
  sl_unfold_words
  rw [View.canon_unit_zero hz]
  simp only [View.readAt_eq_ld, h2.read_unread, h3.read_unread, h4.read_unread, h5.read_unread, h6.read_unread, h7.read_unread, View.ld_unit_zero (S := S1x1x128) hz, View.ld_unit_zero (S := S1x128x512) hz, View.ld_unit_zero (S := S1x20x128x512) hz4, shapeCast_self]
  exact pay13_tile x1 x2 xo4

/-- Later band: the count accumulator. -/
theorem out_B_5 (c : Dev nD) (i : grid0.Coords) (a2 : Memref sig .tc .vmem S1x20x128x512 .f32) (h2 : a2.IsWhole) (a3 : Memref sig .tc .vmem S1x20x128x512 .f32) (h3 : a3.IsWhole) (a4 : Memref sig .tc .vmem S1x128x512 .i32) (h4 : a4.IsWhole) (a5 : Memref sig .tc .vmem S1x1x128 .f32) (h5 : a5.IsWhole) (a6 : Memref sig .tc .vmem S1x1x128 .f32) (h6 : a6.IsWhole) (a7 : Memref sig .tc .vmem S1x1x128 .f32) (h7 : a7.IsWhole) (hc : ¬cond0_0 i) (x0 x1 : Vec Ideal S1x20x128x512 .f32) (x2 : Vec Ideal S1x128x512 .i32) (xo3 xo4 xo5 : Vec Ideal S1x1x128 .f32) :
    out0_B_5 (F := Ideal) c i a2 h2 a3 h3 a4 h4 a5 h5 a6 h6 a7 h7 hc x0 x1 x2 xo3 xo4 xo5 = fun l => xo5 l + Spec.tileV x2 := by
  unfold out0_B_5
  rw [View.read_writes_eq_canon _ _ _ (cover0_B_5 c i a2 h2 a3 h3 a4 h4 a5 h5 a6 h6 a7 h7 hc x0 x1 x2 xo3 xo4 xo5)]
  unfold kernelRun0_B
  dsimp only
  sl_unfold_words
  rw [View.canon_unit_zero hz]
  simp only [View.readAt_eq_ld, h2.read_unread, h3.read_unread, h4.read_unread, h5.read_unread, h6.read_unread, h7.read_unread, View.ld_unit_zero (S := S1x1x128) hz, View.ld_unit_zero (S := S1x128x512) hz, View.ld_unit_zero (S := S1x20x128x512) hz4, shapeCast_self]
  exact pay1_tile x2 xo5

end Cert.KernelIdeal.R0

end
-- ==== Proof.Region0.lean ====
/- What the cross-entropy launch leaves in its three result arrays: per image, on every lane, the sum over the
   image's four bands of 128 rows of the pixels' contributions (coarse, refined, labelled count). -/
import proofs.«413300_j1606317769444_2_alg».proof.Proof.Gen.KernelIdeal.Frame
import proofs.«413300_j1606317769444_2_alg».proof.Proof.Spec
import proofs.«413300_j1606317769444_2_alg».proof.Proof.Tiles
import proofs.«413300_j1606317769444_2_alg».proof.Proof.Region0Pieces
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.R0

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The running sum of a per-point addend over an image's bands: restarted at the image's first band. -/
def bandRun (g : (n : ℕ) → n < cfg0.N → EReal) : (n : ℕ) → n < cfg0.N → EReal
  | 0, h => g 0 h
  | n + 1, h => if (n + 1) % 4 = 0 then g (n + 1) h else bandRun g n (Nat.lt_of_succ_lt h) + g (n + 1) h

theorem bandRun_first (g : (n : ℕ) → n < cfg0.N → EReal) (n : ℕ) (h : n < cfg0.N) (h0 : n % 4 = 0) : bandRun g n h = g n h := by
  cases n with
  | zero => rfl
  | succ n => exact if_pos h0

theorem bandRun_later (g : (n : ℕ) → n < cfg0.N → EReal) (n : ℕ) (h : n + 1 < cfg0.N) (h0 : ¬(n + 1) % 4 = 0) :
    bandRun g (n + 1) h = bandRun g n (Nat.lt_of_succ_lt h) + g (n + 1) h := if_neg h0

/-- The three addends of a grid point: its band's sums over the blocks the point sees. -/
def addC (c : Dev nD) (n : ℕ) (h : n < cfg0.N) : EReal := Spec.tileC (iblk0 V c 0 ⟨n, h⟩) (iblk0 V c 2 ⟨n, h⟩)
def addR (c : Dev nD) (n : ℕ) (h : n < cfg0.N) : EReal := Spec.tileC (iblk0 V c 1 ⟨n, h⟩) (iblk0 V c 2 ⟨n, h⟩)
def addV (c : Dev nD) (n : ℕ) (h : n < cfg0.N) : EReal := Spec.tileV (iblk0 V c 2 ⟨n, h⟩)

/-- At an image's first band the three accumulators hold the band's sums. -/
theorem outs_first (c : Dev nD) (t : Fin cfg0.N) (h0 : t.val % 4 = 0) :
    outsAt0 V c t.val t.isLt = (fun _ => addC V c t.val t.isLt, fun _ => addR V c t.val t.isLt, fun _ => addV V c t.val t.isLt) := by
  rw [outsAt0_A V c t h0,
    out_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t),
    out_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t),
    out_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)]
  rfl

/-- At a later band they hold what they held plus the band's sums. -/
theorem outs_later (c : Dev nD) (t : Fin cfg0.N) (h0 : ¬t.val % 4 = 0) :
    outsAt0 V c t.val t.isLt
      = (fun l => (outsAt0 V c (t.val - 1) (Nat.lt_of_le_of_lt (Nat.sub_le _ _) t.isLt)).1 l + addC V c t.val t.isLt,
         fun l => (outsAt0 V c (t.val - 1) (Nat.lt_of_le_of_lt (Nat.sub_le _ _) t.isLt)).2.1 l + addR V c t.val t.isLt,
         fun l => (outsAt0 V c (t.val - 1) (Nat.lt_of_le_of_lt (Nat.sub_le _ _) t.isLt)).2.2 l + addV V c t.val t.isLt) := by
  rw [outsAt0_B V c t h0,
    out_B_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2,
    out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2,
    out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2]
  rfl

theorem outs_eq (c : Dev nD) : ∀ (n : ℕ) (h : n < cfg0.N),
    outsAt0 V c n h = (fun _ => bandRun (addC V c) n h, fun _ => bandRun (addR V c) n h, fun _ => bandRun (addV V c) n h)
  | 0, h => by
    rw [outs_first V c ⟨0, h⟩ rfl]
    rfl
  | n + 1, h => by
    by_cases h0 : (n + 1) % 4 = 0
    · rw [outs_first V c ⟨n + 1, h⟩ h0, bandRun_first _ _ _ h0, bandRun_first _ _ _ h0, bandRun_first _ _ _ h0]
    · rw [outs_later V c ⟨n + 1, h⟩ h0, bandRun_later _ _ _ h0, bandRun_later _ _ _ h0, bandRun_later _ _ _ h0]
      show (fun l => (outsAt0 V c n _).1 l + _, fun l => (outsAt0 V c n _).2.1 l + _, fun l => (outsAt0 V c n _).2.2 l + _) = _
      rw [outs_eq c n (Nat.lt_of_succ_lt h)]

/-- After an image's last band the running sum is the sum of its four bands' addends. -/
theorem bandRun_last (g : (n : ℕ) → n < cfg0.N → EReal) (n : ℕ) (h : n < cfg0.N) (q : ℕ) (hq : n = 4 * q + 3) :
    bandRun g n h = g (4 * q) (by omega) + g (4 * q + 1) (by omega) + g (4 * q + 2) (by omega) + g (4 * q + 3) (by omega) := by
  subst hq
  rw [bandRun_later g (4 * q + 2) h (by omega), bandRun_later g (4 * q + 1) _ (by omega), bandRun_later g (4 * q) _ (by omega),
    bandRun_first g (4 * q) _ (by omega)]

/-- Where the windows' blocks sit at a grid point: image = point / 4, band = point % 4. -/
theorem point_in : ∀ t : Fin cfg0.N,
    (win0_0.index t 0 = t.val / 4 ∧ win0_0.index t 1 = 0 ∧ win0_0.index t 2 = t.val % 4 ∧ win0_0.index t 3 = 0)
    ∧ (win0_1.index t 0 = t.val / 4 ∧ win0_1.index t 1 = 0 ∧ win0_1.index t 2 = t.val % 4 ∧ win0_1.index t 3 = 0)
    ∧ (win0_2.index t 0 = t.val / 4 ∧ win0_2.index t 1 = t.val % 4 ∧ win0_2.index t 2 = 0) :=
  (by decide +kernel : ∀ t : Fin grid0.N, _)

theorem point_out : ∀ t : Fin cfg0.N,
    (win0_3.index t 0 = t.val / 4 ∧ win0_3.index t 1 = 0 ∧ win0_3.index t 2 = 0)
    ∧ (win0_4.index t 0 = t.val / 4 ∧ win0_4.index t 1 = 0 ∧ win0_4.index t 2 = 0)
    ∧ (win0_5.index t 0 = t.val / 4 ∧ win0_5.index t 1 = 0 ∧ win0_5.index t 2 = 0) :=
  (by decide +kernel : ∀ t : Fin grid0.N, _)

/-- The coarse logits' block at a point, read at an entry: the array at the image and the band's row. -/
theorem xblk_read (c : Dev nD) (t : Fin cfg0.N) (k : Fin 20) (i : Fin 128) (j : Fin 512) (b : Fin 8) (y : Fin 512)
    (hb : b.val = t.val / 4) (hy : y.val = 128 * (t.val % 4) + i.val) :
    iblk0 V c 0 t (ValueIdx.ix4 (0 : Fin 1) k i j : Spec.BX.Idx) = V c main_arg0 (ValueIdx.ix4 b k y j : Spec.SX.Idx) := by
  obtain ⟨⟨e0, e1, e2, e3⟩, -, -⟩ := point_in t
  unfold iblk0
  rw [View.read_apply]
  show V c main_arg0 _ = V c main_arg0 _
  congr 1
  funext a
  apply Fin.ext
  match a with
  | ⟨0, _⟩ => show win0_0.index t 0 * 1 + 1 * 0 = b.val; omega
  | ⟨1, _⟩ => show win0_0.index t 1 * 20 + 1 * k.val = k.val; omega
  | ⟨2, _⟩ => show win0_0.index t 2 * 128 + 1 * i.val = y.val; omega
  | ⟨3, _⟩ => show win0_0.index t 3 * 512 + 1 * j.val = j.val; omega

/-- The refined logits' block at a point, read at an entry. -/
theorem rblk_read (c : Dev nD) (t : Fin cfg0.N) (k : Fin 20) (i : Fin 128) (j : Fin 512) (b : Fin 8) (y : Fin 512)
    (hb : b.val = t.val / 4) (hy : y.val = 128 * (t.val % 4) + i.val) :
    iblk0 V c 1 t (ValueIdx.ix4 (0 : Fin 1) k i j : Spec.BX.Idx) = V c main_arg1 (ValueIdx.ix4 b k y j : Spec.SX.Idx) := by
  obtain ⟨-, ⟨e0, e1, e2, e3⟩, -⟩ := point_in t
  unfold iblk0
  rw [View.read_apply]
  show V c main_arg1 _ = V c main_arg1 _
  congr 1
  funext a
  apply Fin.ext
  match a with
  | ⟨0, _⟩ => show win0_1.index t 0 * 1 + 1 * 0 = b.val; omega
  | ⟨1, _⟩ => show win0_1.index t 1 * 20 + 1 * k.val = k.val; omega
  | ⟨2, _⟩ => show win0_1.index t 2 * 128 + 1 * i.val = y.val; omega
  | ⟨3, _⟩ => show win0_1.index t 3 * 512 + 1 * j.val = j.val; omega

/-- The label map's block at a point, read at an entry. -/
theorem tblk_read (c : Dev nD) (t : Fin cfg0.N) (i : Fin 128) (j : Fin 512) (b : Fin 8) (y : Fin 512)
    (hb : b.val = t.val / 4) (hy : y.val = 128 * (t.val % 4) + i.val) :
    iblk0 V c 2 t (ValueIdx.ix3 (0 : Fin 1) i j : Spec.BT.Idx) = V c main_arg3 (ValueIdx.ix3 b y j : Spec.ST.Idx) := by
  obtain ⟨-, -, ⟨e0, e1, e2⟩⟩ := point_in t
  unfold iblk0
  rw [View.read_apply]
  show V c main_arg3 _ = V c main_arg3 _
  congr 1
  funext a
  apply Fin.ext
  match a with
  | ⟨0, _⟩ => show win0_2.index t 0 * 1 + 1 * 0 = b.val; omega
  | ⟨1, _⟩ => show win0_2.index t 1 * 128 + 1 * i.val = y.val; omega
  | ⟨2, _⟩ => show win0_2.index t 2 * 512 + 1 * j.val = j.val; omega

/-- A point's coarse addend is the band's sum of the pixels' contributions, read off the arrays. -/
theorem addC_eq (c : Dev nD) (n : ℕ) (h : n < cfg0.N) (b : Fin 8) (k : Fin 4) (hn : n = 4 * b.val + k.val) :
    addC V c n h = ∑ i : Fin 128, ∑ j : Fin 512,
      Spec.pixCK (V c main_arg0) (V c main_arg3) b ⟨128 * k.val + i.val, by omega⟩ j := by
  unfold addC Spec.tileC Spec.pixCK Spec.logits Spec.label
  refine Finset.sum_congr rfl fun i _ => Finset.sum_congr rfl fun j _ => ?_
  have hb : b.val = (⟨n, h⟩ : Fin cfg0.N).val / 4 := by show b.val = n / 4; omega
  have hy : (⟨128 * k.val + i.val, by omega⟩ : Fin 512).val = 128 * ((⟨n, h⟩ : Fin cfg0.N).val % 4) + i.val := by
    show 128 * k.val + i.val = 128 * (n % 4) + i.val; omega
  rw [tblk_read V c ⟨n, h⟩ i j b ⟨128 * k.val + i.val, by omega⟩ hb hy,
    funext fun q => xblk_read V c ⟨n, h⟩ q i j b ⟨128 * k.val + i.val, by omega⟩ hb hy]

/-- A point's refined addend, read off the arrays. -/
theorem addR_eq (c : Dev nD) (n : ℕ) (h : n < cfg0.N) (b : Fin 8) (k : Fin 4) (hn : n = 4 * b.val + k.val) :
    addR V c n h = ∑ i : Fin 128, ∑ j : Fin 512,
      Spec.pixCK (V c main_arg1) (V c main_arg3) b ⟨128 * k.val + i.val, by omega⟩ j := by
  unfold addR Spec.tileC Spec.pixCK Spec.logits Spec.label
  refine Finset.sum_congr rfl fun i _ => Finset.sum_congr rfl fun j _ => ?_
  have hb : b.val = (⟨n, h⟩ : Fin cfg0.N).val / 4 := by show b.val = n / 4; omega
  have hy : (⟨128 * k.val + i.val, by omega⟩ : Fin 512).val = 128 * ((⟨n, h⟩ : Fin cfg0.N).val % 4) + i.val := by
    show 128 * k.val + i.val = 128 * (n % 4) + i.val; omega
  rw [tblk_read V c ⟨n, h⟩ i j b ⟨128 * k.val + i.val, by omega⟩ hb hy,
    funext fun q => rblk_read V c ⟨n, h⟩ q i j b ⟨128 * k.val + i.val, by omega⟩ hb hy]

/-- A point's count addend, read off the label map. -/
theorem addV_eq (c : Dev nD) (n : ℕ) (h : n < cfg0.N) (b : Fin 8) (k : Fin 4) (hn : n = 4 * b.val + k.val) :
    addV V c n h = ∑ i : Fin 128, ∑ j : Fin 512,
      Spec.pixV (V c main_arg3) b ⟨128 * k.val + i.val, by omega⟩ j := by
  unfold addV Spec.tileV Spec.pixV Spec.label
  refine Finset.sum_congr rfl fun i _ => Finset.sum_congr rfl fun j _ => ?_
  have hb : b.val = (⟨n, h⟩ : Fin cfg0.N).val / 4 := by show b.val = n / 4; omega
  have hy : (⟨128 * k.val + i.val, by omega⟩ : Fin 512).val = 128 * ((⟨n, h⟩ : Fin cfg0.N).val % 4) + i.val := by
    show 128 * k.val + i.val = 128 * (n % 4) + i.val; omega
  rw [tblk_read V c ⟨n, h⟩ i j b ⟨128 * k.val + i.val, by omega⟩ hb hy]

/-- The per-image band sums at an entry of image `b`: the four bands' sums added in order. -/
theorem bandArr_apply (f : Fin 8 → Fin 512 → Fin 512 → EReal) (o : Spec.SO.Idx) (b : Fin 8) (hb : (o 0).val = b.val) :
    Spec.bandArr f o
      = (∑ i : Fin 128, ∑ j : Fin 512, f b ⟨128 * (0 : Fin 4).val + i.val, by omega⟩ j)
        + (∑ i : Fin 128, ∑ j : Fin 512, f b ⟨128 * (1 : Fin 4).val + i.val, by omega⟩ j)
        + (∑ i : Fin 128, ∑ j : Fin 512, f b ⟨128 * (2 : Fin 4).val + i.val, by omega⟩ j)
        + (∑ i : Fin 128, ∑ j : Fin 512, f b ⟨128 * (3 : Fin 4).val + i.val, by omega⟩ j) := by
  have e : o 0 = b := Fin.ext hb
  unfold Spec.bandArr
  rw [Fin.sum_univ_four, e]

/-- An array of per-image lane rows read through the block of a point: the array at the block's place. -/
theorem oblk3_read (t : Fin cfg0.N) (G : Spec.SO.Idx → EReal) (y : ((cfg0.win 3).xblock (grid0.coords t)).Idx) :
    ((cfg0.win 3).blk t).view.read (Elt Ideal) G y = G (((cfg0.win 3).blk t).view.emb y) := rfl

/-- What the write-back after an image's last band writes into the first result array: its block of the band sums. -/
theorem flushed3_eq (c : Dev nD) (t : Fin cfg0.N) (hf : (cfg0.win 3).flush t = true) :
    (dat0 V c).flushed 3 t
      = ((cfg0.win 3).blk t).view.read (Elt Ideal) (Spec.bandArr (Spec.pixCK (V c main_arg0) (V c main_arg3))) := by
  have hN : cfg0.N = 32 := N_0
  have h3 : t.val % 4 = 3 := (flush0_3 t).mp hf
  have hq : t.val / 4 < 8 := by have := t.isLt; omega
  obtain ⟨⟨e0, e1, e2⟩, -, -⟩ := point_out t
  show (cfg0.win 3).cut (grid0.coords t) ((dat0 V c).after 3 t) = _
  rw [after0_3, outs_eq]
  funext y
  refine Eq.trans ?_ (oblk3_read t (Spec.bandArr (Spec.pixCK (V c main_arg0) (V c main_arg3))) y).symm
  refine Eq.trans ?_ (bandArr_apply (Spec.pixCK (V c main_arg0) (V c main_arg3)) (((cfg0.win 3).blk t).view.emb y) ⟨t.val / 4, hq⟩ ?_).symm
  · show bandRun (addC V c) t.val t.isLt = _
    rw [bandRun_last (addC V c) t.val t.isLt (t.val / 4) (by omega),
      addC_eq V c (4 * (t.val / 4)) _ ⟨t.val / 4, hq⟩ 0 rfl,
      addC_eq V c (4 * (t.val / 4) + 1) _ ⟨t.val / 4, hq⟩ 1 rfl,
      addC_eq V c (4 * (t.val / 4) + 2) _ ⟨t.val / 4, hq⟩ 2 rfl,
      addC_eq V c (4 * (t.val / 4) + 3) _ ⟨t.val / 4, hq⟩ 3 rfl]
  · show win0_3.index t 0 * 1 + 1 * (y 0).val = t.val / 4
    have : (y 0).val < 1 := (y 0).isLt
    omega

/-- Every entry of the first result array lies in the block written back after its image's last band. -/
theorem cover3 (c : Dev nD) (i : ((cfg0.win 3).arr.view.loc (c.tc : Thread nD τ)).2.ty.Idx) :
    ∃ t : Fin cfg0.N, (cfg0.win 3).flush t = true ∧ i ∈ ((cfg0.win 3).blk t).view.set := by
  have hN : cfg0.N = 32 := N_0
  have hN' : grid0.N = 32 := N_0
  have h0 : (i 0).val < 8 := (i 0).isLt
  have h1 : (i 1).val < 1 := (i 1).isLt
  have h2 : (i 2).val < 128 := (i 2).isLt
  have ht : 4 * (i 0).val + 3 < cfg0.N := by omega
  refine ⟨⟨4 * (i 0).val + 3, ht⟩, (flush0_3 _).mpr (by show (4 * (i 0).val + 3) % 4 = 3; omega), ?_⟩
  obtain ⟨⟨e0, e1, e2⟩, -, -⟩ := point_out ⟨4 * (i 0).val + 3, ht⟩
  have e0' : win0_3.index ⟨4 * (i 0).val + 3, ht⟩ 0 = (i 0).val := by rw [e0]; show (4 * (i 0).val + 3) / 4 = _; omega
  show i ∈ ((View.whole main_v0_0).slice (win0_3.rect ⟨4 * (i 0).val + 3, ht⟩)).set
  rw [View.set_slice_whole, Rect.mem_set_unit]
  intro a
  match a with
  | ⟨0, _⟩ => show win0_3.index ⟨4 * (i 0).val + 3, ht⟩ 0 * 1 ≤ (i 0).val ∧ (i 0).val < win0_3.index ⟨4 * (i 0).val + 3, ht⟩ 0 * 1 + 1
              omega
  | ⟨1, _⟩ => show win0_3.index ⟨4 * (i 0).val + 3, ht⟩ 1 * 1 ≤ (i 1).val ∧ (i 1).val < win0_3.index ⟨4 * (i 0).val + 3, ht⟩ 1 * 1 + 1
              omega
  | ⟨2, _⟩ => show win0_3.index ⟨4 * (i 0).val + 3, ht⟩ 2 * 128 ≤ (i 2).val ∧ (i 2).val < win0_3.index ⟨4 * (i 0).val + 3, ht⟩ 2 * 128 + 128
              omega

/-- An array of per-image lane rows read through the block of a point: the array at the block's place. -/
theorem oblk4_read (t : Fin cfg0.N) (G : Spec.SO.Idx → EReal) (y : ((cfg0.win 4).xblock (grid0.coords t)).Idx) :
    ((cfg0.win 4).blk t).view.read (Elt Ideal) G y = G (((cfg0.win 4).blk t).view.emb y) := rfl

/-- The same for the second result array, the refined logits' sums. -/
theorem flushed4_eq (c : Dev nD) (t : Fin cfg0.N) (hf : (cfg0.win 4).flush t = true) :
    (dat0 V c).flushed 4 t
      = ((cfg0.win 4).blk t).view.read (Elt Ideal) (Spec.bandArr (Spec.pixCK (V c main_arg1) (V c main_arg3))) := by
  have hN : cfg0.N = 32 := N_0
  have h3 : t.val % 4 = 3 := (flush0_4 t).mp hf
  have hq : t.val / 4 < 8 := by have := t.isLt; omega
  obtain ⟨-, ⟨e0, e1, e2⟩, -⟩ := point_out t
  show (cfg0.win 4).cut (grid0.coords t) ((dat0 V c).after 4 t) = _
  rw [after0_4, outs_eq]
  funext y
  refine Eq.trans ?_ (oblk4_read t (Spec.bandArr (Spec.pixCK (V c main_arg1) (V c main_arg3))) y).symm
  refine Eq.trans ?_ (bandArr_apply (Spec.pixCK (V c main_arg1) (V c main_arg3)) (((cfg0.win 4).blk t).view.emb y) ⟨t.val / 4, hq⟩ ?_).symm
  · show bandRun (addR V c) t.val t.isLt = _
    rw [bandRun_last (addR V c) t.val t.isLt (t.val / 4) (by omega),
      addR_eq V c (4 * (t.val / 4)) _ ⟨t.val / 4, hq⟩ 0 rfl,
      addR_eq V c (4 * (t.val / 4) + 1) _ ⟨t.val / 4, hq⟩ 1 rfl,
      addR_eq V c (4 * (t.val / 4) + 2) _ ⟨t.val / 4, hq⟩ 2 rfl,
      addR_eq V c (4 * (t.val / 4) + 3) _ ⟨t.val / 4, hq⟩ 3 rfl]
  · show win0_4.index t 0 * 1 + 1 * (y 0).val = t.val / 4
    have : (y 0).val < 1 := (y 0).isLt
    omega

/-- Every entry of the second result array lies in the block written back after its image's last band. -/
theorem cover4 (c : Dev nD) (i : ((cfg0.win 4).arr.view.loc (c.tc : Thread nD τ)).2.ty.Idx) :
    ∃ t : Fin cfg0.N, (cfg0.win 4).flush t = true ∧ i ∈ ((cfg0.win 4).blk t).view.set := by
  have hN : cfg0.N = 32 := N_0
  have hN' : grid0.N = 32 := N_0
  have h0 : (i 0).val < 8 := (i 0).isLt
  have h1 : (i 1).val < 1 := (i 1).isLt
  have h2 : (i 2).val < 128 := (i 2).isLt
  have ht : 4 * (i 0).val + 3 < cfg0.N := by omega
  refine ⟨⟨4 * (i 0).val + 3, ht⟩, (flush0_4 _).mpr (by show (4 * (i 0).val + 3) % 4 = 3; omega), ?_⟩
  obtain ⟨-, ⟨e0, e1, e2⟩, -⟩ := point_out ⟨4 * (i 0).val + 3, ht⟩
  have e0' : win0_4.index ⟨4 * (i 0).val + 3, ht⟩ 0 = (i 0).val := by rw [e0]; show (4 * (i 0).val + 3) / 4 = _; omega
  show i ∈ ((View.whole main_v0_1).slice (win0_4.rect ⟨4 * (i 0).val + 3, ht⟩)).set
  rw [View.set_slice_whole, Rect.mem_set_unit]
  intro a
  match a with
  | ⟨0, _⟩ => show win0_4.index ⟨4 * (i 0).val + 3, ht⟩ 0 * 1 ≤ (i 0).val ∧ (i 0).val < win0_4.index ⟨4 * (i 0).val + 3, ht⟩ 0 * 1 + 1
              omega
  | ⟨1, _⟩ => show win0_4.index ⟨4 * (i 0).val + 3, ht⟩ 1 * 1 ≤ (i 1).val ∧ (i 1).val < win0_4.index ⟨4 * (i 0).val + 3, ht⟩ 1 * 1 + 1
              omega
  | ⟨2, _⟩ => show win0_4.index ⟨4 * (i 0).val + 3, ht⟩ 2 * 128 ≤ (i 2).val ∧ (i 2).val < win0_4.index ⟨4 * (i 0).val + 3, ht⟩ 2 * 128 + 128
              omega

/-- An array of per-image lane rows read through the block of a point: the array at the block's place. -/
theorem oblk5_read (t : Fin cfg0.N) (G : Spec.SO.Idx → EReal) (y : ((cfg0.win 5).xblock (grid0.coords t)).Idx) :
    ((cfg0.win 5).blk t).view.read (Elt Ideal) G y = G (((cfg0.win 5).blk t).view.emb y) := rfl

/-- The same for the third result array, the counts of labelled pixels. -/
theorem flushed5_eq (c : Dev nD) (t : Fin cfg0.N) (hf : (cfg0.win 5).flush t = true) :
    (dat0 V c).flushed 5 t
      = ((cfg0.win 5).blk t).view.read (Elt Ideal) (Spec.bandArr (Spec.pixV (V c main_arg3))) := by
  have hN : cfg0.N = 32 := N_0
  have h3 : t.val % 4 = 3 := (flush0_5 t).mp hf
  have hq : t.val / 4 < 8 := by have := t.isLt; omega
  obtain ⟨-, -, ⟨e0, e1, e2⟩⟩ := point_out t
  show (cfg0.win 5).cut (grid0.coords t) ((dat0 V c).after 5 t) = _
  rw [after0_5, outs_eq]
  funext y
  refine Eq.trans ?_ (oblk5_read t (Spec.bandArr (Spec.pixV (V c main_arg3))) y).symm
  refine Eq.trans ?_ (bandArr_apply (Spec.pixV (V c main_arg3)) (((cfg0.win 5).blk t).view.emb y) ⟨t.val / 4, hq⟩ ?_).symm
  · show bandRun (addV V c) t.val t.isLt = _
    rw [bandRun_last (addV V c) t.val t.isLt (t.val / 4) (by omega),
      addV_eq V c (4 * (t.val / 4)) _ ⟨t.val / 4, hq⟩ 0 rfl,
      addV_eq V c (4 * (t.val / 4) + 1) _ ⟨t.val / 4, hq⟩ 1 rfl,
      addV_eq V c (4 * (t.val / 4) + 2) _ ⟨t.val / 4, hq⟩ 2 rfl,
      addV_eq V c (4 * (t.val / 4) + 3) _ ⟨t.val / 4, hq⟩ 3 rfl]
  · show win0_5.index t 0 * 1 + 1 * (y 0).val = t.val / 4
    have : (y 0).val < 1 := (y 0).isLt
    omega

/-- Every entry of the third result array lies in the block written back after its image's last band. -/
theorem cover5 (c : Dev nD) (i : ((cfg0.win 5).arr.view.loc (c.tc : Thread nD τ)).2.ty.Idx) :
    ∃ t : Fin cfg0.N, (cfg0.win 5).flush t = true ∧ i ∈ ((cfg0.win 5).blk t).view.set := by
  have hN : cfg0.N = 32 := N_0
  have hN' : grid0.N = 32 := N_0
  have h0 : (i 0).val < 8 := (i 0).isLt
  have h1 : (i 1).val < 1 := (i 1).isLt
  have h2 : (i 2).val < 128 := (i 2).isLt
  have ht : 4 * (i 0).val + 3 < cfg0.N := by omega
  refine ⟨⟨4 * (i 0).val + 3, ht⟩, (flush0_5 _).mpr (by show (4 * (i 0).val + 3) % 4 = 3; omega), ?_⟩
  obtain ⟨-, -, ⟨e0, e1, e2⟩⟩ := point_out ⟨4 * (i 0).val + 3, ht⟩
  have e0' : win0_5.index ⟨4 * (i 0).val + 3, ht⟩ 0 = (i 0).val := by rw [e0]; show (4 * (i 0).val + 3) / 4 = _; omega
  show i ∈ ((View.whole main_v0_2).slice (win0_5.rect ⟨4 * (i 0).val + 3, ht⟩)).set
  rw [View.set_slice_whole, Rect.mem_set_unit]
  intro a
  match a with
  | ⟨0, _⟩ => show win0_5.index ⟨4 * (i 0).val + 3, ht⟩ 0 * 1 ≤ (i 0).val ∧ (i 0).val < win0_5.index ⟨4 * (i 0).val + 3, ht⟩ 0 * 1 + 1
              omega
  | ⟨1, _⟩ => show win0_5.index ⟨4 * (i 0).val + 3, ht⟩ 1 * 1 ≤ (i 1).val ∧ (i 1).val < win0_5.index ⟨4 * (i 0).val + 3, ht⟩ 1 * 1 + 1
              omega
  | ⟨2, _⟩ => show win0_5.index ⟨4 * (i 0).val + 3, ht⟩ 2 * 128 ≤ (i 2).val ∧ (i 2).val < win0_5.index ⟨4 * (i 0).val + 3, ht⟩ 2 * 128 + 128
              omega

/-- The first result array: the coarse logits' cross-entropy sums. -/
theorem arr_coarse (c : Dev nD) :
    (dat0 V c).arrAt 3 cfg0.N = Spec.bandArr (Spec.pixCK (V c main_arg0) (V c main_arg3)) := by
  exact (dat0 V c).arrAt_eq_of_cover 3 (Spec.bandArr (Spec.pixCK (V c main_arg0) (V c main_arg3))) (flushed3_eq V c) (cover3 c)

/-- The second result array: the refined logits' cross-entropy sums. -/
theorem arr_refined (c : Dev nD) :
    (dat0 V c).arrAt 4 cfg0.N = Spec.bandArr (Spec.pixCK (V c main_arg1) (V c main_arg3)) := by
  exact (dat0 V c).arrAt_eq_of_cover 4 (Spec.bandArr (Spec.pixCK (V c main_arg1) (V c main_arg3))) (flushed4_eq V c) (cover4 c)

/-- The third result array: the counts of labelled pixels. -/
theorem arr_count (c : Dev nD) :
    (dat0 V c).arrAt 5 cfg0.N = Spec.bandArr (Spec.pixV (V c main_arg3)) := by
  exact (dat0 V c).arrAt_eq_of_cover 5 (Spec.bandArr (Spec.pixV (V c main_arg3))) (flushed5_eq V c) (cover5 c)

end Cert.KernelIdeal.R0

end
-- ==== Proof.Region1Pieces.lean ====
/- What one grid point of the edge launch leaves in its result block: the image's edge sum on every lane.

   The body turns the label map into numbers (the ignore mark 255 read as −1), takes its finite differences down the
   columns and along the rows (one-sided at the two ends, central and halved inside, the three stretches laid end to
   end), marks a pixel as an edge when either difference is nonzero, masks the edge logit and the mark by the pixel's
   validity, and sums the binary cross-entropy of the two over the columns and then over the rows; the one number is
   repeated on the 128 lanes. Each step is read at a pixel (i, j) and matched with the specification's pixel term. -/
import proofs.«413300_j1606317769444_2_alg».proof.Proof.Gen.KernelIdeal.Frame
import proofs.«413300_j1606317769444_2_alg».proof.Proof.Spec
import proofs.«413300_j1606317769444_2_alg».proof.Proof.Tiles
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.R1

open Cert.KernelIdeal Cert.KernelIdeal.Gen Idealize.ShloMosaic Idealize.ShloMosaic.TcCoe Idealize.SL.Sem
open Idealize.ShloMosaic.Pipeline (Dat)
open Idealize.ShloMosaic.ValueIdx

/-! ## Words and bits as numbers -/

/-- A one-bit word widened to 32 bits and read as a signed integer is the number 0 or 1. -/
theorem bit_toInt (b : BitVec 1) : (((b.setWidth 32).toInt : ℝ) : EReal) = Spec.bit01 b := by
  have h : (b.setWidth 32).toInt = (b.toNat : Int) := by
    rcases BitVec.eq_zero_or_eq_one b with h | h <;> subst h <;> decide
  unfold Spec.bit01
  rw [h, Int.cast_natCast]

/-- Choosing the label where it is not 255 and the all-ones word (−1) where it is. -/
theorem select_ne_255 (t : BitVec 32) :
    Scalar.select (IntOp.cmpi .ne t 255#32) t 4294967295#32 = if t = 255#32 then 4294967295#32 else t := by
  by_cases h : t = 255#32
  · subst h; rfl
  · rw [if_neg h]
    have : IntOp.cmpi .ne t 255#32 = 1#1 := IntOp.cmpi_ne.2 h
    rw [this]; rfl

/-- The validity image at a pixel: 1 on a labelled pixel, 0 on an ignored one. -/
theorem pay3_apply (x0 : Vec Ideal S1x512x512 .i32) (p : S1x512x512.Idx) :
    k1_pay3 (F := Ideal) x0 p = Spec.valid (x0 p) := bit_toInt _

/-- The label map as numbers, an ignored pixel as −1. -/
def labVec (x0 : Vec Ideal S1x512x512 .i32) : FVec Ideal S1x512x512 .f32 :=
  sitofp .f32 (select (k1_pay2 (F := Ideal) x0) x0 (broadcast S1x512x512 4294967295#32))

theorem labVec_apply (x0 : Vec Ideal S1x512x512 .i32) (p : S1x512x512.Idx) :
    labVec x0 p = Spec.lab (x0 p) := by
  show (((Scalar.select (IntOp.cmpi .ne (x0 p) 255#32) (x0 p) 4294967295#32).toInt : ℝ) : EReal) = _
  rw [select_ne_255]; rfl

/-- The masked edge logit at a pixel. -/
theorem pay4_apply (x0 : Vec Ideal S1x512x512 .i32) (x1 : Vec Ideal S1x1x512x512 .f32) (i j : Fin 512) :
    k1_pay4 (F := Ideal) x0 x1 (ix3 0 i j) = x1 (ix4 0 0 i j) * Spec.valid (x0 (ix3 0 i j)) := by
  show shapeCast S1x512x512 x1 shapeCasts_S1x1x512x512_S1x512x512 (ix3 0 i j) * k1_pay3 (F := Ideal) x0 (ix3 0 i j) = _
  rw [pay3_apply, shapeCast_1abc_abc_apply]

/-! ## Finite differences -/

/-- A window of an image read at a pixel is the image at the window's offset plus the pixel. -/
theorem slice_apply {m n : Nat} (o1 o2 : Nat) (v : FVec Ideal S1x512x512 .f32)
    (h : S1x512x512.Slices ![0, o1, o2] ⟨3, ![1, m, n]⟩) (a : Fin m) (b : Fin n) (i j : Fin 512)
    (hi : i.val = o1 + a.val) (hj : j.val = o2 + b.val) :
    extractStridedSlice ⟨3, ![1, m, n]⟩ ![0, o1, o2] v h (ix3 0 a b) = v (ix3 0 i j) :=
  extractStridedSlice_apply _ _ _ _ _ (fun ax => by
    match ax with
    | ⟨0, _⟩ => exact (Nat.zero_add _).symm
    | ⟨1, _⟩ => exact hi
    | ⟨2, _⟩ => exact hj)

/-- A line read at a position inside it. -/
theorem lineAt_of_lt (M : Fin 512 → EReal) (n : ℕ) (h : n < 512) : Spec.lineAt M n = M ⟨n, h⟩ := dif_pos h

/-- The differences of an image of numbers down its columns (the row index moves): row 1 minus row 0, then for the
    510 interior rows half of (row below minus row above), then row 511 minus row 510. -/
def gradRows (v : FVec Ideal S1x512x512 .f32) : FVec Ideal S1x512x512 .f32 :=
  concatenate S1x512x512 1
    [⟨S1x1x512, subf (extractStridedSlice S1x1x512 ![0, 1, 0] v slices_S1x512x512_o0_1_0_S1x1x512)
        (extractStridedSlice S1x1x512 ![0, 0, 0] v slices_S1x512x512_o0_0_0_S1x1x512)⟩,
     ⟨S1x510x512, mulf (subf (extractStridedSlice S1x510x512 ![0, 2, 0] v slices_S1x512x512_o0_2_0_S1x510x512)
        (extractStridedSlice S1x510x512 ![0, 0, 0] v slices_S1x512x512_o0_0_0_S1x510x512))
        (broadcast S1x510x512 (Scalar.ofBits .f32 0x3F000000#32))⟩,
     ⟨S1x1x512, subf (extractStridedSlice S1x1x512 ![0, 511, 0] v slices_S1x512x512_o0_511_0_S1x1x512)
        (extractStridedSlice S1x1x512 ![0, 510, 0] v slices_S1x512x512_o0_510_0_S1x1x512)⟩]
    concatenates_S1x1x512_S1x510x512_S1x1x512_S1x512x512_d1

/-- At pixel (i, j) it is the gradient of column j's line at position i: row 0 falls in the first stretch, rows
    1 to 510 in the second at row − 1, row 511 in the third. -/
theorem gradRows_apply (v : FVec Ideal S1x512x512 .f32) (i j : Fin 512) :
    gradRows v (ix3 0 i j) = Spec.grad (fun i' => v (ix3 0 i' j)) i := by
  unfold gradRows Spec.grad
  by_cases h0 : i.val = 0
  · rw [if_pos h0]
    refine (concatenate_apply_piece _ _ _ (ix3 0 i j) 0 (by show (0 : ℕ) < 3; omega) S1x1x512 _ rfl rfl 0 rfl (ix3 0 0 j) ?_ ?_).trans ?_
    · intro b hb
      match b with
      | ⟨0, _⟩ => rfl
      | ⟨1, _⟩ => exact absurd rfl hb
      | ⟨2, _⟩ => rfl
    · show 0 + 0 = i.val
      omega
    · rw [lineAt_of_lt _ 1 (by decide), lineAt_of_lt _ 0 (by decide)]
      show extractStridedSlice S1x1x512 ![0, 1, 0] v _ (ix3 0 0 j) - extractStridedSlice S1x1x512 ![0, 0, 0] v _ (ix3 0 0 j) = _
      rw [slice_apply 1 0 v _ 0 j ⟨1, by decide⟩ j rfl (Nat.zero_add _).symm,
        slice_apply 0 0 v _ 0 j ⟨0, by decide⟩ j rfl (Nat.zero_add _).symm]
  · rw [if_neg h0]
    by_cases h1 : i.val = 511
    · rw [if_pos h1]
      refine (concatenate_apply_piece _ _ _ (ix3 0 i j) 2 (by show (2 : ℕ) < 3; omega) S1x1x512 _ rfl rfl 511 rfl (ix3 0 0 j) ?_ ?_).trans ?_
      · intro b hb
        match b with
        | ⟨0, _⟩ => rfl
        | ⟨1, _⟩ => exact absurd rfl hb
        | ⟨2, _⟩ => rfl
      · show 511 + 0 = i.val
        omega
      · rw [lineAt_of_lt _ 511 (by decide), lineAt_of_lt _ 510 (by decide)]
        show extractStridedSlice S1x1x512 ![0, 511, 0] v _ (ix3 0 0 j) - extractStridedSlice S1x1x512 ![0, 510, 0] v _ (ix3 0 0 j) = _
        rw [slice_apply 511 0 v _ 0 j ⟨511, by decide⟩ j rfl (Nat.zero_add _).symm,
          slice_apply 510 0 v _ 0 j ⟨510, by decide⟩ j rfl (Nat.zero_add _).symm]
    · rw [if_neg h1]
      have hi := i.isLt
      refine (concatenate_apply_piece _ _ _ (ix3 0 i j) 1 (by show (1 : ℕ) < 3; omega) S1x510x512 _ rfl rfl 1 rfl
        (ix3 0 (⟨i.val - 1, by omega⟩ : Fin 510) j) ?_ ?_).trans ?_
      · intro b hb
        match b with
        | ⟨0, _⟩ => rfl
        | ⟨1, _⟩ => exact absurd rfl hb
        | ⟨2, _⟩ => rfl
      · show 1 + (i.val - 1) = i.val
        omega
      · rw [lineAt_of_lt _ (i.val + 1) (by omega), lineAt_of_lt _ (i.val - 1) (by omega)]
        show (extractStridedSlice S1x510x512 ![0, 2, 0] v _ (ix3 0 (⟨i.val - 1, by omega⟩ : Fin 510) j)
            - extractStridedSlice S1x510x512 ![0, 0, 0] v _ (ix3 0 (⟨i.val - 1, by omega⟩ : Fin 510) j)) * Spec.half = _
        rw [slice_apply 2 0 v _ (⟨i.val - 1, by omega⟩ : Fin 510) j ⟨i.val + 1, by omega⟩ j (by show i.val + 1 = 2 + (i.val - 1); omega) (Nat.zero_add _).symm,
          slice_apply 0 0 v _ (⟨i.val - 1, by omega⟩ : Fin 510) j ⟨i.val - 1, by omega⟩ j (Nat.zero_add _).symm (Nat.zero_add _).symm]

/-- The differences of an image of numbers along its rows (the column index moves): column 1 minus column 0, then for
    the 510 interior columns half of (next column minus previous column), then column 511 minus column 510. -/
def gradCols (v : FVec Ideal S1x512x512 .f32) : FVec Ideal S1x512x512 .f32 :=
  concatenate S1x512x512 2
    [⟨S1x512x1, subf (extractStridedSlice S1x512x1 ![0, 0, 1] v slices_S1x512x512_o0_0_1_S1x512x1)
        (extractStridedSlice S1x512x1 ![0, 0, 0] v slices_S1x512x512_o0_0_0_S1x512x1)⟩,
     ⟨S1x512x510, mulf (subf (extractStridedSlice S1x512x510 ![0, 0, 2] v slices_S1x512x512_o0_0_2_S1x512x510)
        (extractStridedSlice S1x512x510 ![0, 0, 0] v slices_S1x512x512_o0_0_0_S1x512x510))
        (broadcast S1x512x510 (Scalar.ofBits .f32 0x3F000000#32))⟩,
     ⟨S1x512x1, subf (extractStridedSlice S1x512x1 ![0, 0, 511] v slices_S1x512x512_o0_0_511_S1x512x1)
        (extractStridedSlice S1x512x1 ![0, 0, 510] v slices_S1x512x512_o0_0_510_S1x512x1)⟩]
    concatenates_S1x512x1_S1x512x510_S1x512x1_S1x512x512_d2

/-- At pixel (i, j) it is the gradient of row i's line at position j. -/
theorem gradCols_apply (v : FVec Ideal S1x512x512 .f32) (i j : Fin 512) :
    gradCols v (ix3 0 i j) = Spec.grad (fun j' => v (ix3 0 i j')) j := by
  unfold gradCols Spec.grad
  by_cases h0 : j.val = 0
  · rw [if_pos h0]
    refine (concatenate_apply_piece _ _ _ (ix3 0 i j) 0 (by show (0 : ℕ) < 3; omega) S1x512x1 _ rfl rfl 0 rfl (ix3 0 i 0) ?_ ?_).trans ?_
    · intro b hb
      match b with
      | ⟨0, _⟩ => rfl
      | ⟨1, _⟩ => rfl
      | ⟨2, _⟩ => exact absurd rfl hb
    · show 0 + 0 = j.val
      omega
    · rw [lineAt_of_lt _ 1 (by decide), lineAt_of_lt _ 0 (by decide)]
      show extractStridedSlice S1x512x1 ![0, 0, 1] v _ (ix3 0 i 0) - extractStridedSlice S1x512x1 ![0, 0, 0] v _ (ix3 0 i 0) = _
      rw [slice_apply 0 1 v _ i 0 i ⟨1, by decide⟩ (Nat.zero_add _).symm rfl,
        slice_apply 0 0 v _ i 0 i ⟨0, by decide⟩ (Nat.zero_add _).symm rfl]
  · rw [if_neg h0]
    by_cases h1 : j.val = 511
    · rw [if_pos h1]
      refine (concatenate_apply_piece _ _ _ (ix3 0 i j) 2 (by show (2 : ℕ) < 3; omega) S1x512x1 _ rfl rfl 511 rfl (ix3 0 i 0) ?_ ?_).trans ?_
      · intro b hb
        match b with
        | ⟨0, _⟩ => rfl
        | ⟨1, _⟩ => rfl
        | ⟨2, _⟩ => exact absurd rfl hb
      · show 511 + 0 = j.val
        omega
      · rw [lineAt_of_lt _ 511 (by decide), lineAt_of_lt _ 510 (by decide)]
        show extractStridedSlice S1x512x1 ![0, 0, 511] v _ (ix3 0 i 0) - extractStridedSlice S1x512x1 ![0, 0, 510] v _ (ix3 0 i 0) = _
        rw [slice_apply 0 511 v _ i 0 i ⟨511, by decide⟩ (Nat.zero_add _).symm rfl,
          slice_apply 0 510 v _ i 0 i ⟨510, by decide⟩ (Nat.zero_add _).symm rfl]
    · rw [if_neg h1]
      have hj := j.isLt
      refine (concatenate_apply_piece _ _ _ (ix3 0 i j) 1 (by show (1 : ℕ) < 3; omega) S1x512x510 _ rfl rfl 1 rfl
        (ix3 0 i (⟨j.val - 1, by omega⟩ : Fin 510)) ?_ ?_).trans ?_
      · intro b hb
        match b with
        | ⟨0, _⟩ => rfl
        | ⟨1, _⟩ => rfl
        | ⟨2, _⟩ => exact absurd rfl hb
      · show 1 + (j.val - 1) = j.val
        omega
      · rw [lineAt_of_lt _ (j.val + 1) (by omega), lineAt_of_lt _ (j.val - 1) (by omega)]
        show (extractStridedSlice S1x512x510 ![0, 0, 2] v _ (ix3 0 i (⟨j.val - 1, by omega⟩ : Fin 510))
            - extractStridedSlice S1x512x510 ![0, 0, 0] v _ (ix3 0 i (⟨j.val - 1, by omega⟩ : Fin 510))) * Spec.half = _
        rw [slice_apply 0 2 v _ i (⟨j.val - 1, by omega⟩ : Fin 510) i ⟨j.val + 1, by omega⟩ (Nat.zero_add _).symm (by show j.val + 1 = 2 + (j.val - 1); omega),
          slice_apply 0 0 v _ i (⟨j.val - 1, by omega⟩ : Fin 510) i ⟨j.val - 1, by omega⟩ (Nat.zero_add _).symm (Nat.zero_add _).symm]

/-! ## The masked edge mark -/

/-- The body's second image, over the label map as numbers and its two difference images. -/
theorem pay5_eq (x0 : Vec Ideal S1x512x512 .i32) :
    k1_pay5 (F := Ideal) x0 =
      mulf (sitofp .f32 (extui 32
        (ori (cmpf .ogt (absf (gradCols (labVec x0))) (broadcast S1x512x512 (Scalar.ofBits .f32 0x00000000#32)))
          (cmpf .ogt (absf (gradRows (labVec x0))) (broadcast S1x512x512 (Scalar.ofBits .f32 0x00000000#32))))
        natLt_1_32)) (k1_pay3 (F := Ideal) x0) := rfl

/-- The masked edge mark at a pixel. -/
theorem pay5_apply (x0 : Vec Ideal S1x512x512 .i32) (i j : Fin 512) :
    k1_pay5 (F := Ideal) x0 (ix3 0 i j)
      = Spec.bit01 (Spec.edgeBit (Spec.grad (fun j' => Spec.lab (x0 (ix3 0 i j'))) j)
          (Spec.grad (fun i' => Spec.lab (x0 (ix3 0 i' j))) i)) * Spec.valid (x0 (ix3 0 i j)) := by
  rw [pay5_eq]
  show (((Spec.edgeBit (gradCols (labVec x0) (ix3 0 i j)) (gradRows (labVec x0) (ix3 0 i j))).setWidth 32).toInt : ℝ)
      * k1_pay3 (F := Ideal) x0 (ix3 0 i j) = _
  rw [bit_toInt, pay3_apply, gradCols_apply, gradRows_apply]
  have hc : (fun j' => labVec x0 (ix3 0 i j')) = fun j' => Spec.lab (x0 (ix3 0 i j')) :=
    funext fun _ => labVec_apply x0 _
  have hr : (fun i' => labVec x0 (ix3 0 i' j)) = fun i' => Spec.lab (x0 (ix3 0 i' j)) :=
    funext fun _ => labVec_apply x0 _
  rw [hc, hr]

/-! ## The binary cross-entropy and the two sums -/

/-- The per-pixel loss image of a logit image against a target image. -/
def bceVec (z y : FVec Ideal S1x512x512 .f32) : FVec Ideal S1x512x512 .f32 :=
  addf (subf (maximumf z (broadcast S1x512x512 (Scalar.ofBits .f32 0x00000000#32))) (mulf z y))
    (log1p (exp (subf (broadcast S1x512x512 (Scalar.ofBits .f32 0x00000000#32)) (absf z))))

/-- At a pixel it is the specification's binary cross-entropy: zero minus |z| is −|z|. -/
theorem bceVec_apply (z y : FVec Ideal S1x512x512 .f32) (p : S1x512x512.Idx) :
    bceVec z y p = Spec.bce (z p) (y p) := by
  show (max (z p) (Ideal.ofBits .f32 0x00000000#32) - z p * y p)
      + Ideal.log1p (Ideal.exp (Ideal.ofBits .f32 0x00000000#32 - max (z p) (-(z p)))) = _
  unfold Spec.bce Spec.zero
  rw [Ideal.ofBits_zero_f32, zero_sub]

/-- The sum over the columns of a row. -/
theorem sum_cols (v : FVec Ideal S1x512x512 .f32) (i : Fin 512) :
    multiReduction (F := Ideal) .add [2] S1x512 v 0x00000000#32 reduces_S1x512x512_S1x512 (.inl rfl) rfl (ix2 0 i)
      = ∑ j : Fin 512, v (ix3 0 i j) := by
  refine (Ideal.multiReduction_add_single v 0x00000000#32 reduces_S1x512x512_S1x512 (.inl rfl) rfl (ix2 0 i)).trans ?_
  refine Finset.sum_congr rfl fun j _ => congrArg v ?_
  funext a
  match a with
  | ⟨0, _⟩ => exact Fin.ext rfl
  | ⟨1, _⟩ => exact Fin.ext rfl
  | ⟨2, _⟩ => exact Fin.ext rfl

/-- The sum over the rows of a column of numbers. -/
theorem sum_rows (w : FVec Ideal S1x512x1 .f32) :
    multiReduction (F := Ideal) .add [1] S1x1 w 0x00000000#32 reduces_S1x512x1_S1x1 (.inl rfl) rfl (ix2 0 0)
      = ∑ i : Fin 512, w (ix3 0 i 0) := by
  refine (Ideal.multiReduction_add_single w 0x00000000#32 reduces_S1x512x1_S1x1 (.inl rfl) rfl (ix2 0 0)).trans ?_
  refine Finset.sum_congr rfl fun i _ => congrArg w ?_
  funext a
  match a with
  | ⟨0, _⟩ => exact Fin.ext rfl
  | ⟨1, _⟩ => exact Fin.ext rfl
  | ⟨2, _⟩ => exact Fin.ext rfl

/-- The row sums stood up as a column: entry (i, 0) is row i's sum. -/
theorem col_cast (u : FVec Ideal S1x512 .f32) (i : Fin 512) :
    shapeCast S1x512x1 u shapeCasts_S1x512_S1x512x1 (ix3 0 i 0) = u (ix2 0 i) :=
  shapeCast_apply u _ _ _ (by
    rw [Shape.rowMajor_val_three, Shape.rowMajor_val_two]
    show 0 * 512 + i.val = (0 * 512 + i.val) * 1 + 0
    omega)

/-- An image summed over its columns, then over its rows, the one number repeated on the 128 lanes. -/
theorem lanes_apply (v : FVec Ideal S1x512x512 .f32) (l : S1x1x128.Idx) :
    broadcastTo S1x1x128
      (shapeCast S1x1x1
        (shapeCast S1x1x1
          (multiReduction (F := Ideal) .add [1] S1x1
            (shapeCast S1x512x1
              (multiReduction (F := Ideal) .add [2] S1x512 v 0x00000000#32 reduces_S1x512x512_S1x512 (.inl rfl) rfl)
              shapeCasts_S1x512_S1x512x1)
            0x00000000#32 reduces_S1x512x1_S1x1 (.inl rfl) rfl)
          shapeCasts_S1x1_S1x1x1)
        shapeCasts_S1x1x1_S1x1x1)
      broadcasts_S1x1x1_S1x1x128 l
      = ∑ i : Fin 512, ∑ j : Fin 512, v (ix3 0 i j) := by
  refine (broadcastTo_apply _ _ l (ix3 0 0 0) (fun a => by
    match a with
    | ⟨0, _⟩ => rfl
    | ⟨1, _⟩ => rfl
    | ⟨2, _⟩ => rfl)).trans ?_
  rw [shapeCast_self, shapeCast_ab_1ab_apply, sum_rows]
  refine Finset.sum_congr rfl fun i _ => ?_
  rw [col_cast, sum_cols]

/-- The body's stored value on a lane: the double sum of the pixels' binary cross-entropies. -/
theorem pay1_apply (z y : FVec Ideal S1x512x512 .f32) (l : S1x1x128.Idx) :
    k1_pay1 (F := Ideal) z y (Scalar.ofBits .f32 0x00000000#32) l
      = ∑ i : Fin 512, ∑ j : Fin 512, Spec.bce (z (ix3 0 i j)) (y (ix3 0 i j)) := by
  refine (lanes_apply (bceVec z y) l).trans ?_
  exact Finset.sum_congr rfl fun i _ => Finset.sum_congr rfl fun j _ => bceVec_apply z y _

/-! ## The result block -/

theorem hz3 : (![0, 0, 0] : Fin 3 → Nat) = fun _ => 0 := by
  funext a; match a with | ⟨0, _⟩ => rfl | ⟨1, _⟩ => rfl | ⟨2, _⟩ => rfl
theorem hz4 : (![0, 0, 0, 0] : Fin 4 → Nat) = fun _ => 0 := by
  funext a; match a with | ⟨0, _⟩ => rfl | ⟨1, _⟩ => rfl | ⟨2, _⟩ => rfl | ⟨3, _⟩ => rfl

/-- The body's result block from the image's labels and edge logits. -/
theorem out_edge (x0 : Vec Ideal S1x512x512 .i32) (x1 : Vec Ideal S1x1x512x512 .f32) :
    out1_2 (F := Ideal) x0 x1 = fun _ => Spec.tileE x0 x1 := by
  unfold out1_2
  rw [View.canon_unit_zero hz3]
  simp only [View.ld_unit_zero (S := S1x512x512) hz3, View.ld_unit_zero (S := S1x1x512x512) hz4]
  funext l
  rw [pay1_apply]
  unfold Spec.tileE
  refine Finset.sum_congr rfl fun i _ => Finset.sum_congr rfl fun j _ => ?_
  rw [pay4_apply, pay5_apply]

end Cert.KernelIdeal.R1

end
-- ==== Proof.Region1.lean ====
/- What the edge launch leaves in its result array: per image, on every lane, the sum over the image's rows and
   columns of the pixels' edge contributions.

   The launch has one grid point per image. Point t sees the whole label map and the whole edge-logit map of image t,
   and its result block is row t of the result array; so the image's edge sum, written over the blocks' entries,
   is the same sum written over the arrays' entries at image t, and the eight rows together are the whole array. -/
import proofs.«413300_j1606317769444_2_alg».proof.Proof.Gen.KernelIdeal.Frame
import proofs.«413300_j1606317769444_2_alg».proof.Proof.Spec
import proofs.«413300_j1606317769444_2_alg».proof.Proof.Tiles
import proofs.«413300_j1606317769444_2_alg».proof.Proof.Region1Pieces
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.R1

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- Where point t's three blocks sit in their arrays: at image t on the first axis, at 0 on every other axis. -/
theorem idx_facts : ∀ t : Fin cfg1.N,
    win1_0.index t (0 : Fin 3) = t.val ∧ win1_0.index t (1 : Fin 3) = 0 ∧ win1_0.index t (2 : Fin 3) = 0
    ∧ win1_1.index t (0 : Fin 4) = t.val ∧ win1_1.index t (1 : Fin 4) = 0 ∧ win1_1.index t (2 : Fin 4) = 0
    ∧ win1_1.index t (3 : Fin 4) = 0
    ∧ win1_2.index t (0 : Fin 3) = t.val ∧ win1_2.index t (1 : Fin 3) = 0 ∧ win1_2.index t (2 : Fin 3) = 0 :=
  (by decide +kernel : ∀ t : Fin grid1.N, _)

/-- The label block of point t at (0, i, j) is the label map at (t, i, j). -/
theorem lblk_apply (c : Dev nD) (t : Fin cfg1.N) (b : Fin 8) (hb : b.val = t.val) (i j : Fin 512) :
    (iblk1 V c 0 t : Vec Ideal S1x512x512 .i32) (ix3 0 i j)
      = (V c main_arg3 : S8x512x512.Idx → BitVec 32) (ix3 b i j) := by
  obtain ⟨e0, e1, e2, -⟩ := idx_facts t
  unfold iblk1
  rw [View.read_apply]
  show V c main_arg3 _ = V c main_arg3 _
  congr 1
  funext a
  apply Fin.ext
  match a with
  | ⟨0, _⟩ => show win1_0.index t (0 : Fin 3) * 1 + 1 * 0 = b.val; rw [e0, hb]; omega
  | ⟨1, _⟩ => show win1_0.index t (1 : Fin 3) * 512 + 1 * i.val = i.val; rw [e1]; omega
  | ⟨2, _⟩ => show win1_0.index t (2 : Fin 3) * 512 + 1 * j.val = j.val; rw [e2]; omega

/-- The edge-logit block of point t at (0, 0, i, j) is the edge-logit map at (t, 0, i, j). -/
theorem eblk_apply (c : Dev nD) (t : Fin cfg1.N) (b : Fin 8) (hb : b.val = t.val) (i j : Fin 512) :
    (iblk1 V c 1 t : Vec Ideal S1x1x512x512 .f32) (ix4 0 0 i j)
      = (V c main_arg2 : S8x1x512x512.Idx → EReal) (ix4 b 0 i j) := by
  obtain ⟨-, -, -, e0, e1, e2, e3, -⟩ := idx_facts t
  unfold iblk1
  rw [View.read_apply]
  show V c main_arg2 _ = V c main_arg2 _
  congr 1
  funext a
  apply Fin.ext
  match a with
  | ⟨0, _⟩ => show win1_1.index t (0 : Fin 4) * 1 + 1 * 0 = b.val; rw [e0, hb]; omega
  | ⟨1, _⟩ => show win1_1.index t (1 : Fin 4) * 1 + 1 * 0 = 0; rw [e1]
  | ⟨2, _⟩ => show win1_1.index t (2 : Fin 4) * 512 + 1 * i.val = i.val; rw [e2]; omega
  | ⟨3, _⟩ => show win1_1.index t (3 : Fin 4) * 512 + 1 * j.val = j.val; rw [e3]; omega

/-- One image's edge sum, taken over the point's blocks, is the sum of the pixels' edge contributions over the image's
    rows and columns: the logit, the validity and both gradient lines (a row of labels for the gradient along x, a
    column of labels for the gradient along y) are read at the same pixels of image b. -/
theorem tile_eq (c : Dev nD) (t : Fin cfg1.N) (b : Fin 8) (hb : b.val = t.val) :
    Spec.tileE (iblk1 V c 0 t) (iblk1 V c 1 t)
      = ∑ i : Fin 512, ∑ j : Fin 512, Spec.pixE (V c main_arg2) (V c main_arg3) b i j := by
  unfold Spec.tileE Spec.pixE Spec.gradX Spec.gradY Spec.label Spec.elogit
  refine Finset.sum_congr rfl fun i _ => Finset.sum_congr rfl fun j _ => ?_
  have hl : ∀ i' j' : Fin 512, (iblk1 V c 0 t : Vec Ideal S1x512x512 .i32) (ix3 0 i' j')
      = (V c main_arg3 : S8x512x512.Idx → BitVec 32) (ix3 b i' j') := fun i' j' => lblk_apply V c t b hb i' j'
  have he := eblk_apply V c t b hb i j
  have g1 : (fun j' : Fin 512 => Spec.lab ((iblk1 V c 0 t : Vec Ideal S1x512x512 .i32) (ix3 0 i j')))
      = fun x' : Fin 512 => Spec.lab ((V c main_arg3 : S8x512x512.Idx → BitVec 32) (ix3 b i x')) :=
    funext fun j' => congrArg Spec.lab (hl i j')
  have g2 : (fun i' : Fin 512 => Spec.lab ((iblk1 V c 0 t : Vec Ideal S1x512x512 .i32) (ix3 0 i' j)))
      = fun y' : Fin 512 => Spec.lab ((V c main_arg3 : S8x512x512.Idx → BitVec 32) (ix3 b y' j)) :=
    funext fun i' => congrArg Spec.lab (hl i' j)
  rw [he, hl i j, g1, g2]

/-- What point t writes back is its block of the per-image edge sums: every lane of row t holds image t's sum. -/
theorem flushed_eq (c : Dev nD) (t : Fin cfg1.N) :
    (dat1 V c).flushed 2 t
      = ((cfg1.win 2).blk t).view.read (Elt Ideal) (Spec.rowArr (Spec.pixE (V c main_arg2) (V c main_arg3))) := by
  show (cfg1.win 2).cut (grid1.coords t) ((dat1 V c).after 2 t) = _
  rw [after1_2, out_edge (iblk1 V c 0 t) (iblk1 V c 1 t)]
  obtain ⟨-, -, -, -, -, -, -, e0, e1, e2⟩ := idx_facts t
  have ht : t.val < 8 := lt_of_lt_of_eq t.isLt N_1
  funext y
  show Spec.tileE (iblk1 V c 0 t) (iblk1 V c 1 t)
    = Spec.rowArr (Spec.pixE (V c main_arg2) (V c main_arg3)) (((cfg1.win 2).blk t).view.emb y)
  rw [tile_eq V c t ⟨t.val, ht⟩ rfl]
  unfold Spec.rowArr
  have hb : (((cfg1.win 2).blk t).view.emb y) 0 = (⟨t.val, ht⟩ : Fin 8) := by
    apply Fin.ext
    show win1_2.index t (0 : Fin 3) * 1 + 1 * (y 0).val = t.val
    have hy : (y 0).val < 1 := (y 0).isLt
    rw [e0]; omega
  rw [hb]

/-- An index of the result array is in point t's block iff each coordinate is in the block's range on its axis. -/
theorem mem_blk (t : Fin cfg1.N) (o : S8x1x128.Idx) :
    o ∈ ((cfg1.win 2).blk t).view.set
      ↔ ∀ a : Fin 3, win1_2.index t a * S1x1x128.size a ≤ (o a).val
          ∧ (o a).val < win1_2.index t a * S1x1x128.size a + S1x1x128.size a := by
  show o ∈ ((View.whole main_v13).slice (win1_2.rect t)).set ↔ _
  rw [View.set_slice_whole, Rect.mem_set_unit]
  exact Iff.rfl

/-- Row b of the result array is the block of point b, so the eight points' blocks cover the array. -/
theorem cover (o : S8x1x128.Idx) :
    ∃ t : Fin cfg1.N, (cfg1.win 2).flush t = true ∧ o ∈ ((cfg1.win 2).blk t).view.set := by
  have h0 : (o 0).val < 8 := (o 0).isLt
  have h1 : (o 1).val < 1 := (o 1).isLt
  have h2 : (o 2).val < 128 := (o 2).isLt
  obtain ⟨t, ht⟩ : ∃ t : Fin cfg1.N, t.val = (o 0).val := ⟨⟨(o 0).val, lt_of_lt_of_eq h0 N_1.symm⟩, rfl⟩
  obtain ⟨-, -, -, -, -, -, -, e0, e1, e2⟩ := idx_facts t
  refine ⟨t, flush1_2 t, ?_⟩
  rw [mem_blk]
  intro a
  match a with
  | ⟨0, _⟩ => show win1_2.index t (0 : Fin 3) * 1 ≤ (o 0).val ∧ (o 0).val < win1_2.index t (0 : Fin 3) * 1 + 1; rw [e0]; omega
  | ⟨1, _⟩ => show win1_2.index t (1 : Fin 3) * 1 ≤ (o 1).val ∧ (o 1).val < win1_2.index t (1 : Fin 3) * 1 + 1; rw [e1]; omega
  | ⟨2, _⟩ => show win1_2.index t (2 : Fin 3) * 128 ≤ (o 2).val ∧ (o 2).val < win1_2.index t (2 : Fin 3) * 128 + 128; rw [e2]; omega

/-- The result array: the edge term's sums. -/
theorem arr_edge (c : Dev nD) :
    (dat1 V c).arrAt 2 cfg1.N = Spec.rowArr (Spec.pixE (V c main_arg2) (V c main_arg3)) := by
  exact (dat1 V c).arrAt_eq_of_cover 2 (Spec.rowArr (Spec.pixE (V c main_arg2) (V c main_arg3)))
    (fun t _ => flushed_eq V c t) cover

end Cert.KernelIdeal.R1

end
-- ==== Proof.HostTail.lean ====
/- The kernel program's result from its launch memory: the host operations between and after the two launches
   read the four partial-sum arrays at lane 0, add them over the images, and combine the four sums into the loss. -/
import proofs.«413300_j1606317769444_2_alg».proof.Proof.Gen.KernelIdeal.Frame
import proofs.«413300_j1606317769444_2_alg».proof.Proof.Spec
import proofs.«413300_j1606317769444_2_alg».proof.Proof.Region0
import proofs.«413300_j1606317769444_2_alg».proof.Proof.Region1
import Idealize.ShloMosaic.Lib.Pipeline.Value
import Idealize.ShloMosaic.Lib.StableHlo.Run
import Idealize.ShloMosaic.Lib.ValueIdx
import Idealize.ShloMosaic.Lib.ValueIdxRank1
import Idealize.ShloMosaic.Lib.ValueLayout
import Idealize.ShloMosaic.PureOps.Ideal.Laws
import Idealize.ShloMosaic.Lib.Tactic

noncomputable section

namespace Cert.KernelIdeal.Tail

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-! ## The host arithmetic on one partial-sum array, at the extended reals -/

section HostArith

/-- An [8,1,1] array cast to [8] reads, at image b, the operand at (b, 0, 0): same row-major position. -/
theorem cast_images_apply (x : S8x1x1.Idx → EReal) (h : S8x1x1.ShapeCasts S8) (b : Fin 8) :
    shapeCast S8 x h (ix1 b) = x (ix3 b (0 : Fin 1) (0 : Fin 1)) :=
  shapeCast_apply x h _ _ (by
    rw [Shape.rowMajor_val_three, Shape.rowMajor_val_one]
    show (b.val * 1 + 0) * 1 + 0 = b.val
    omega)

/-- The slice [0:8, 0:1, 0:1] of an [8,1,128] array reads, at (b, 0, 0), the array's lane 0 of image b. -/
theorem slice_lane0_apply (A : S8x1x128.Idx → EReal) (h : S8x1x128.Slices ![0, 0, 0] S8x1x1) (b : Fin 8) :
    extractStridedSlice S8x1x1 ![0, 0, 0] A h (ix3 b (0 : Fin 1) (0 : Fin 1)) = A (ix3 b (0 : Fin 1) (0 : Fin 128)) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm)

/-- The host's sum of an [8] vector into rank 0 from the float zero is the sum of its eight entries. -/
theorem sum_images (x : S8.Idx → EReal) (h : S8.ReducesTo [0] S_) (hu : 0 < S_.numel) (j : S_.Idx) :
    Host.reduceAdd (F := Ideal) (φ := .f32) x (constant (F := Ideal) S_ .f32 0x00000000#32) h hu j = ∑ b : Fin 8, x (ix1 b) := by
  show Ideal.hostReduceAdd h x (Ideal.ofBits .f32 0x00000000#32) j = _
  rw [Ideal.hostReduceAdd_total h (fun b => b.elim0) x _ j, Ideal.ofBits_zero_f32, zero_add]
  exact (Equiv.sum_comp (idxEquiv1 (n := 8)).symm x).symm

/-- So lane 0 of a partial-sum array that holds g b on image b, sliced, cast and summed, is the sum of g over the images. -/
theorem lane_sum (A : S8x1x128.Idx → EReal) (g : Fin 8 → EReal) (hA : ∀ b : Fin 8, A (ix3 b (0 : Fin 1) (0 : Fin 128)) = g b)
    (hs : S8x1x128.Slices ![0, 0, 0] S8x1x1) (hc : S8x1x1.ShapeCasts S8) (hr : S8.ReducesTo [0] S_) (hu : 0 < S_.numel)
    (j : S_.Idx) :
    Host.reduceAdd (F := Ideal) (φ := .f32) (fun i => shapeCast S8 (extractStridedSlice S8x1x1 ![0, 0, 0] A hs) hc i)
      (constant (F := Ideal) S_ .f32 0x00000000#32) hr hu j = ∑ b : Fin 8, g b := by
  rw [sum_images]
  exact Finset.sum_congr rfl fun b _ => by rw [cast_images_apply, slice_lane0_apply, hA b]

end HostArith

/-- Lane 0 of each image of a partial-sum array, added over the eight images from the float zero: the host's slice
    [0:8, 0:1, 0:1], its reshape to [8] and its sum into rank 0. -/
def laneTotal (A : S8x1x128.Idx → EReal) : S_.Idx → EReal :=
  Host.reduceAdd (F := Ideal) (φ := .f32)
    (fun i => shapeCast S8 (extractStridedSlice S8x1x1 ![0, 0, 0] A Facts₀.slices_S8x1x128_S8x1x1_0_0_0)
      Facts₀.shapeCasts_S8x1x1_S8 i)
    (constant (F := Ideal) S_ .f32 0x00000000#32) Facts₀.reducesTo_S8_S_d0 Facts₀.h_S_

/-- Of the band-sum array of a pixel function it is the function's sum by image, band, row and column. -/
theorem laneTotal_bandArr (f : Fin 8 → Fin 512 → Fin 512 → EReal) (j : S_.Idx) :
    laneTotal (Spec.bandArr f) j = Spec.sumBands f :=
  lane_sum (Spec.bandArr f) (fun b => ∑ h : Fin 4, ∑ i : Fin 128, ∑ j : Fin 512, f b ⟨128 * h.val + i.val, by omega⟩ j)
    (fun _ => rfl) _ _ _ _ j

/-- Of the row-sum array of a pixel function it is the function's sum by image, row and column. -/
theorem laneTotal_rowArr (f : Fin 8 → Fin 512 → Fin 512 → EReal) (j : S_.Idx) :
    laneTotal (Spec.rowArr f) j = Spec.sumRows f :=
  lane_sum (Spec.rowArr f) (fun b => ∑ i : Fin 512, ∑ j : Fin 512, f b i j) (fun _ => rfl) _ _ _ _ j

/-! ## The arguments as the two launches see them -/

/-- The edge logits at the second launch's entry are the launch memory's: no host operation between the launches and
    no window of the first launch writes them. -/
theorem V2_arg2 (c : Dev nD) : V2 m ρ c main_arg2 = m ((c : Thread nD τ).loc main_arg2) :=
  calc W2 m ρ c (Proc.devRef .tc main_arg2)
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl

/-- The label map at the second launch's entry is the launch memory's: the first launch only reads it. -/
theorem V2_arg3 (c : Dev nD) : V2 m ρ c main_arg3 = m ((c : Thread nD τ).loc main_arg3) :=
  calc W2 m ρ c (Proc.devRef .tc main_arg3)
    _ = W1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := (W1_arr m ρ c 2).trans (((dat0 (V0 m ρ) c).arrAt_in 2 rfl _).trans (A_eq0 (V0 m ρ) c 2))
    _ = m ((c : Thread nD τ).loc main_arg3) := rfl

/-! ## The four partial-sum arrays where the host operations read them -/

/-- The first launch's coarse cross-entropy sums, where the host reads them. -/
theorem W1_coarse (c : Dev nD) :
    W1 m ρ c (Proc.devRef .tc main_v0_0)
      = Spec.bandArr (Spec.pixCK (m ((c : Thread nD τ).loc main_arg0)) (m ((c : Thread nD τ).loc main_arg3))) :=
  (W1_arr m ρ c 3).trans (R0.arr_coarse (V0 m ρ) c)

/-- Its refined cross-entropy sums. -/
theorem W1_refined (c : Dev nD) :
    W1 m ρ c (Proc.devRef .tc main_v0_1)
      = Spec.bandArr (Spec.pixCK (m ((c : Thread nD τ).loc main_arg1)) (m ((c : Thread nD τ).loc main_arg3))) :=
  (W1_arr m ρ c 4).trans (R0.arr_refined (V0 m ρ) c)

/-- Its counts of labelled pixels. -/
theorem W1_count (c : Dev nD) :
    W1 m ρ c (Proc.devRef .tc main_v0_2) = Spec.bandArr (Spec.pixV (m ((c : Thread nD τ).loc main_arg3))) :=
  (W1_arr m ρ c 5).trans (R0.arr_count (V0 m ρ) c)

/-- The second launch's edge sums, where the host reads them. -/
theorem W3_edge (c : Dev nD) :
    W3 m ρ c (Proc.devRef .tc main_v13)
      = Spec.rowArr (Spec.pixE (m ((c : Thread nD τ).loc main_arg2)) (m ((c : Thread nD τ).loc main_arg3))) := by
  refine (W3_arr m ρ c 2).trans ((R1.arr_edge (V2 m ρ) c).trans ?_)
  rw [V2_arg2, V2_arg3]

/-! ## The host operations between the launches: the two cross-entropy means -/

/-- The coarse cross-entropy sum over the count of labelled pixels (at least one). -/
theorem W2_v11 (c : Dev nD) :
    W2 m ρ c (Proc.devRef .tc main_v11)
      = fun _ => Ideal.div (Spec.sumBands (Spec.pixCK (m ((c : Thread nD τ).loc main_arg0)) (m ((c : Thread nD τ).loc main_arg3))))
          (max (Spec.sumBands (Spec.pixV (m ((c : Thread nD τ).loc main_arg3)))) Spec.one) := by
  have h : W2 m ρ c (Proc.devRef .tc main_v11)
      = fun j => Ideal.div (laneTotal (W1 m ρ c (Proc.devRef .tc main_v0_0)) j)
          (max (laneTotal (W1 m ρ c (Proc.devRef .tc main_v0_2)) j) Spec.one) := by
    show StableHlo.after hostOps1 (W1 m ρ c) (Proc.devRef .tc main_v11) = _
    after_results
    rfl
  rw [h, W1_coarse, W1_count]
  funext j
  rw [laneTotal_bandArr, laneTotal_bandArr]

/-- The refined cross-entropy sum over the same count. -/
theorem W2_v12 (c : Dev nD) :
    W2 m ρ c (Proc.devRef .tc main_v12)
      = fun _ => Ideal.div (Spec.sumBands (Spec.pixCK (m ((c : Thread nD τ).loc main_arg1)) (m ((c : Thread nD τ).loc main_arg3))))
          (max (Spec.sumBands (Spec.pixV (m ((c : Thread nD τ).loc main_arg3)))) Spec.one) := by
  have h : W2 m ρ c (Proc.devRef .tc main_v12)
      = fun j => Ideal.div (laneTotal (W1 m ρ c (Proc.devRef .tc main_v0_1)) j)
          (max (laneTotal (W1 m ρ c (Proc.devRef .tc main_v0_2)) j) Spec.one) := by
    show StableHlo.after hostOps1 (W1 m ρ c) (Proc.devRef .tc main_v12) = _
    after_results
    rfl
  rw [h, W1_refined, W1_count]
  funext j
  rw [laneTotal_bandArr, laneTotal_bandArr]

/-! ## The host operations after the second launch: the loss -/

/-- The last host operations on the two cross-entropy means and the edge sums' array: the means added, plus the weight
    times the edge sums' total over the pixel count. -/
def lossOf (a b : S_.Idx → EReal) (E : S8x1x128.Idx → EReal) : S_.Idx → EReal :=
  fun j => (a j + b j) + Spec.weight * Ideal.div (laneTotal E j) Spec.npix

/-- The buffer the program returns, after the last host operation, holds the loss in the kernel's arrangement. -/
theorem result_eq (c : Dev nD) :
    W4 m ρ c (Proc.devRef .tc main_v20)
      = fun _ => Spec.kernelTotal (m ((c : Thread nD τ).loc main_arg0)) (m ((c : Thread nD τ).loc main_arg1))
          (m ((c : Thread nD τ).loc main_arg2)) (m ((c : Thread nD τ).loc main_arg3)) := by
  have h : W4 m ρ c (Proc.devRef .tc main_v20)
      = lossOf (W3 m ρ c (Proc.devRef .tc main_v11)) (W3 m ρ c (Proc.devRef .tc main_v12))
          (W3 m ρ c (Proc.devRef .tc main_v13)) := by
    show StableHlo.after hostOps2 (W3 m ρ c) (Proc.devRef .tc main_v20) = _
    after_results
    rfl
  have h11 : W3 m ρ c (Proc.devRef .tc main_v11) = W2 m ρ c (Proc.devRef .tc main_v11) := W3_of_ne m ρ c main_v11 (by decide)
  have h12 : W3 m ρ c (Proc.devRef .tc main_v12) = W2 m ρ c (Proc.devRef .tc main_v12) := W3_of_ne m ρ c main_v12 (by decide)
  rw [h, h11, h12, W2_v11, W2_v12, W3_edge]
  funext j
  unfold lossOf
  rw [laneTotal_rowArr]
  rfl

end Cert.KernelIdeal.Tail

end
-- ==== Proof.RefOpsPlain.lean ====
/- GENERATED by `bun scratch/mk_ops_plain.js proof/Proof/RefOps.lean proof/Proof/RefOpsPlain.lean` (run in the unit's directory; the script is filed in scratch/): the
   reference program's 183 host operations as listed in proof/Proof/RefOps.lean (`ops`), with every operation of a called function
   (where, log_softmax, take_along_axis) spelt by the plain builder over the buffer itself and its function's types
   written out, in place of the typed-reference builder. The two lists are equal (Proof/RefRun.lean); in this spelling
   the operations' composed results carry no transport along a buffer's type. -/
import proofs.«413300_j1606317769444_2_alg».proof.Proof.RefOps

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- @main's 183 operations, in order, every one by the plain builder. -/
abbrev opsP : List (HloOp τ sig (Elt F)) :=
  [ nullary main_c (constantI S_ 32 255#32),
  unary main_c main_v0 (broadcastInDim S8x512x512 ![] bcast_S_S8x512x512 : (⟨S_, .i32⟩ : BufTy).Contents (Elt F) → (⟨S8x512x512, .i32⟩ : BufTy).Contents (Elt F)),
  binary main_arg3 main_v0 main_v1 (cmpi .ne : (⟨S8x512x512, .i32⟩ : BufTy).Contents (Elt F) → (⟨S8x512x512, .i32⟩ : BufTy).Contents (Elt F) → (⟨S8x512x512, .i1⟩ : BufTy).Contents (Elt F)),
  nullary main_c_0 (constantI S_ 32 0#32),
  unary main_c_0 main_call0_v0 ((id) : (⟨S_, .i32⟩ : BufTy).Contents (Elt F) → (⟨S_, .i32⟩ : BufTy).Contents (Elt F)),
  unary main_call0_v0 main_call0_v1 (((broadcastInDim S8x512x512 ![] bcast_S_S8x512x512)) : (⟨S_, .i32⟩ : BufTy).Contents (Elt F) → (⟨S8x512x512, .i32⟩ : BufTy).Contents (Elt F)),
  ternary main_v1 main_arg3 main_call0_v1 main_v2 ((select) : (⟨S8x512x512, .i1⟩ : BufTy).Contents (Elt F) → (⟨S8x512x512, .i32⟩ : BufTy).Contents (Elt F) → (⟨S8x512x512, .i32⟩ : BufTy).Contents (Elt F) → (⟨S8x512x512, .i32⟩ : BufTy).Contents (Elt F)),
  nullary main_call1_cst (((constant S_ .f32 0xFF800000#32)) : (⟨S_, .f32⟩ : BufTy).Contents (Elt F)),
  binary main_arg0 main_call1_cst main_call1_v0 (((fun x v => Host.reduce FloatOps.maximumf x v reducesTo_S8x20x512x512_S8x512x512_d1 h_S_)) : (⟨S8x20x512x512, .f32⟩ : BufTy).Contents (Elt F) → (⟨S_, .f32⟩ : BufTy).Contents (Elt F) → (⟨S8x512x512, .f32⟩ : BufTy).Contents (Elt F)),
  nullary main_call1_cst_0 (((constant S_ .f32 0xFF800000#32)) : (⟨S_, .f32⟩ : BufTy).Contents (Elt F)),
  unary main_call1_cst_0 main_call1_v1 (((broadcastInDim S8x512x512 ![] bcast_S_S8x512x512)) : (⟨S_, .f32⟩ : BufTy).Contents (Elt F) → (⟨S8x512x512, .f32⟩ : BufTy).Contents (Elt F)),
  binary main_call1_v1 main_call1_v0 main_call1_v2 ((maximumf) : (⟨S8x512x512, .f32⟩ : BufTy).Contents (Elt F) → (⟨S8x512x512, .f32⟩ : BufTy).Contents (Elt F) → (⟨S8x512x512, .f32⟩ : BufTy).Contents (Elt F)),
  unary main_call1_v2 main_call1_v3 (((broadcastInDim S8x1x512x512 ![0, 2, 3] bcast_S8x512x512_S8x1x512x512_0_2_3)) : (⟨S8x512x512, .f32⟩ : BufTy).Contents (Elt F) → (⟨S8x1x512x512, .f32⟩ : BufTy).Contents (Elt F)),
  unary main_call1_v3 main_call1_v4 (((broadcastInDim S8x20x512x512 ![0, 1, 2, 3] bcast_S8x1x512x512_S8x20x512x512_0_1_2_3)) : (⟨S8x1x512x512, .f32⟩ : BufTy).Contents (Elt F) → (⟨S8x20x512x512, .f32⟩ : BufTy).Contents (Elt F)),
  binary main_arg0 main_call1_v4 main_call1_v5 ((subf) : (⟨S8x20x512x512, .f32⟩ : BufTy).Contents (Elt F) → (⟨S8x20x512x512, .f32⟩ : BufTy).Contents (Elt F) → (⟨S8x20x512x512, .f32⟩ : BufTy).Contents (Elt F)),
  unary main_call1_v5 main_call1_v6 ((Host.exp) : (⟨S8x20x512x512, .f32⟩ : BufTy).Contents (Elt F) → (⟨S8x20x512x512, .f32⟩ : BufTy).Contents (Elt F)),
  nullary main_call1_cst_1 (((constant S_ .f32 0x00000000#32)) : (⟨S_, .f32⟩ : BufTy).Contents (Elt F)),
  binary main_call1_v6 main_call1_cst_1 main_call1_v7 (((fun x v => Host.reduceAdd x v reducesTo_S8x20x512x512_S8x512x512_d1 h_S_)) : (⟨S8x20x512x512, .f32⟩ : BufTy).Contents (Elt F) → (⟨S_, .f32⟩ : BufTy).Contents (Elt F) → (⟨S8x512x512, .f32⟩ : BufTy).Contents (Elt F)),
  unary main_call1_v7 main_call1_v8 (((broadcastInDim S8x1x512x512 ![0, 2, 3] bcast_S8x512x512_S8x1x512x512_0_2_3)) : (⟨S8x512x512, .f32⟩ : BufTy).Contents (Elt F) → (⟨S8x1x512x512, .f32⟩ : BufTy).Contents (Elt F)),
  unary main_call1_v8 main_call1_v9 ((Host.log) : (⟨S8x1x512x512, .f32⟩ : BufTy).Contents (Elt F) → (⟨S8x1x512x512, .f32⟩ : BufTy).Contents (Elt F)),
  unary main_call1_v9 main_call1_v10 (((broadcastInDim S8x20x512x512 ![0, 1, 2, 3] bcast_S8x1x512x512_S8x20x512x512_0_1_2_3)) : (⟨S8x1x512x512, .f32⟩ : BufTy).Contents (Elt F) → (⟨S8x20x512x512, .f32⟩ : BufTy).Contents (Elt F)),
  binary main_call1_v5 main_call1_v10 main_v3 ((subf) : (⟨S8x20x512x512, .f32⟩ : BufTy).Contents (Elt F) → (⟨S8x20x512x512, .f32⟩ : BufTy).Contents (Elt F) → (⟨S8x20x512x512, .f32⟩ : BufTy).Contents (Elt F)),
  unary main_v2 main_v4 (broadcastInDim S8x1x512x512 ![0, 2, 3] bcast_S8x512x512_S8x1x512x512_0_2_3 : (⟨S8x512x512, .i32⟩ : BufTy).Contents (Elt F) → (⟨S8x1x512x512, .i32⟩ : BufTy).Contents (Elt F)),
  nullary main_call2_c (((constantI S_ 32 0#32)) : (⟨S_, .i32⟩ : BufTy).Contents (Elt F)),
  unary main_call2_c main_call2_v0 (((broadcastInDim S8x1x512x512 ![] bcast_S_S8x1x512x512)) : (⟨S_, .i32⟩ : BufTy).Contents (Elt F) → (⟨S8x1x512x512, .i32⟩ : BufTy).Contents (Elt F)),
  binary main_v4 main_call2_v0 main_call2_v1 (((cmpi .slt)) : (⟨S8x1x512x512, .i32⟩ : BufTy).Contents (Elt F) → (⟨S8x1x512x512, .i32⟩ : BufTy).Contents (Elt F) → (⟨S8x1x512x512, .i1⟩ : BufTy).Contents (Elt F)),
  nullary main_call2_c_0 (((constantI S_ 32 20#32)) : (⟨S_, .i32⟩ : BufTy).Contents (Elt F)),
  unary main_call2_c_0 main_call2_v2 (((broadcastInDim S8x1x512x512 ![] bcast_S_S8x1x512x512)) : (⟨S_, .i32⟩ : BufTy).Contents (Elt F) → (⟨S8x1x512x512, .i32⟩ : BufTy).Contents (Elt F)),
  binary main_v4 main_call2_v2 main_call2_v3 ((addi) : (⟨S8x1x512x512, .i32⟩ : BufTy).Contents (Elt F) → (⟨S8x1x512x512, .i32⟩ : BufTy).Contents (Elt F) → (⟨S8x1x512x512, .i32⟩ : BufTy).Contents (Elt F)),
  ternary main_call2_v1 main_call2_v3 main_v4 main_call2_v4 ((select) : (⟨S8x1x512x512, .i1⟩ : BufTy).Contents (Elt F) → (⟨S8x1x512x512, .i32⟩ : BufTy).Contents (Elt F) → (⟨S8x1x512x512, .i32⟩ : BufTy).Contents (Elt F) → (⟨S8x1x512x512, .i32⟩ : BufTy).Contents (Elt F)),
  reshape main_call2_v4 main_call2_v5 rfl shapeCasts_S8x1x512x512_S8x1x512x512x1,
  nullary main_call2_c_1 (((constantI S1 32 19#32)) : (⟨S1, .i32⟩ : BufTy).Contents (Elt F)),
  nullary main_call2_c_2 (((constantI S_ 32 0#32)) : (⟨S_, .i32⟩ : BufTy).Contents (Elt F)),
  unary main_call2_c_2 main_call2_v6 (((broadcastInDim S8x1x512x512x1 ![] bcast_S_S8x1x512x512x1)) : (⟨S_, .i32⟩ : BufTy).Contents (Elt F) → (⟨S8x1x512x512x1, .i32⟩ : BufTy).Contents (Elt F)),
  binary main_call2_v5 main_call2_v6 main_call2_v7 (((cmpi .sge)) : (⟨S8x1x512x512x1, .i32⟩ : BufTy).Contents (Elt F) → (⟨S8x1x512x512x1, .i32⟩ : BufTy).Contents (Elt F) → (⟨S8x1x512x512x1, .i1⟩ : BufTy).Contents (Elt F)),
  unary main_call2_c_1 main_call2_v8 (((broadcastInDim S1x1x1x1x1 ![4] bcast_S1_S1x1x1x1x1_4)) : (⟨S1, .i32⟩ : BufTy).Contents (Elt F) → (⟨S1x1x1x1x1, .i32⟩ : BufTy).Contents (Elt F)),
  unary main_call2_v8 main_call2_v9 (((broadcastInDim S8x1x512x512x1 ![0, 1, 2, 3, 4] bcast_S1x1x1x1x1_S8x1x512x512x1_0_1_2_3_4)) : (⟨S1x1x1x1x1, .i32⟩ : BufTy).Contents (Elt F) → (⟨S8x1x512x512x1, .i32⟩ : BufTy).Contents (Elt F)),
  binary main_call2_v5 main_call2_v9 main_call2_v10 (((cmpi .sle)) : (⟨S8x1x512x512x1, .i32⟩ : BufTy).Contents (Elt F) → (⟨S8x1x512x512x1, .i32⟩ : BufTy).Contents (Elt F) → (⟨S8x1x512x512x1, .i1⟩ : BufTy).Contents (Elt F)),
  binary main_call2_v7 main_call2_v10 main_call2_v11 ((andi) : (⟨S8x1x512x512x1, .i1⟩ : BufTy).Contents (Elt F) → (⟨S8x1x512x512x1, .i1⟩ : BufTy).Contents (Elt F) → (⟨S8x1x512x512x1, .i1⟩ : BufTy).Contents (Elt F)),
  nullary main_call2_c_3 (((constantI S_ 1 1#1)) : (⟨S_, .i1⟩ : BufTy).Contents (Elt F)),
  binary main_call2_v11 main_call2_c_3 main_call2_v12 (((fun x v => Host.reduce IntOp.andi x v reducesTo_S8x1x512x512x1_S8x1x512x512_d4 h_S_)) : (⟨S8x1x512x512x1, .i1⟩ : BufTy).Contents (Elt F) → (⟨S_, .i1⟩ : BufTy).Contents (Elt F) → (⟨S8x1x512x512, .i1⟩ : BufTy).Contents (Elt F)),
  binary main_v3 main_call2_v5 main_call2_v13 (((fun x i => Host.gather gather_S8x20x512x512_S8x1x512x512x1_S8x1x512x512_n_1_023_023_1_4_1111 x i)) : (⟨S8x20x512x512, .f32⟩ : BufTy).Contents (Elt F) → (⟨S8x1x512x512x1, .i32⟩ : BufTy).Contents (Elt F) → (⟨S8x1x512x512, .f32⟩ : BufTy).Contents (Elt F)),
  nullary main_call2_cst (((constant S_ .f32 0x7FC00000#32)) : (⟨S_, .f32⟩ : BufTy).Contents (Elt F)),
  unary main_call2_cst main_call2_v14 (((broadcastInDim S8x1x512x512 ![] bcast_S_S8x1x512x512)) : (⟨S_, .f32⟩ : BufTy).Contents (Elt F) → (⟨S8x1x512x512, .f32⟩ : BufTy).Contents (Elt F)),
  ternary main_call2_v12 main_call2_v13 main_call2_v14 main_v5 ((select) : (⟨S8x1x512x512, .i1⟩ : BufTy).Contents (Elt F) → (⟨S8x1x512x512, .f32⟩ : BufTy).Contents (Elt F) → (⟨S8x1x512x512, .f32⟩ : BufTy).Contents (Elt F) → (⟨S8x1x512x512, .f32⟩ : BufTy).Contents (Elt F)),
  reshape main_v5 main_v6 rfl shapeCasts_S8x1x512x512_S8x512x512,
  unary main_v6 main_v7 (Host.negf : (⟨S8x512x512, .f32⟩ : BufTy).Contents (Elt F) → (⟨S8x512x512, .f32⟩ : BufTy).Contents (Elt F)),
  unary main_v1 main_v8 (uitofp (F := F) .f32 : (⟨S8x512x512, .i1⟩ : BufTy).Contents (Elt F) → (⟨S8x512x512, .f32⟩ : BufTy).Contents (Elt F)),
  binary main_v7 main_v8 main_v9 (mulf : (⟨S8x512x512, .f32⟩ : BufTy).Contents (Elt F) → (⟨S8x512x512, .f32⟩ : BufTy).Contents (Elt F) → (⟨S8x512x512, .f32⟩ : BufTy).Contents (Elt F)),
  nullary main_cst (constant S_ .f32 0x00000000#32),
  binary main_v9 main_cst main_v10 ((fun x v => Host.reduceAdd x v reducesTo_S8x512x512_S_d0_1_2 h_S_) : (⟨S8x512x512, .f32⟩ : BufTy).Contents (Elt F) → (⟨S_, .f32⟩ : BufTy).Contents (Elt F) → (⟨S_, .f32⟩ : BufTy).Contents (Elt F)),
  nullary main_cst_1 (constant S_ .f32 0x00000000#32),
  binary main_v8 main_cst_1 main_v11 ((fun x v => Host.reduceAdd x v reducesTo_S8x512x512_S_d0_1_2 h_S_) : (⟨S8x512x512, .f32⟩ : BufTy).Contents (Elt F) → (⟨S_, .f32⟩ : BufTy).Contents (Elt F) → (⟨S_, .f32⟩ : BufTy).Contents (Elt F)),
  nullary main_cst_2 (constant S_ .f32 0x3F800000#32),
  binary main_v11 main_cst_2 main_v12 (maximumf : (⟨S_, .f32⟩ : BufTy).Contents (Elt F) → (⟨S_, .f32⟩ : BufTy).Contents (Elt F) → (⟨S_, .f32⟩ : BufTy).Contents (Elt F)),
  binary main_v10 main_v12 main_v13 (Host.divf : (⟨S_, .f32⟩ : BufTy).Contents (Elt F) → (⟨S_, .f32⟩ : BufTy).Contents (Elt F) → (⟨S_, .f32⟩ : BufTy).Contents (Elt F)),
  nullary main_c_3 (constantI S_ 32 255#32),
  unary main_c_3 main_v14 (broadcastInDim S8x512x512 ![] bcast_S_S8x512x512 : (⟨S_, .i32⟩ : BufTy).Contents (Elt F) → (⟨S8x512x512, .i32⟩ : BufTy).Contents (Elt F)),
  binary main_arg3 main_v14 main_v15 (cmpi .ne : (⟨S8x512x512, .i32⟩ : BufTy).Contents (Elt F) → (⟨S8x512x512, .i32⟩ : BufTy).Contents (Elt F) → (⟨S8x512x512, .i1⟩ : BufTy).Contents (Elt F)),
  nullary main_c_4 (constantI S_ 32 0#32),
  unary main_c_4 main_call3_v0 ((id) : (⟨S_, .i32⟩ : BufTy).Contents (Elt F) → (⟨S_, .i32⟩ : BufTy).Contents (Elt F)),
  unary main_call3_v0 main_call3_v1 (((broadcastInDim S8x512x512 ![] bcast_S_S8x512x512)) : (⟨S_, .i32⟩ : BufTy).Contents (Elt F) → (⟨S8x512x512, .i32⟩ : BufTy).Contents (Elt F)),
  ternary main_v15 main_arg3 main_call3_v1 main_v16 ((select) : (⟨S8x512x512, .i1⟩ : BufTy).Contents (Elt F) → (⟨S8x512x512, .i32⟩ : BufTy).Contents (Elt F) → (⟨S8x512x512, .i32⟩ : BufTy).Contents (Elt F) → (⟨S8x512x512, .i32⟩ : BufTy).Contents (Elt F)),
  nullary main_call4_cst (((constant S_ .f32 0xFF800000#32)) : (⟨S_, .f32⟩ : BufTy).Contents (Elt F)),
  binary main_arg1 main_call4_cst main_call4_v0 (((fun x v => Host.reduce FloatOps.maximumf x v reducesTo_S8x20x512x512_S8x512x512_d1 h_S_)) : (⟨S8x20x512x512, .f32⟩ : BufTy).Contents (Elt F) → (⟨S_, .f32⟩ : BufTy).Contents (Elt F) → (⟨S8x512x512, .f32⟩ : BufTy).Contents (Elt F)),
  nullary main_call4_cst_0 (((constant S_ .f32 0xFF800000#32)) : (⟨S_, .f32⟩ : BufTy).Contents (Elt F)),
  unary main_call4_cst_0 main_call4_v1 (((broadcastInDim S8x512x512 ![] bcast_S_S8x512x512)) : (⟨S_, .f32⟩ : BufTy).Contents (Elt F) → (⟨S8x512x512, .f32⟩ : BufTy).Contents (Elt F)),
  binary main_call4_v1 main_call4_v0 main_call4_v2 ((maximumf) : (⟨S8x512x512, .f32⟩ : BufTy).Contents (Elt F) → (⟨S8x512x512, .f32⟩ : BufTy).Contents (Elt F) → (⟨S8x512x512, .f32⟩ : BufTy).Contents (Elt F)),
  unary main_call4_v2 main_call4_v3 (((broadcastInDim S8x1x512x512 ![0, 2, 3] bcast_S8x512x512_S8x1x512x512_0_2_3)) : (⟨S8x512x512, .f32⟩ : BufTy).Contents (Elt F) → (⟨S8x1x512x512, .f32⟩ : BufTy).Contents (Elt F)),
  unary main_call4_v3 main_call4_v4 (((broadcastInDim S8x20x512x512 ![0, 1, 2, 3] bcast_S8x1x512x512_S8x20x512x512_0_1_2_3)) : (⟨S8x1x512x512, .f32⟩ : BufTy).Contents (Elt F) → (⟨S8x20x512x512, .f32⟩ : BufTy).Contents (Elt F)),
  binary main_arg1 main_call4_v4 main_call4_v5 ((subf) : (⟨S8x20x512x512, .f32⟩ : BufTy).Contents (Elt F) → (⟨S8x20x512x512, .f32⟩ : BufTy).Contents (Elt F) → (⟨S8x20x512x512, .f32⟩ : BufTy).Contents (Elt F)),
  unary main_call4_v5 main_call4_v6 ((Host.exp) : (⟨S8x20x512x512, .f32⟩ : BufTy).Contents (Elt F) → (⟨S8x20x512x512, .f32⟩ : BufTy).Contents (Elt F)),
  nullary main_call4_cst_1 (((constant S_ .f32 0x00000000#32)) : (⟨S_, .f32⟩ : BufTy).Contents (Elt F)),
  binary main_call4_v6 main_call4_cst_1 main_call4_v7 (((fun x v => Host.reduceAdd x v reducesTo_S8x20x512x512_S8x512x512_d1 h_S_)) : (⟨S8x20x512x512, .f32⟩ : BufTy).Contents (Elt F) → (⟨S_, .f32⟩ : BufTy).Contents (Elt F) → (⟨S8x512x512, .f32⟩ : BufTy).Contents (Elt F)),
  unary main_call4_v7 main_call4_v8 (((broadcastInDim S8x1x512x512 ![0, 2, 3] bcast_S8x512x512_S8x1x512x512_0_2_3)) : (⟨S8x512x512, .f32⟩ : BufTy).Contents (Elt F) → (⟨S8x1x512x512, .f32⟩ : BufTy).Contents (Elt F)),
  unary main_call4_v8 main_call4_v9 ((Host.log) : (⟨S8x1x512x512, .f32⟩ : BufTy).Contents (Elt F) → (⟨S8x1x512x512, .f32⟩ : BufTy).Contents (Elt F)),
  unary main_call4_v9 main_call4_v10 (((broadcastInDim S8x20x512x512 ![0, 1, 2, 3] bcast_S8x1x512x512_S8x20x512x512_0_1_2_3)) : (⟨S8x1x512x512, .f32⟩ : BufTy).Contents (Elt F) → (⟨S8x20x512x512, .f32⟩ : BufTy).Contents (Elt F)),
  binary main_call4_v5 main_call4_v10 main_v17 ((subf) : (⟨S8x20x512x512, .f32⟩ : BufTy).Contents (Elt F) → (⟨S8x20x512x512, .f32⟩ : BufTy).Contents (Elt F) → (⟨S8x20x512x512, .f32⟩ : BufTy).Contents (Elt F)),
  unary main_v16 main_v18 (broadcastInDim S8x1x512x512 ![0, 2, 3] bcast_S8x512x512_S8x1x512x512_0_2_3 : (⟨S8x512x512, .i32⟩ : BufTy).Contents (Elt F) → (⟨S8x1x512x512, .i32⟩ : BufTy).Contents (Elt F)),
  nullary main_call5_c (((constantI S_ 32 0#32)) : (⟨S_, .i32⟩ : BufTy).Contents (Elt F)),
  unary main_call5_c main_call5_v0 (((broadcastInDim S8x1x512x512 ![] bcast_S_S8x1x512x512)) : (⟨S_, .i32⟩ : BufTy).Contents (Elt F) → (⟨S8x1x512x512, .i32⟩ : BufTy).Contents (Elt F)),
  binary main_v18 main_call5_v0 main_call5_v1 (((cmpi .slt)) : (⟨S8x1x512x512, .i32⟩ : BufTy).Contents (Elt F) → (⟨S8x1x512x512, .i32⟩ : BufTy).Contents (Elt F) → (⟨S8x1x512x512, .i1⟩ : BufTy).Contents (Elt F)),
  nullary main_call5_c_0 (((constantI S_ 32 20#32)) : (⟨S_, .i32⟩ : BufTy).Contents (Elt F)),
  unary main_call5_c_0 main_call5_v2 (((broadcastInDim S8x1x512x512 ![] bcast_S_S8x1x512x512)) : (⟨S_, .i32⟩ : BufTy).Contents (Elt F) → (⟨S8x1x512x512, .i32⟩ : BufTy).Contents (Elt F)),
  binary main_v18 main_call5_v2 main_call5_v3 ((addi) : (⟨S8x1x512x512, .i32⟩ : BufTy).Contents (Elt F) → (⟨S8x1x512x512, .i32⟩ : BufTy).Contents (Elt F) → (⟨S8x1x512x512, .i32⟩ : BufTy).Contents (Elt F)),
  ternary main_call5_v1 main_call5_v3 main_v18 main_call5_v4 ((select) : (⟨S8x1x512x512, .i1⟩ : BufTy).Contents (Elt F) → (⟨S8x1x512x512, .i32⟩ : BufTy).Contents (Elt F) → (⟨S8x1x512x512, .i32⟩ : BufTy).Contents (Elt F) → (⟨S8x1x512x512, .i32⟩ : BufTy).Contents (Elt F)),
  reshape main_call5_v4 main_call5_v5 rfl shapeCasts_S8x1x512x512_S8x1x512x512x1,
  nullary main_call5_c_1 (((constantI S1 32 19#32)) : (⟨S1, .i32⟩ : BufTy).Contents (Elt F)),
  nullary main_call5_c_2 (((constantI S_ 32 0#32)) : (⟨S_, .i32⟩ : BufTy).Contents (Elt F)),
  unary main_call5_c_2 main_call5_v6 (((broadcastInDim S8x1x512x512x1 ![] bcast_S_S8x1x512x512x1)) : (⟨S_, .i32⟩ : BufTy).Contents (Elt F) → (⟨S8x1x512x512x1, .i32⟩ : BufTy).Contents (Elt F)),
  binary main_call5_v5 main_call5_v6 main_call5_v7 (((cmpi .sge)) : (⟨S8x1x512x512x1, .i32⟩ : BufTy).Contents (Elt F) → (⟨S8x1x512x512x1, .i32⟩ : BufTy).Contents (Elt F) → (⟨S8x1x512x512x1, .i1⟩ : BufTy).Contents (Elt F)),
  unary main_call5_c_1 main_call5_v8 (((broadcastInDim S1x1x1x1x1 ![4] bcast_S1_S1x1x1x1x1_4)) : (⟨S1, .i32⟩ : BufTy).Contents (Elt F) → (⟨S1x1x1x1x1, .i32⟩ : BufTy).Contents (Elt F)),
  unary main_call5_v8 main_call5_v9 (((broadcastInDim S8x1x512x512x1 ![0, 1, 2, 3, 4] bcast_S1x1x1x1x1_S8x1x512x512x1_0_1_2_3_4)) : (⟨S1x1x1x1x1, .i32⟩ : BufTy).Contents (Elt F) → (⟨S8x1x512x512x1, .i32⟩ : BufTy).Contents (Elt F)),
  binary main_call5_v5 main_call5_v9 main_call5_v10 (((cmpi .sle)) : (⟨S8x1x512x512x1, .i32⟩ : BufTy).Contents (Elt F) → (⟨S8x1x512x512x1, .i32⟩ : BufTy).Contents (Elt F) → (⟨S8x1x512x512x1, .i1⟩ : BufTy).Contents (Elt F)),
  binary main_call5_v7 main_call5_v10 main_call5_v11 ((andi) : (⟨S8x1x512x512x1, .i1⟩ : BufTy).Contents (Elt F) → (⟨S8x1x512x512x1, .i1⟩ : BufTy).Contents (Elt F) → (⟨S8x1x512x512x1, .i1⟩ : BufTy).Contents (Elt F)),
  nullary main_call5_c_3 (((constantI S_ 1 1#1)) : (⟨S_, .i1⟩ : BufTy).Contents (Elt F)),
  binary main_call5_v11 main_call5_c_3 main_call5_v12 (((fun x v => Host.reduce IntOp.andi x v reducesTo_S8x1x512x512x1_S8x1x512x512_d4 h_S_)) : (⟨S8x1x512x512x1, .i1⟩ : BufTy).Contents (Elt F) → (⟨S_, .i1⟩ : BufTy).Contents (Elt F) → (⟨S8x1x512x512, .i1⟩ : BufTy).Contents (Elt F)),
  binary main_v17 main_call5_v5 main_call5_v13 (((fun x i => Host.gather gather_S8x20x512x512_S8x1x512x512x1_S8x1x512x512_n_1_023_023_1_4_1111 x i)) : (⟨S8x20x512x512, .f32⟩ : BufTy).Contents (Elt F) → (⟨S8x1x512x512x1, .i32⟩ : BufTy).Contents (Elt F) → (⟨S8x1x512x512, .f32⟩ : BufTy).Contents (Elt F)),
  nullary main_call5_cst (((constant S_ .f32 0x7FC00000#32)) : (⟨S_, .f32⟩ : BufTy).Contents (Elt F)),
  unary main_call5_cst main_call5_v14 (((broadcastInDim S8x1x512x512 ![] bcast_S_S8x1x512x512)) : (⟨S_, .f32⟩ : BufTy).Contents (Elt F) → (⟨S8x1x512x512, .f32⟩ : BufTy).Contents (Elt F)),
  ternary main_call5_v12 main_call5_v13 main_call5_v14 main_v19 ((select) : (⟨S8x1x512x512, .i1⟩ : BufTy).Contents (Elt F) → (⟨S8x1x512x512, .f32⟩ : BufTy).Contents (Elt F) → (⟨S8x1x512x512, .f32⟩ : BufTy).Contents (Elt F) → (⟨S8x1x512x512, .f32⟩ : BufTy).Contents (Elt F)),
  reshape main_v19 main_v20 rfl shapeCasts_S8x1x512x512_S8x512x512,
  unary main_v20 main_v21 (Host.negf : (⟨S8x512x512, .f32⟩ : BufTy).Contents (Elt F) → (⟨S8x512x512, .f32⟩ : BufTy).Contents (Elt F)),
  unary main_v15 main_v22 (uitofp (F := F) .f32 : (⟨S8x512x512, .i1⟩ : BufTy).Contents (Elt F) → (⟨S8x512x512, .f32⟩ : BufTy).Contents (Elt F)),
  binary main_v21 main_v22 main_v23 (mulf : (⟨S8x512x512, .f32⟩ : BufTy).Contents (Elt F) → (⟨S8x512x512, .f32⟩ : BufTy).Contents (Elt F) → (⟨S8x512x512, .f32⟩ : BufTy).Contents (Elt F)),
  nullary main_cst_5 (constant S_ .f32 0x00000000#32),
  binary main_v23 main_cst_5 main_v24 ((fun x v => Host.reduceAdd x v reducesTo_S8x512x512_S_d0_1_2 h_S_) : (⟨S8x512x512, .f32⟩ : BufTy).Contents (Elt F) → (⟨S_, .f32⟩ : BufTy).Contents (Elt F) → (⟨S_, .f32⟩ : BufTy).Contents (Elt F)),
  nullary main_cst_6 (constant S_ .f32 0x00000000#32),
  binary main_v22 main_cst_6 main_v25 ((fun x v => Host.reduceAdd x v reducesTo_S8x512x512_S_d0_1_2 h_S_) : (⟨S8x512x512, .f32⟩ : BufTy).Contents (Elt F) → (⟨S_, .f32⟩ : BufTy).Contents (Elt F) → (⟨S_, .f32⟩ : BufTy).Contents (Elt F)),
  nullary main_cst_7 (constant S_ .f32 0x3F800000#32),
  binary main_v25 main_cst_7 main_v26 (maximumf : (⟨S_, .f32⟩ : BufTy).Contents (Elt F) → (⟨S_, .f32⟩ : BufTy).Contents (Elt F) → (⟨S_, .f32⟩ : BufTy).Contents (Elt F)),
  binary main_v24 main_v26 main_v27 (Host.divf : (⟨S_, .f32⟩ : BufTy).Contents (Elt F) → (⟨S_, .f32⟩ : BufTy).Contents (Elt F) → (⟨S_, .f32⟩ : BufTy).Contents (Elt F)),
  nullary main_c_8 (constantI S_ 32 255#32),
  unary main_c_8 main_v28 (broadcastInDim S8x512x512 ![] bcast_S_S8x512x512 : (⟨S_, .i32⟩ : BufTy).Contents (Elt F) → (⟨S8x512x512, .i32⟩ : BufTy).Contents (Elt F)),
  binary main_arg3 main_v28 main_v29 (cmpi .eq : (⟨S8x512x512, .i32⟩ : BufTy).Contents (Elt F) → (⟨S8x512x512, .i32⟩ : BufTy).Contents (Elt F) → (⟨S8x512x512, .i1⟩ : BufTy).Contents (Elt F)),
  nullary main_c_9 (constantI S_ 32 4294967295#32),
  unary main_c_9 main_call6_v0 ((id) : (⟨S_, .i32⟩ : BufTy).Contents (Elt F) → (⟨S_, .i32⟩ : BufTy).Contents (Elt F)),
  unary main_call6_v0 main_call6_v1 (((broadcastInDim S8x512x512 ![] bcast_S_S8x512x512)) : (⟨S_, .i32⟩ : BufTy).Contents (Elt F) → (⟨S8x512x512, .i32⟩ : BufTy).Contents (Elt F)),
  ternary main_v29 main_call6_v1 main_arg3 main_v30 ((select) : (⟨S8x512x512, .i1⟩ : BufTy).Contents (Elt F) → (⟨S8x512x512, .i32⟩ : BufTy).Contents (Elt F) → (⟨S8x512x512, .i32⟩ : BufTy).Contents (Elt F) → (⟨S8x512x512, .i32⟩ : BufTy).Contents (Elt F)),
  unary main_v30 main_v31 (sitofp (F := F) .f32 : (⟨S8x512x512, .i32⟩ : BufTy).Contents (Elt F) → (⟨S8x512x512, .f32⟩ : BufTy).Contents (Elt F)),
  unary main_v31 main_v32 ((transpose S8x512x512 [0, 2, 1] · transposes_S8x512x512_S8x512x512_0_2_1) : (⟨S8x512x512, .f32⟩ : BufTy).Contents (Elt F) → (⟨S8x512x512, .f32⟩ : BufTy).Contents (Elt F)),
  unary main_v32 main_v33 ((extractStridedSlice S8x512x1 ![0, 0, 1] · slices_S8x512x512_S8x512x1_0_0_1) : (⟨S8x512x512, .f32⟩ : BufTy).Contents (Elt F) → (⟨S8x512x1, .f32⟩ : BufTy).Contents (Elt F)),
  unary main_v32 main_v34 ((extractStridedSlice S8x512x1 ![0, 0, 0] · slices_S8x512x512_S8x512x1_0_0_0) : (⟨S8x512x512, .f32⟩ : BufTy).Contents (Elt F) → (⟨S8x512x1, .f32⟩ : BufTy).Contents (Elt F)),
  binary main_v33 main_v34 main_v35 (subf : (⟨S8x512x1, .f32⟩ : BufTy).Contents (Elt F) → (⟨S8x512x1, .f32⟩ : BufTy).Contents (Elt F) → (⟨S8x512x1, .f32⟩ : BufTy).Contents (Elt F)),
  unary main_v32 main_v36 ((extractStridedSlice S8x512x510 ![0, 0, 2] · slices_S8x512x512_S8x512x510_0_0_2) : (⟨S8x512x512, .f32⟩ : BufTy).Contents (Elt F) → (⟨S8x512x510, .f32⟩ : BufTy).Contents (Elt F)),
  unary main_v32 main_v37 ((extractStridedSlice S8x512x510 ![0, 0, 0] · slices_S8x512x512_S8x512x510_0_0_0) : (⟨S8x512x512, .f32⟩ : BufTy).Contents (Elt F) → (⟨S8x512x510, .f32⟩ : BufTy).Contents (Elt F)),
  binary main_v36 main_v37 main_v38 (subf : (⟨S8x512x510, .f32⟩ : BufTy).Contents (Elt F) → (⟨S8x512x510, .f32⟩ : BufTy).Contents (Elt F) → (⟨S8x512x510, .f32⟩ : BufTy).Contents (Elt F)),
  nullary main_cst_10 (constant S_ .f32 0x3F000000#32),
  unary main_cst_10 main_v39 (broadcastInDim S8x512x510 ![] bcast_S_S8x512x510 : (⟨S_, .f32⟩ : BufTy).Contents (Elt F) → (⟨S8x512x510, .f32⟩ : BufTy).Contents (Elt F)),
  binary main_v38 main_v39 main_v40 (mulf : (⟨S8x512x510, .f32⟩ : BufTy).Contents (Elt F) → (⟨S8x512x510, .f32⟩ : BufTy).Contents (Elt F) → (⟨S8x512x510, .f32⟩ : BufTy).Contents (Elt F)),
  unary main_v32 main_v41 ((extractStridedSlice S8x512x1 ![0, 0, 511] · slices_S8x512x512_S8x512x1_0_0_511) : (⟨S8x512x512, .f32⟩ : BufTy).Contents (Elt F) → (⟨S8x512x1, .f32⟩ : BufTy).Contents (Elt F)),
  unary main_v32 main_v42 ((extractStridedSlice S8x512x1 ![0, 0, 510] · slices_S8x512x512_S8x512x1_0_0_510) : (⟨S8x512x512, .f32⟩ : BufTy).Contents (Elt F) → (⟨S8x512x1, .f32⟩ : BufTy).Contents (Elt F)),
  binary main_v41 main_v42 main_v43 (subf : (⟨S8x512x1, .f32⟩ : BufTy).Contents (Elt F) → (⟨S8x512x1, .f32⟩ : BufTy).Contents (Elt F) → (⟨S8x512x1, .f32⟩ : BufTy).Contents (Elt F)),
  nary ![main_v35, main_v40, main_v43] main_v44 (fun u => concatenate S8x512x512 2 [⟨S8x512x1, u 0⟩, ⟨S8x512x510, u 1⟩, ⟨S8x512x1, u 2⟩] concatenates_S8x512x1_S8x512x510_S8x512x1_S8x512x512_d2),
  unary main_v44 main_v45 ((transpose S8x512x512 [0, 2, 1] · transposes_S8x512x512_S8x512x512_0_2_1) : (⟨S8x512x512, .f32⟩ : BufTy).Contents (Elt F) → (⟨S8x512x512, .f32⟩ : BufTy).Contents (Elt F)),
  unary main_v31 main_v46 ((extractStridedSlice S8x512x1 ![0, 0, 1] · slices_S8x512x512_S8x512x1_0_0_1) : (⟨S8x512x512, .f32⟩ : BufTy).Contents (Elt F) → (⟨S8x512x1, .f32⟩ : BufTy).Contents (Elt F)),
  unary main_v31 main_v47 ((extractStridedSlice S8x512x1 ![0, 0, 0] · slices_S8x512x512_S8x512x1_0_0_0) : (⟨S8x512x512, .f32⟩ : BufTy).Contents (Elt F) → (⟨S8x512x1, .f32⟩ : BufTy).Contents (Elt F)),
  binary main_v46 main_v47 main_v48 (subf : (⟨S8x512x1, .f32⟩ : BufTy).Contents (Elt F) → (⟨S8x512x1, .f32⟩ : BufTy).Contents (Elt F) → (⟨S8x512x1, .f32⟩ : BufTy).Contents (Elt F)),
  unary main_v31 main_v49 ((extractStridedSlice S8x512x510 ![0, 0, 2] · slices_S8x512x512_S8x512x510_0_0_2) : (⟨S8x512x512, .f32⟩ : BufTy).Contents (Elt F) → (⟨S8x512x510, .f32⟩ : BufTy).Contents (Elt F)),
  unary main_v31 main_v50 ((extractStridedSlice S8x512x510 ![0, 0, 0] · slices_S8x512x512_S8x512x510_0_0_0) : (⟨S8x512x512, .f32⟩ : BufTy).Contents (Elt F) → (⟨S8x512x510, .f32⟩ : BufTy).Contents (Elt F)),
  binary main_v49 main_v50 main_v51 (subf : (⟨S8x512x510, .f32⟩ : BufTy).Contents (Elt F) → (⟨S8x512x510, .f32⟩ : BufTy).Contents (Elt F) → (⟨S8x512x510, .f32⟩ : BufTy).Contents (Elt F)),
  nullary main_cst_11 (constant S_ .f32 0x3F000000#32),
  unary main_cst_11 main_v52 (broadcastInDim S8x512x510 ![] bcast_S_S8x512x510 : (⟨S_, .f32⟩ : BufTy).Contents (Elt F) → (⟨S8x512x510, .f32⟩ : BufTy).Contents (Elt F)),
  binary main_v51 main_v52 main_v53 (mulf : (⟨S8x512x510, .f32⟩ : BufTy).Contents (Elt F) → (⟨S8x512x510, .f32⟩ : BufTy).Contents (Elt F) → (⟨S8x512x510, .f32⟩ : BufTy).Contents (Elt F)),
  unary main_v31 main_v54 ((extractStridedSlice S8x512x1 ![0, 0, 511] · slices_S8x512x512_S8x512x1_0_0_511) : (⟨S8x512x512, .f32⟩ : BufTy).Contents (Elt F) → (⟨S8x512x1, .f32⟩ : BufTy).Contents (Elt F)),
  unary main_v31 main_v55 ((extractStridedSlice S8x512x1 ![0, 0, 510] · slices_S8x512x512_S8x512x1_0_0_510) : (⟨S8x512x512, .f32⟩ : BufTy).Contents (Elt F) → (⟨S8x512x1, .f32⟩ : BufTy).Contents (Elt F)),
  binary main_v54 main_v55 main_v56 (subf : (⟨S8x512x1, .f32⟩ : BufTy).Contents (Elt F) → (⟨S8x512x1, .f32⟩ : BufTy).Contents (Elt F) → (⟨S8x512x1, .f32⟩ : BufTy).Contents (Elt F)),
  nary ![main_v48, main_v53, main_v56] main_v57 (fun u => concatenate S8x512x512 2 [⟨S8x512x1, u 0⟩, ⟨S8x512x510, u 1⟩, ⟨S8x512x1, u 2⟩] concatenates_S8x512x1_S8x512x510_S8x512x1_S8x512x512_d2),
  unary main_v57 main_v58 (Host.absf : (⟨S8x512x512, .f32⟩ : BufTy).Contents (Elt F) → (⟨S8x512x512, .f32⟩ : BufTy).Contents (Elt F)),
  nullary main_cst_12 (constant S_ .f32 0x00000000#32),
  unary main_cst_12 main_v59 (broadcastInDim S8x512x512 ![] bcast_S_S8x512x512 : (⟨S_, .f32⟩ : BufTy).Contents (Elt F) → (⟨S8x512x512, .f32⟩ : BufTy).Contents (Elt F)),
  binary main_v58 main_v59 main_v60 (cmpf (F := F) .ogt : (⟨S8x512x512, .f32⟩ : BufTy).Contents (Elt F) → (⟨S8x512x512, .f32⟩ : BufTy).Contents (Elt F) → (⟨S8x512x512, .i1⟩ : BufTy).Contents (Elt F)),
  unary main_v45 main_v61 (Host.absf : (⟨S8x512x512, .f32⟩ : BufTy).Contents (Elt F) → (⟨S8x512x512, .f32⟩ : BufTy).Contents (Elt F)),
  nullary main_cst_13 (constant S_ .f32 0x00000000#32),
  unary main_cst_13 main_v62 (broadcastInDim S8x512x512 ![] bcast_S_S8x512x512 : (⟨S_, .f32⟩ : BufTy).Contents (Elt F) → (⟨S8x512x512, .f32⟩ : BufTy).Contents (Elt F)),
  binary main_v61 main_v62 main_v63 (cmpf (F := F) .ogt : (⟨S8x512x512, .f32⟩ : BufTy).Contents (Elt F) → (⟨S8x512x512, .f32⟩ : BufTy).Contents (Elt F) → (⟨S8x512x512, .i1⟩ : BufTy).Contents (Elt F)),
  binary main_v60 main_v63 main_v64 (ori : (⟨S8x512x512, .i1⟩ : BufTy).Contents (Elt F) → (⟨S8x512x512, .i1⟩ : BufTy).Contents (Elt F) → (⟨S8x512x512, .i1⟩ : BufTy).Contents (Elt F)),
  unary main_v64 main_v65 (uitofp (F := F) .f32 : (⟨S8x512x512, .i1⟩ : BufTy).Contents (Elt F) → (⟨S8x512x512, .f32⟩ : BufTy).Contents (Elt F)),
  nullary main_c_14 (constantI S_ 32 255#32),
  unary main_c_14 main_v66 (broadcastInDim S8x512x512 ![] bcast_S_S8x512x512 : (⟨S_, .i32⟩ : BufTy).Contents (Elt F) → (⟨S8x512x512, .i32⟩ : BufTy).Contents (Elt F)),
  binary main_arg3 main_v66 main_v67 (cmpi .ne : (⟨S8x512x512, .i32⟩ : BufTy).Contents (Elt F) → (⟨S8x512x512, .i32⟩ : BufTy).Contents (Elt F) → (⟨S8x512x512, .i1⟩ : BufTy).Contents (Elt F)),
  unary main_v67 main_v68 (uitofp (F := F) .f32 : (⟨S8x512x512, .i1⟩ : BufTy).Contents (Elt F) → (⟨S8x512x512, .f32⟩ : BufTy).Contents (Elt F)),
  reshape main_arg2 main_v69 rfl shapeCasts_S8x1x512x512_S8x512x512,
  binary main_v69 main_v68 main_v70 (mulf : (⟨S8x512x512, .f32⟩ : BufTy).Contents (Elt F) → (⟨S8x512x512, .f32⟩ : BufTy).Contents (Elt F) → (⟨S8x512x512, .f32⟩ : BufTy).Contents (Elt F)),
  binary main_v65 main_v68 main_v71 (mulf : (⟨S8x512x512, .f32⟩ : BufTy).Contents (Elt F) → (⟨S8x512x512, .f32⟩ : BufTy).Contents (Elt F) → (⟨S8x512x512, .f32⟩ : BufTy).Contents (Elt F)),
  nullary main_cst_15 (constant S_ .f32 0x00000000#32),
  unary main_cst_15 main_v72 (broadcastInDim S8x512x512 ![] bcast_S_S8x512x512 : (⟨S_, .f32⟩ : BufTy).Contents (Elt F) → (⟨S8x512x512, .f32⟩ : BufTy).Contents (Elt F)),
  binary main_v70 main_v72 main_v73 (maximumf : (⟨S8x512x512, .f32⟩ : BufTy).Contents (Elt F) → (⟨S8x512x512, .f32⟩ : BufTy).Contents (Elt F) → (⟨S8x512x512, .f32⟩ : BufTy).Contents (Elt F)),
  binary main_v70 main_v71 main_v74 (mulf : (⟨S8x512x512, .f32⟩ : BufTy).Contents (Elt F) → (⟨S8x512x512, .f32⟩ : BufTy).Contents (Elt F) → (⟨S8x512x512, .f32⟩ : BufTy).Contents (Elt F)),
  binary main_v73 main_v74 main_v75 (subf : (⟨S8x512x512, .f32⟩ : BufTy).Contents (Elt F) → (⟨S8x512x512, .f32⟩ : BufTy).Contents (Elt F) → (⟨S8x512x512, .f32⟩ : BufTy).Contents (Elt F)),
  unary main_v70 main_v76 (Host.absf : (⟨S8x512x512, .f32⟩ : BufTy).Contents (Elt F) → (⟨S8x512x512, .f32⟩ : BufTy).Contents (Elt F)),
  unary main_v76 main_v77 (Host.negf : (⟨S8x512x512, .f32⟩ : BufTy).Contents (Elt F) → (⟨S8x512x512, .f32⟩ : BufTy).Contents (Elt F)),
  unary main_v77 main_v78 (Host.exp : (⟨S8x512x512, .f32⟩ : BufTy).Contents (Elt F) → (⟨S8x512x512, .f32⟩ : BufTy).Contents (Elt F)),
  unary main_v78 main_v79 (Host.log1p : (⟨S8x512x512, .f32⟩ : BufTy).Contents (Elt F) → (⟨S8x512x512, .f32⟩ : BufTy).Contents (Elt F)),
  binary main_v75 main_v79 main_v80 (addf : (⟨S8x512x512, .f32⟩ : BufTy).Contents (Elt F) → (⟨S8x512x512, .f32⟩ : BufTy).Contents (Elt F) → (⟨S8x512x512, .f32⟩ : BufTy).Contents (Elt F)),
  nullary main_cst_16 (constant S_ .f32 0x00000000#32),
  binary main_v80 main_cst_16 main_v81 ((fun x v => Host.reduceAdd x v reducesTo_S8x512x512_S_d0_1_2 h_S_) : (⟨S8x512x512, .f32⟩ : BufTy).Contents (Elt F) → (⟨S_, .f32⟩ : BufTy).Contents (Elt F) → (⟨S_, .f32⟩ : BufTy).Contents (Elt F)),
  nullary main_cst_17 (constant S_ .f32 0x4A000000#32),
  binary main_v81 main_cst_17 main_v82 (Host.divf : (⟨S_, .f32⟩ : BufTy).Contents (Elt F) → (⟨S_, .f32⟩ : BufTy).Contents (Elt F) → (⟨S_, .f32⟩ : BufTy).Contents (Elt F)),
  binary main_v13 main_v27 main_v83 (addf : (⟨S_, .f32⟩ : BufTy).Contents (Elt F) → (⟨S_, .f32⟩ : BufTy).Contents (Elt F) → (⟨S_, .f32⟩ : BufTy).Contents (Elt F)),
  nullary main_cst_18 (constant S_ .f32 0x3ECCCCCD#32),
  binary main_cst_18 main_v82 main_v84 (mulf : (⟨S_, .f32⟩ : BufTy).Contents (Elt F) → (⟨S_, .f32⟩ : BufTy).Contents (Elt F) → (⟨S_, .f32⟩ : BufTy).Contents (Elt F)),
  binary main_v83 main_v84 main_v85 (addf : (⟨S_, .f32⟩ : BufTy).Contents (Elt F) → (⟨S_, .f32⟩ : BufTy).Contents (Elt F) → (⟨S_, .f32⟩ : BufTy).Contents (Elt F)) ]

end Cert.ReferenceIdeal.RunP

end
-- ==== Proof.LibNary3.lean ====
/-
  A host operation over a LITERAL family of three references (a concatenate of three operands): its result with each
  operand's contents at its own reference, so that a rewriting pass goes on into the operands' contents. Under the
  binder `fun k => F (![x, a, b] k)` the reference is no literal and no result lemma applies to it; with the three
  contents laid out by `Fin.cons` the composed term is the operation's body at the operands' own terms. The same
  statement as the library's four-reference lemma, one reference shorter, and its form for `simp`.
-/
import Idealize.ShloMosaic.Lib.StableHlo.Run

namespace Idealize.ShloMosaic.StableHlo

open Idealize.SL.Sem

variable {nD : Nat} {τ : Topo} {sig : RefSig} {Val : EltTy → Type}
variable {x a b y : Ref sig .tc}

/-- The result of a three-operand host operation, read at its result reference, is its function at the three operands'
    contents. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, the form a `simp` pass fires. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo
-- ==== Proof.RefNll.lean ====
/- The reference's per-pixel negative log-likelihood: the log-softmax of the pixel's logits, gathered at the pixel's
   class and negated, is `nllR` of the pixel's logits and label when every label is 255 or a class below 20. -/
import proofs.«413300_j1606317769444_2_alg».proof.Proof.RefRead
import proofs.«413300_j1606317769444_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefNll

open Cert.ReferenceIdeal Cert.ReferenceIdeal.Gen Cert.ReferenceIdeal.ReadP Idealize.ShloMosaic Idealize.ShloMosaic.ValueIdx

/-- The logits' arrays and the label map, as the reference's operations take them. -/
abbrev XArr := (⟨S8x20x512x512, .f32⟩ : BufTy).Contents (Elt Ideal)
abbrev TArr := (⟨S8x512x512, .i32⟩ : BufTy).Contents (Elt Ideal)

/-! ### Words: the class a pixel is scored at

`select (t ≠ 255) t 0` is `tsafe t`; when the label is 255 or below 20 that word, read signed, lies in [0, 20): it is
not negative, it passes the test 0 ≤ · ≤ 19, and clamping it into [0, 19] leaves it unchanged. -/

theorem select_ne_tsafe (w : BitVec 32) :
    Scalar.select (IntOp.cmpi .ne w 255#32) w 0#32 = Spec.tsafe w := by
  unfold Spec.tsafe Scalar.select IntOp.cmpi
  by_cases h : w = 255#32
  · subst h; rfl
  · rw [if_neg h]
    have : (w != 255#32) = true := by simpa using h
    simp [this]

theorem toInt_small (c : BitVec 32) (h : c.toNat < 20) : c.toInt = (c.toNat : Int) := by
  rw [BitVec.toInt_eq_toNat_cond, if_pos (by omega)]

theorem slt_zero_small (c : BitVec 32) (h : c.toNat < 20) : IntOp.cmpi .slt c 0#32 = 0#1 := by
  have hc := toInt_small c h
  have : c.slt 0#32 = false := by
    simp only [BitVec.slt, decide_eq_false_iff_not, hc]
    show ¬ ((c.toNat : Int) < 0)
    omega
  simp only [IntOp.cmpi, this]; rfl

theorem sge_zero_small (c : BitVec 32) (h : c.toNat < 20) : IntOp.cmpi .sge c 0#32 = 1#1 := by
  have hc := toInt_small c h
  have : (0#32).sle c = true := by
    simp only [BitVec.sle, decide_eq_true_eq, hc]
    show (0 : Int) ≤ (c.toNat : Int)
    omega
  simp only [IntOp.cmpi, this]; rfl

theorem sle_19_small (c : BitVec 32) (h : c.toNat < 20) : IntOp.cmpi .sle c 19#32 = 1#1 := by
  have hc := toInt_small c h
  have : c.sle 19#32 = true := by
    simp only [BitVec.sle, decide_eq_true_eq, hc]
    show (c.toNat : Int) ≤ 19
    omega
  simp only [IntOp.cmpi, this]; rfl

theorem clamp_small (c : BitVec 32) (h : c.toNat < 20) : min c.toInt.toNat (20 - 1) = c.toNat := by
  rw [toInt_small c h]; simp only [Int.toNat_natCast]; omega

theorem tsafe_range (w : BitVec 32) (h : w = 255#32 ∨ w.toNat < 20) : (Spec.tsafe w).toNat < 20 := by
  unfold Spec.tsafe
  by_cases h' : w = 255#32
  · rw [if_pos h']; decide
  · rw [if_neg h']; exact h.resolve_left h'

theorem label_range (t : TArr) (hT : Spec.InRange t) (b : Fin 8) (y x' : Fin 512) :
    (Spec.tsafe (Spec.label t b y x')).toNat < 20 := tsafe_range _ (hT (ix3 b y x'))

/-- The class as one of the twenty is the word itself once it is below 20. -/
theorem classOf_eq (w : BitVec 32) (h : (Spec.tsafe w).toNat < 20) : (⟨(Spec.tsafe w).toNat, h⟩ : Fin 20) = Spec.classOf w :=
  Fin.ext (Nat.mod_eq_of_lt h).symm

/-! ### The maximum over the class axis

At pixel (b, y, x) the max-reduction over axis 1 from −∞ is the fold of `max` over the pixel's twenty logits. -/

theorem red1 : S8x20x512x512.Reduces [1] S8x512x512 := by decide

theorem lift1 (b : Fin 8) (y x' : Fin 512) (k : Fin 20) :
    red1.lift (ix3 b y x') k = ix4 b k y x' := by
  funext a
  match a with
  | ⟨0, _⟩ => rfl
  | ⟨1, _⟩ => rfl
  | ⟨2, _⟩ => rfl
  | ⟨3, _⟩ => rfl

/-- max (−∞) (the max-reduction from −∞) is `vmax` of the pixel's logits: the fold already starts from −∞, so it is at least −∞. -/
theorem max_reduce_class (x : XArr) (init : (⟨S_, .f32⟩ : BufTy).Contents (Elt Ideal))
    (hinit : init (Shape.Idx.first h_S_) = Ideal.ofBits .f32 0xFF800000#32) (b : Fin 8) (y x' : Fin 512) :
    max (Ideal.ofBits .f32 0xFF800000#32)
        (Host.reduce (FloatOps.maximumf (F := Ideal) (φ := .f32)) x init reducesTo_S8x20x512x512_S8x512x512_d1 h_S_ (ix3 b y x'))
      = Spec.vmax (Spec.logits x b y x') := by
  have hr := Host.reduce_eq_fold_single (FloatOps.maximumf (F := Ideal) (φ := .f32)) x init
    reducesTo_S8x20x512x512_S8x512x512_d1 red1 h_S_ (ix3 b y x')
  rw [hr, hinit]
  have hf : (x ∘ red1.lift (ix3 b y x')) = Spec.logits x b y x' :=
    funext fun k => congrArg x (lift1 b y x' k)
  rw [hf]
  unfold Spec.vmax
  exact max_eq_right ((Finset.le_fold_max _).2 (Or.inl le_rfl))

/-! ### The and-reduction over the unit axis -/

theorem red4 : S8x1x512x512x1.Reduces [4] S8x1x512x512 := by decide

theorem lift4 (b : Fin 8) (y x' : Fin 512) (k : Fin 1) :
    red4.lift (ix4 b (0 : Fin 1) y x') k = ix5 b (0 : Fin 1) y x' (0 : Fin 1) := by
  funext a
  match a with
  | ⟨0, _⟩ => rfl
  | ⟨1, _⟩ => rfl
  | ⟨2, _⟩ => rfl
  | ⟨3, _⟩ => rfl
  | ⟨4, _⟩ => exact Fin.ext (by show k.val = 0; omega)

theorem fold_fin_one {α : Type} (op : α → α → α) [Std.Commutative op] [Std.Associative op] (init : α) (f : Fin 1 → α) :
    (Finset.univ : Finset (Fin 1)).fold op init f = op (f 0) init := by
  rw [Finset.univ_unique, Finset.fold_singleton]; rfl

/-- An and-reduction over the last axis, of size one, is the and of the one element with the initial value. -/
theorem reduce_and_unit (P : IVec S8x1x512x512x1 1) (init : IVec S_ 1) (b : Fin 8) (y x' : Fin 512) :
    Host.reduce IntOp.andi P init reducesTo_S8x1x512x512x1_S8x1x512x512_d4 h_S_ (ix4 b (0 : Fin 1) y x')
      = IntOp.andi (P (ix5 b (0 : Fin 1) y x' (0 : Fin 1))) (init (Shape.Idx.first h_S_)) := by
  have hr := Host.reduce_eq_fold_single (IntOp.andi (w := 1)) P init
    reducesTo_S8x1x512x512x1_S8x1x512x512_d4 red4 h_S_ (ix4 b (0 : Fin 1) y x')
  rw [hr]
  refine (fold_fin_one (IntOp.andi (w := 1)) _ (P ∘ red4.lift (ix4 b (0 : Fin 1) y x'))).trans ?_
  show IntOp.andi (P (red4.lift (ix4 b (0 : Fin 1) y x') (0 : Fin 1))) _ = _
  rw [lift4]

/-! ### The gather along the class axis

Result index (b, 0, y, x) reads the operand at (b, c, y, x): the three batching axes carry the result's coordinates, and on
the class axis the start index, read signed at (b, 0, y, x, 0) and clamped into [0, 19], is the class c itself. -/

abbrev GD := gather_S8x20x512x512_S8x1x512x512x1_S8x1x512x512_n_1_023_023_1_4_1111

/-- The start-indices index the gather reads for result index (b, 0, y, x). -/
theorem gd_siIdx (b : Fin 8) (y x' : Fin 512) (c : Fin GD.startIndexMap.length) :
    GD.siIdx (ix4 b (0 : Fin 1) y x') c = ix5 b (0 : Fin 1) y x' (0 : Fin 1) := by
  funext a
  refine Fin.ext ?_
  match a with
  | ⟨0, _⟩ => rfl
  | ⟨1, _⟩ => rfl
  | ⟨2, _⟩ => rfl
  | ⟨3, _⟩ => rfl
  | ⟨4, _⟩ =>
    have : c.val < 1 := c.isLt
    show c.val = 0
    omega

theorem gather_class (X : S8x20x512x512.Idx → EReal) (I : IVec S8x1x512x512x1 32) (b : Fin 8) (y x' : Fin 512)
    (c : BitVec 32) (hI : I (ix5 b (0 : Fin 1) y x' (0 : Fin 1)) = c) (hc : c.toNat < 20) :
    Host.gather GD X I (ix4 b (0 : Fin 1) y x') = X (ix4 b ⟨c.toNat, hc⟩ y x') := by
  unfold Host.gather
  refine congrArg X ?_
  funext a
  refine Fin.ext ?_
  match a with
  | ⟨0, _⟩ =>
    show GD.start (ix4 b (0 : Fin 1) y x') I 0 + GD.batchCoord (ix4 b (0 : Fin 1) y x') 0 + GD.offCoord (ix4 b (0 : Fin 1) y x') 0 = b.val
    have hb : GD.batchCoord (ix4 b (0 : Fin 1) y x') 0 = b.val := by
      unfold GatherDims.batchCoord; rw [dif_pos (by decide)]; rfl
    rw [GD.start_batching _ I 0 (by decide), GD.offCoord_eq_zero _ 0 (by decide), hb]
    omega
  | ⟨1, _⟩ =>
    show GD.start (ix4 b (0 : Fin 1) y x') I 1 + GD.batchCoord (ix4 b (0 : Fin 1) y x') 1 + GD.offCoord (ix4 b (0 : Fin 1) y x') 1 = c.toNat
    have hs : GD.start (ix4 b (0 : Fin 1) y x') I 1 = min (I (ix5 b (0 : Fin 1) y x' (0 : Fin 1))).toInt.toNat (20 - 1) := by
      unfold GatherDims.start; rw [dif_pos (by decide), gd_siIdx]; rfl
    rw [hs, GD.batchCoord_eq_zero _ 1 (by decide), GD.offCoord_eq_zero _ 1 (by decide), hI, clamp_small c hc]
    omega
  | ⟨2, _⟩ =>
    show GD.start (ix4 b (0 : Fin 1) y x') I 2 + GD.batchCoord (ix4 b (0 : Fin 1) y x') 2 + GD.offCoord (ix4 b (0 : Fin 1) y x') 2 = y.val
    have hb : GD.batchCoord (ix4 b (0 : Fin 1) y x') 2 = y.val := by
      unfold GatherDims.batchCoord; rw [dif_pos (by decide)]; rfl
    rw [GD.start_batching _ I 2 (by decide), GD.offCoord_eq_zero _ 2 (by decide), hb]
    omega
  | ⟨3, _⟩ =>
    show GD.start (ix4 b (0 : Fin 1) y x') I 3 + GD.batchCoord (ix4 b (0 : Fin 1) y x') 3 + GD.offCoord (ix4 b (0 : Fin 1) y x') 3 = x'.val
    have hb : GD.batchCoord (ix4 b (0 : Fin 1) y x') 3 = x'.val := by
      unfold GatherDims.batchCoord; rw [dif_pos (by decide)]; rfl
    rw [GD.start_batching _ I 3 (by decide), GD.offCoord_eq_zero _ 3 (by decide), hb]
    omega

/-! ### Indices: the layout operations' source indices at a pixel -/

/-- A pixel's index with a unit class axis inserted, flattened row-major and split again, is the same pixel. -/
theorem flat_split (b : Fin 8) (y x' : Fin 512) :
    ((b.val * 512 + y.val) * 512 + x'.val) / 262144 = b.val
      ∧ ((b.val * 512 + y.val) * 512 + x'.val) / 512 % 512 = y.val
      ∧ ((b.val * 512 + y.val) * 512 + x'.val) % 512 = x'.val := by
  have hy := y.isLt
  have hx := x'.isLt
  omega

/-! ### The first copy: the coarse logits -/

theorem tsafe_first (t : TArr) (b : Fin 8) (y x' : Fin 512) :
    val_main_v2 (F := Ideal) t (ix3 b y x') = Spec.tsafe (Spec.label t b y x') := by
  rw [val_main_v2_apply, val_main_v1_apply, val_main_v0_apply, val_main_c_apply, val_main_call0_v1_apply,
    val_main_call0_v0_apply, val_main_c_0_apply]
  exact select_ne_tsafe _

theorem vmax_first (x : XArr) (b : Fin 8) (y x' : Fin 512) :
    val_main_call1_v2 (F := Ideal) x (ix3 b y x') = Spec.vmax (Spec.logits x b y x') := by
  rw [val_main_call1_v2_apply, val_main_call1_v1_apply, val_main_call1_cst_0_apply]
  unfold val_main_call1_v0
  exact max_reduce_class x _ (val_main_call1_cst_apply _) b y x'

theorem i34_first (b : Fin 8) (k : Fin 20) (y x' : Fin 512) :
    idx_main_call1_v3 (idx_main_call1_v4 (ix4 b k y x')) = ix3 b y x' := by
  funext a
  match a with
  | ⟨0, _⟩ => rfl
  | ⟨1, _⟩ => rfl
  | ⟨2, _⟩ => rfl

theorem v5_first (x : XArr) (b : Fin 8) (k : Fin 20) (y x' : Fin 512) :
    val_main_call1_v5 (F := Ideal) x (ix4 b k y x') = x (ix4 b k y x') - Spec.vmax (Spec.logits x b y x') := by
  rw [val_main_call1_v5_apply, val_main_call1_v4_apply, val_main_call1_v3_apply, i34_first, vmax_first]
  rfl

theorem i7_first (b : Fin 8) (k : Fin 20) (y x' : Fin 512) :
    idx_main_call1_v7 (ix3 b y x') k = ix4 b k y x' := by
  funext a
  match a with
  | ⟨0, _⟩ => rfl
  | ⟨1, _⟩ => rfl
  | ⟨2, _⟩ => rfl
  | ⟨3, _⟩ => rfl

theorem sumexp_first (x : XArr) (b : Fin 8) (y x' : Fin 512) :
    val_main_call1_v7 (F := Ideal) x (ix3 b y x') = Spec.sumexp (Spec.logits x b y x') := by
  rw [val_main_call1_v7_apply, val_main_call1_cst_1_apply, Ideal.ofBits_def, Ideal.ofBits_zero_f32, zero_add]
  unfold Spec.sumexp
  refine Finset.sum_congr rfl fun k _ => ?_
  rw [i7_first, val_main_call1_v6_apply, v5_first]
  rfl

theorem i810_first (b : Fin 8) (k : Fin 20) (y x' : Fin 512) :
    idx_main_call1_v8 (idx_main_call1_v10 (ix4 b k y x')) = ix3 b y x' := by
  funext a
  match a with
  | ⟨0, _⟩ => rfl
  | ⟨1, _⟩ => rfl
  | ⟨2, _⟩ => rfl

/-- The log-softmax at class k of pixel (b, y, x). -/
theorem logsoftmax_first (x : XArr) (b : Fin 8) (k : Fin 20) (y x' : Fin 512) :
    val_main_v3 (F := Ideal) x (ix4 b k y x')
      = (x (ix4 b k y x') - Spec.vmax (Spec.logits x b y x')) - Ideal.log (Spec.sumexp (Spec.logits x b y x')) := by
  rw [val_main_v3_apply, v5_first, val_main_call1_v10_apply, val_main_call1_v9_apply, val_main_call1_v8_apply,
    i810_first, sumexp_first]
  rfl

theorem i4_first (b : Fin 8) (y x' : Fin 512) : idx_main_v4 (ix4 b (0 : Fin 1) y x') = ix3 b y x' := by
  funext a
  match a with
  | ⟨0, _⟩ => rfl
  | ⟨1, _⟩ => rfl
  | ⟨2, _⟩ => rfl

theorem v4_first (t : TArr) (b : Fin 8) (y x' : Fin 512) :
    val_main_v4 (F := Ideal) t (ix4 b (0 : Fin 1) y x') = Spec.tsafe (Spec.label t b y x') := by
  rw [val_main_v4_apply, i4_first, tsafe_first]

/-- The wrap-around of a negative index leaves the class unchanged: it is not negative. -/
theorem wrap_first (t : TArr) (hT : Spec.InRange t) (b : Fin 8) (y x' : Fin 512) :
    val_main_call2_v4 (F := Ideal) t (ix4 b (0 : Fin 1) y x') = Spec.tsafe (Spec.label t b y x') := by
  rw [val_main_call2_v4_apply, val_main_call2_v1_apply, val_main_call2_v0_apply, val_main_call2_c_apply, v4_first,
    slt_zero_small _ (label_range t hT b y x'), select_zero]

theorem i5_first (b : Fin 8) (y x' : Fin 512) :
    idx_main_call2_v5 (ix5 b (0 : Fin 1) y x' (0 : Fin 1)) = ix4 b (0 : Fin 1) y x' := by
  have hy := y.isLt
  have hx := x'.isLt
  funext a
  refine Fin.ext ?_
  match a with
  | ⟨0, _⟩ => show ((((b.val * 1 + 0) * 512 + y.val) * 512 + x'.val) * 1 + 0) / 262144 = b.val; omega
  | ⟨1, _⟩ => rfl
  | ⟨2, _⟩ => show ((((b.val * 1 + 0) * 512 + y.val) * 512 + x'.val) * 1 + 0) / 512 % 512 = y.val; omega
  | ⟨3, _⟩ => show ((((b.val * 1 + 0) * 512 + y.val) * 512 + x'.val) * 1 + 0) % 512 = x'.val; omega

theorem idx5_first (t : TArr) (hT : Spec.InRange t) (b : Fin 8) (y x' : Fin 512) :
    val_main_call2_v5 (F := Ideal) t (ix5 b (0 : Fin 1) y x' (0 : Fin 1)) = Spec.tsafe (Spec.label t b y x') := by
  rw [val_main_call2_v5_apply, i5_first, wrap_first t hT]

/-- The in-range test of the gather index holds at every pixel. -/
theorem inrange_first (t : TArr) (hT : Spec.InRange t) (b : Fin 8) (y x' : Fin 512) :
    val_main_call2_v12 (F := Ideal) t (ix4 b (0 : Fin 1) y x') = 1#1 := by
  have h := label_range t hT b y x'
  unfold val_main_call2_v12
  rw [reduce_and_unit, val_main_call2_v11_apply, val_main_call2_v7_apply, val_main_call2_v10_apply, idx5_first t hT,
    val_main_call2_v6_apply, val_main_call2_c_2_apply, val_main_call2_v9_apply, val_main_call2_v8_apply,
    val_main_call2_c_1_apply, val_main_call2_c_3_apply, sge_zero_small _ h, sle_19_small _ h]
  decide

/-- The gather reads the log-softmax at the pixel's class. -/
theorem gather_first (x : XArr) (t : TArr) (hT : Spec.InRange t) (b : Fin 8) (y x' : Fin 512) :
    val_main_call2_v13 (F := Ideal) x t (ix4 b (0 : Fin 1) y x')
      = val_main_v3 (F := Ideal) x (ix4 b (Spec.classOf (Spec.label t b y x')) y x') := by
  have h := label_range t hT b y x'
  unfold val_main_call2_v13
  rw [gather_class (val_main_v3 (F := Ideal) x) (val_main_call2_v5 (F := Ideal) t) b y x' _ (idx5_first t hT b y x') h,
    classOf_eq _ h]

theorem i6_first (b : Fin 8) (y x' : Fin 512) : idx_main_v6 (ix3 b y x') = ix4 b (0 : Fin 1) y x' := by
  obtain ⟨h0, h2, h3⟩ := flat_split b y x'
  funext a
  refine Fin.ext ?_
  match a with
  | ⟨0, _⟩ => exact h0
  | ⟨1, _⟩ => rfl
  | ⟨2, _⟩ => exact h2
  | ⟨3, _⟩ => exact h3

/-- The negated gathered log-softmax of the coarse logits, at pixel (b, y, x). -/
theorem nll_coarse (x : (⟨S8x20x512x512, .f32⟩ : BufTy).Contents (Elt Ideal)) (t : (⟨S8x512x512, .i32⟩ : BufTy).Contents (Elt Ideal)) (hT : Spec.InRange t) (b : Fin 8) (y x' : Fin 512) :
    val_main_v7 (F := Ideal) x t (ix3 b y x') = Spec.nllR (Spec.logits x b y x') (Spec.label t b y x') := by
  rw [val_main_v7_apply, val_main_v6_apply, i6_first, val_main_v5_apply, inrange_first t hT, select_one,
    gather_first x t hT, logsoftmax_first]
  rfl

/-! ### The second copy: the refined logits (the same operations over the program's second set of buffers) -/

theorem tsafe_second (t : TArr) (b : Fin 8) (y x' : Fin 512) :
    val_main_v16 (F := Ideal) t (ix3 b y x') = Spec.tsafe (Spec.label t b y x') := by
  rw [val_main_v16_apply, val_main_v15_apply, val_main_v14_apply, val_main_c_3_apply, val_main_call3_v1_apply,
    val_main_call3_v0_apply, val_main_c_4_apply]
  exact select_ne_tsafe _

theorem vmax_second (x : XArr) (b : Fin 8) (y x' : Fin 512) :
    val_main_call4_v2 (F := Ideal) x (ix3 b y x') = Spec.vmax (Spec.logits x b y x') := by
  rw [val_main_call4_v2_apply, val_main_call4_v1_apply, val_main_call4_cst_0_apply]
  unfold val_main_call4_v0
  exact max_reduce_class x _ (val_main_call4_cst_apply _) b y x'

theorem i34_second (b : Fin 8) (k : Fin 20) (y x' : Fin 512) :
    idx_main_call4_v3 (idx_main_call4_v4 (ix4 b k y x')) = ix3 b y x' := by
  funext a
  match a with
  | ⟨0, _⟩ => rfl
  | ⟨1, _⟩ => rfl
  | ⟨2, _⟩ => rfl

theorem v5_second (x : XArr) (b : Fin 8) (k : Fin 20) (y x' : Fin 512) :
    val_main_call4_v5 (F := Ideal) x (ix4 b k y x') = x (ix4 b k y x') - Spec.vmax (Spec.logits x b y x') := by
  rw [val_main_call4_v5_apply, val_main_call4_v4_apply, val_main_call4_v3_apply, i34_second, vmax_second]
  rfl

theorem i7_second (b : Fin 8) (k : Fin 20) (y x' : Fin 512) :
    idx_main_call4_v7 (ix3 b y x') k = ix4 b k y x' := by
  funext a
  match a with
  | ⟨0, _⟩ => rfl
  | ⟨1, _⟩ => rfl
  | ⟨2, _⟩ => rfl
  | ⟨3, _⟩ => rfl

theorem sumexp_second (x : XArr) (b : Fin 8) (y x' : Fin 512) :
    val_main_call4_v7 (F := Ideal) x (ix3 b y x') = Spec.sumexp (Spec.logits x b y x') := by
  rw [val_main_call4_v7_apply, val_main_call4_cst_1_apply, Ideal.ofBits_def, Ideal.ofBits_zero_f32, zero_add]
  unfold Spec.sumexp
  refine Finset.sum_congr rfl fun k _ => ?_
  rw [i7_second, val_main_call4_v6_apply, v5_second]
  rfl

theorem i810_second (b : Fin 8) (k : Fin 20) (y x' : Fin 512) :
    idx_main_call4_v8 (idx_main_call4_v10 (ix4 b k y x')) = ix3 b y x' := by
  funext a
  match a with
  | ⟨0, _⟩ => rfl
  | ⟨1, _⟩ => rfl
  | ⟨2, _⟩ => rfl

theorem logsoftmax_second (x : XArr) (b : Fin 8) (k : Fin 20) (y x' : Fin 512) :
    val_main_v17 (F := Ideal) x (ix4 b k y x')
      = (x (ix4 b k y x') - Spec.vmax (Spec.logits x b y x')) - Ideal.log (Spec.sumexp (Spec.logits x b y x')) := by
  rw [val_main_v17_apply, v5_second, val_main_call4_v10_apply, val_main_call4_v9_apply, val_main_call4_v8_apply,
    i810_second, sumexp_second]
  rfl

theorem i18_second (b : Fin 8) (y x' : Fin 512) : idx_main_v18 (ix4 b (0 : Fin 1) y x') = ix3 b y x' := by
  funext a
  match a with
  | ⟨0, _⟩ => rfl
  | ⟨1, _⟩ => rfl
  | ⟨2, _⟩ => rfl

theorem v18_second (t : TArr) (b : Fin 8) (y x' : Fin 512) :
    val_main_v18 (F := Ideal) t (ix4 b (0 : Fin 1) y x') = Spec.tsafe (Spec.label t b y x') := by
  rw [val_main_v18_apply, i18_second, tsafe_second]

theorem wrap_second (t : TArr) (hT : Spec.InRange t) (b : Fin 8) (y x' : Fin 512) :
    val_main_call5_v4 (F := Ideal) t (ix4 b (0 : Fin 1) y x') = Spec.tsafe (Spec.label t b y x') := by
  rw [val_main_call5_v4_apply, val_main_call5_v1_apply, val_main_call5_v0_apply, val_main_call5_c_apply, v18_second,
    slt_zero_small _ (label_range t hT b y x'), select_zero]

theorem i5_second (b : Fin 8) (y x' : Fin 512) :
    idx_main_call5_v5 (ix5 b (0 : Fin 1) y x' (0 : Fin 1)) = ix4 b (0 : Fin 1) y x' := by
  have hy := y.isLt
  have hx := x'.isLt
  funext a
  refine Fin.ext ?_
  match a with
  | ⟨0, _⟩ => show ((((b.val * 1 + 0) * 512 + y.val) * 512 + x'.val) * 1 + 0) / 262144 = b.val; omega
  | ⟨1, _⟩ => rfl
  | ⟨2, _⟩ => show ((((b.val * 1 + 0) * 512 + y.val) * 512 + x'.val) * 1 + 0) / 512 % 512 = y.val; omega
  | ⟨3, _⟩ => show ((((b.val * 1 + 0) * 512 + y.val) * 512 + x'.val) * 1 + 0) % 512 = x'.val; omega

theorem idx5_second (t : TArr) (hT : Spec.InRange t) (b : Fin 8) (y x' : Fin 512) :
    val_main_call5_v5 (F := Ideal) t (ix5 b (0 : Fin 1) y x' (0 : Fin 1)) = Spec.tsafe (Spec.label t b y x') := by
  rw [val_main_call5_v5_apply, i5_second, wrap_second t hT]

theorem inrange_second (t : TArr) (hT : Spec.InRange t) (b : Fin 8) (y x' : Fin 512) :
    val_main_call5_v12 (F := Ideal) t (ix4 b (0 : Fin 1) y x') = 1#1 := by
  have h := label_range t hT b y x'
  unfold val_main_call5_v12
  rw [reduce_and_unit, val_main_call5_v11_apply, val_main_call5_v7_apply, val_main_call5_v10_apply, idx5_second t hT,
    val_main_call5_v6_apply, val_main_call5_c_2_apply, val_main_call5_v9_apply, val_main_call5_v8_apply,
    val_main_call5_c_1_apply, val_main_call5_c_3_apply, sge_zero_small _ h, sle_19_small _ h]
  decide

theorem gather_second (x : XArr) (t : TArr) (hT : Spec.InRange t) (b : Fin 8) (y x' : Fin 512) :
    val_main_call5_v13 (F := Ideal) x t (ix4 b (0 : Fin 1) y x')
      = val_main_v17 (F := Ideal) x (ix4 b (Spec.classOf (Spec.label t b y x')) y x') := by
  have h := label_range t hT b y x'
  unfold val_main_call5_v13
  rw [gather_class (val_main_v17 (F := Ideal) x) (val_main_call5_v5 (F := Ideal) t) b y x' _ (idx5_second t hT b y x') h,
    classOf_eq _ h]

theorem i20_second (b : Fin 8) (y x' : Fin 512) : idx_main_v20 (ix3 b y x') = ix4 b (0 : Fin 1) y x' := by
  obtain ⟨h0, h2, h3⟩ := flat_split b y x'
  funext a
  refine Fin.ext ?_
  match a with
  | ⟨0, _⟩ => exact h0
  | ⟨1, _⟩ => rfl
  | ⟨2, _⟩ => exact h2
  | ⟨3, _⟩ => exact h3

/-- The same for the refined logits. -/
theorem nll_refined (x : (⟨S8x20x512x512, .f32⟩ : BufTy).Contents (Elt Ideal)) (t : (⟨S8x512x512, .i32⟩ : BufTy).Contents (Elt Ideal)) (hT : Spec.InRange t) (b : Fin 8) (y x' : Fin 512) :
    val_main_v21 (F := Ideal) x t (ix3 b y x') = Spec.nllR (Spec.logits x b y x') (Spec.label t b y x') := by
  rw [val_main_v21_apply, val_main_v20_apply, i20_second, val_main_v19_apply, inrange_second t hT, select_one,
    gather_second x t hT, logsoftmax_second]
  rfl

/-- The validity mask as a float, at a pixel (the first and the second copy the program computes). -/
theorem valid_first (t : (⟨S8x512x512, .i32⟩ : BufTy).Contents (Elt Ideal)) (b : Fin 8) (y x' : Fin 512) :
    val_main_v8 (F := Ideal) t (ix3 b y x') = Spec.valid (Spec.label t b y x') := by
  rw [val_main_v8_apply, val_main_v1_apply, val_main_v0_apply, val_main_c_apply]
  rfl
theorem valid_second (t : (⟨S8x512x512, .i32⟩ : BufTy).Contents (Elt Ideal)) (b : Fin 8) (y x' : Fin 512) :
    val_main_v22 (F := Ideal) t (ix3 b y x') = Spec.valid (Spec.label t b y x') := by
  rw [val_main_v22_apply, val_main_v15_apply, val_main_v14_apply, val_main_c_3_apply]
  rfl

end Cert.ReferenceIdeal.RefNll

end
-- ==== Proof.RefCE.lean ====
/- The reference's two cross-entropy terms: the sum over every pixel of negative log-likelihood times validity,
   divided by the number of labelled pixels, at least one. -/
import proofs.«413300_j1606317769444_2_alg».proof.Proof.RefRead
import proofs.«413300_j1606317769444_2_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«413300_j1606317769444_2_alg».proof.Proof.RefNll

noncomputable section

namespace Cert.ReferenceIdeal.RefCE

open Cert.ReferenceIdeal Cert.ReferenceIdeal.Gen Cert.ReferenceIdeal.ReadP Idealize.ShloMosaic Idealize.ShloMosaic.ValueIdx

/-- The coarse term. -/
theorem ce_coarse (x : (⟨S8x20x512x512, .f32⟩ : BufTy).Contents (Elt Ideal)) (t : (⟨S8x512x512, .i32⟩ : BufTy).Contents (Elt Ideal)) (hT : Spec.InRange t) :
    val_main_v13 (F := Ideal) x t
      = fun _ => Ideal.div (Spec.sumPix (Spec.pixCR x t)) (max (Spec.sumPix (Spec.pixV t)) Spec.one) := by
  funext i
  rw [val_main_v13_apply, val_main_v10_apply, val_main_v12_apply, val_main_v11_apply, val_main_cst_apply, val_main_cst_1_apply,
    val_main_cst_2_apply]
  simp only [Ideal.ofBits_def, Ideal.hostDivf_def, Ideal.maximumf_def, Ideal.ofBits_zero_f32, zero_add]
  -- every pixel index is the triple of its coordinates, so the two pointwise readings apply at it
  have hn : ∀ j : S8x512x512.Idx, val_main_v7 (F := Ideal) x t j
      = Spec.nllR (Spec.logits x (j 0) (j 1) (j 2)) (Spec.label t (j 0) (j 1) (j 2)) := fun j =>
    (congrArg (val_main_v7 (F := Ideal) x t) (eq_ix3 (n0 := 8) (n1 := 512) (n2 := 512) j)).trans
      (RefNll.nll_coarse x t hT (j 0) (j 1) (j 2))
  have hm : ∀ j : S8x512x512.Idx, val_main_v8 (F := Ideal) t j = Spec.valid (Spec.label t (j 0) (j 1) (j 2)) := fun j =>
    (congrArg (val_main_v8 (F := Ideal) t) (eq_ix3 (n0 := 8) (n1 := 512) (n2 := 512) j)).trans
      (RefNll.valid_first t (j 0) (j 1) (j 2))
  -- the numerator: the sum over every pixel of negative log-likelihood times validity
  have hc : (∑ j : S8x512x512.Idx, val_main_v9 (F := Ideal) x t j) = Spec.sumPix (Spec.pixCR x t) := by
    unfold Spec.sumPix
    refine Finset.sum_congr rfl (fun j _ => ?_)
    rw [val_main_v9_apply, Ideal.mulf_def, hn j, hm j]
    rfl
  -- the denominator's sum: the number of labelled pixels
  have hv : (∑ j : S8x512x512.Idx, val_main_v8 (F := Ideal) t j) = Spec.sumPix (Spec.pixV t) := by
    unfold Spec.sumPix
    refine Finset.sum_congr rfl (fun j _ => ?_)
    rw [hm j]
    rfl
  rw [hc, hv]

/-- The refined term. -/
theorem ce_refined (x : (⟨S8x20x512x512, .f32⟩ : BufTy).Contents (Elt Ideal)) (t : (⟨S8x512x512, .i32⟩ : BufTy).Contents (Elt Ideal)) (hT : Spec.InRange t) :
    val_main_v27 (F := Ideal) x t
      = fun _ => Ideal.div (Spec.sumPix (Spec.pixCR x t)) (max (Spec.sumPix (Spec.pixV t)) Spec.one) := by
  funext i
  rw [val_main_v27_apply, val_main_v24_apply, val_main_v26_apply, val_main_v25_apply, val_main_cst_5_apply, val_main_cst_6_apply,
    val_main_cst_7_apply]
  simp only [Ideal.ofBits_def, Ideal.hostDivf_def, Ideal.maximumf_def, Ideal.ofBits_zero_f32, zero_add]
  -- every pixel index is the triple of its coordinates, so the two pointwise readings apply at it
  have hn : ∀ j : S8x512x512.Idx, val_main_v21 (F := Ideal) x t j
      = Spec.nllR (Spec.logits x (j 0) (j 1) (j 2)) (Spec.label t (j 0) (j 1) (j 2)) := fun j =>
    (congrArg (val_main_v21 (F := Ideal) x t) (eq_ix3 (n0 := 8) (n1 := 512) (n2 := 512) j)).trans
      (RefNll.nll_refined x t hT (j 0) (j 1) (j 2))
  have hm : ∀ j : S8x512x512.Idx, val_main_v22 (F := Ideal) t j = Spec.valid (Spec.label t (j 0) (j 1) (j 2)) := fun j =>
    (congrArg (val_main_v22 (F := Ideal) t) (eq_ix3 (n0 := 8) (n1 := 512) (n2 := 512) j)).trans
      (RefNll.valid_second t (j 0) (j 1) (j 2))
  -- the numerator: the sum over every pixel of negative log-likelihood times validity
  have hc : (∑ j : S8x512x512.Idx, val_main_v23 (F := Ideal) x t j) = Spec.sumPix (Spec.pixCR x t) := by
    unfold Spec.sumPix
    refine Finset.sum_congr rfl (fun j _ => ?_)
    rw [val_main_v23_apply, Ideal.mulf_def, hn j, hm j]
    rfl
  -- the denominator's sum: the number of labelled pixels
  have hv : (∑ j : S8x512x512.Idx, val_main_v22 (F := Ideal) t j) = Spec.sumPix (Spec.pixV t) := by
    unfold Spec.sumPix
    refine Finset.sum_congr rfl (fun j _ => ?_)
    rw [hm j]
    rfl
  rw [hc, hv]

end Cert.ReferenceIdeal.RefCE

end
-- ==== Proof.RefGrad.lean ====
/- The reference's two finite-difference gradients of the label map (labels as numbers, an ignored pixel −1): along a
   row directly, along a column between two transpositions; one-sided at the ends, central and halved inside. -/
import proofs.«413300_j1606317769444_2_alg».proof.Proof.RefRead
import proofs.«413300_j1606317769444_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefGrad

open Cert.ReferenceIdeal Cert.ReferenceIdeal.Gen Cert.ReferenceIdeal.ReadP Idealize.ShloMosaic Idealize.ShloMosaic.ValueIdx

section Cat3
variable {α : Type}

/-- Three pieces of extents 1, 510, 1 laid end to end along the last axis: position 0 is the first piece. -/
theorem cat3_first (A : S8x512x1.Idx → α) (B : S8x512x510.Idx → α) (C : S8x512x1.Idx → α)
    (h : Shape.Concatenates ([(⟨S8x512x1, A⟩ : (s : Shape) × (s.Idx → α)), ⟨S8x512x510, B⟩, ⟨S8x512x1, C⟩].map (·.1)) S8x512x512 2)
    (b : Fin 8) (q p : Fin 512) (hp : p.val = 0) :
    concatenate S8x512x512 2 [⟨S8x512x1, A⟩, ⟨S8x512x510, B⟩, ⟨S8x512x1, C⟩] h (ix3 b q p) = A (ix3 b q ⟨0, by decide⟩) := by
  refine concatenate_apply_piece 2 _ h (ix3 b q p) 0 (by simp) S8x512x1 A rfl rfl 0 rfl (ix3 b q ⟨0, by decide⟩) ?_ ?_
  · intro c hc
    match c with
    | ⟨0, _⟩ => rfl
    | ⟨1, _⟩ => rfl
    | ⟨2, _⟩ => exact absurd rfl hc
  · show 0 + 0 = p.val
    omega

/-- Positions 1 to 510 are the second piece, one place back. -/
theorem cat3_mid (A : S8x512x1.Idx → α) (B : S8x512x510.Idx → α) (C : S8x512x1.Idx → α)
    (h : Shape.Concatenates ([(⟨S8x512x1, A⟩ : (s : Shape) × (s.Idx → α)), ⟨S8x512x510, B⟩, ⟨S8x512x1, C⟩].map (·.1)) S8x512x512 2)
    (b : Fin 8) (q p : Fin 512) (hp0 : p.val ≠ 0) (hp1 : p.val ≠ 511) :
    concatenate S8x512x512 2 [⟨S8x512x1, A⟩, ⟨S8x512x510, B⟩, ⟨S8x512x1, C⟩] h (ix3 b q p)
      = B (ix3 b q ⟨p.val - 1, by omega⟩) := by
  refine concatenate_apply_piece 2 _ h (ix3 b q p) 1 (by simp) S8x512x510 B rfl rfl 1 rfl (ix3 b q ⟨p.val - 1, by omega⟩) ?_ ?_
  · intro c hc
    match c with
    | ⟨0, _⟩ => rfl
    | ⟨1, _⟩ => rfl
    | ⟨2, _⟩ => exact absurd rfl hc
  · show 1 + (p.val - 1) = p.val
    omega

/-- Position 511 is the third piece. -/
theorem cat3_last (A : S8x512x1.Idx → α) (B : S8x512x510.Idx → α) (C : S8x512x1.Idx → α)
    (h : Shape.Concatenates ([(⟨S8x512x1, A⟩ : (s : Shape) × (s.Idx → α)), ⟨S8x512x510, B⟩, ⟨S8x512x1, C⟩].map (·.1)) S8x512x512 2)
    (b : Fin 8) (q p : Fin 512) (hp : p.val = 511) :
    concatenate S8x512x512 2 [⟨S8x512x1, A⟩, ⟨S8x512x510, B⟩, ⟨S8x512x1, C⟩] h (ix3 b q p) = C (ix3 b q ⟨0, by decide⟩) := by
  refine concatenate_apply_piece 2 _ h (ix3 b q p) 2 (by simp) S8x512x1 C rfl rfl 511 rfl (ix3 b q ⟨0, by decide⟩) ?_ ?_
  · intro c hc
    match c with
    | ⟨0, _⟩ => rfl
    | ⟨1, _⟩ => rfl
    | ⟨2, _⟩ => exact absurd rfl hc
  · show 511 + 0 = p.val
    omega

end Cat3

/-- The label map as numbers, at a pixel. -/
theorem lab_at (t : (⟨S8x512x512, .i32⟩ : BufTy).Contents (Elt Ideal)) (b : Fin 8) (y x' : Fin 512) :
    val_main_v31 (F := Ideal) t (ix3 b y x') = Spec.lab (Spec.label t b y x') := by
  rw [val_main_v31_apply, val_main_v30_apply, val_main_v29_apply, val_main_v28_apply, val_main_c_8_apply,
    val_main_call6_v1_apply, val_main_call6_v0_apply, val_main_c_9_apply]
  unfold Spec.lab Spec.label
  by_cases h : t (ix3 b y x') = 255#32
  · rw [h, if_pos rfl]; rfl
  · rw [if_neg h]
    have hc : IntOp.cmpi CmpIPredicate.eq (t (ix3 b y x')) 255#32 = 0#1 := by
      have hb : (t (ix3 b y x') == 255#32) = false := beq_eq_false_iff_ne.mpr h
      show BitVec.ofBool (t (ix3 b y x') == 255#32) = 0#1
      rw [hb]; rfl
    rw [hc]; rfl

/-- The same at any index whose three coordinates are the pixel's. -/
theorem lab_at' (t : (⟨S8x512x512, .i32⟩ : BufTy).Contents (Elt Ideal)) (i : S8x512x512.Idx) (b : Fin 8) (y x' : Fin 512)
    (h0 : (i 0).val = b.val) (h1 : (i 1).val = y.val) (h2 : (i 2).val = x'.val) :
    val_main_v31 (F := Ideal) t i = Spec.lab (Spec.label t b y x') := by
  have hi : i = ix3 b y x' := by
    funext a
    match a with
    | ⟨0, _⟩ => exact Fin.ext h0
    | ⟨1, _⟩ => exact Fin.ext h1
    | ⟨2, _⟩ => exact Fin.ext h2
  rw [hi, lab_at]

/-- The transposed label map at an index: its last two coordinates are the pixel's column and row. -/
theorem labT_at' (t : (⟨S8x512x512, .i32⟩ : BufTy).Contents (Elt Ideal)) (i : S8x512x512.Idx) (b : Fin 8) (y x' : Fin 512)
    (h0 : (i 0).val = b.val) (h1 : (i 1).val = x'.val) (h2 : (i 2).val = y.val) :
    val_main_v32 (F := Ideal) t i = Spec.lab (Spec.label t b y x') := by
  rw [val_main_v32_apply]
  exact lab_at' t _ b y x' h0 h2 h1

/-- The gradient along a row (x moves), at a pixel. -/
theorem gradX_at (t : (⟨S8x512x512, .i32⟩ : BufTy).Contents (Elt Ideal)) (b : Fin 8) (y x' : Fin 512) :
    val_main_v57 (F := Ideal) t (ix3 b y x') = Spec.gradX t b y x' := by
  unfold val_main_v57 Spec.gradX Spec.grad
  by_cases hp0 : x'.val = 0
  · rw [cat3_first _ _ _ _ b y x' hp0, if_pos hp0]
    unfold Spec.lineAt
    rw [dif_pos (show 1 < 512 by decide), dif_pos (show 0 < 512 by decide)]
    rw [val_main_v48_apply, Ideal.subf_def, val_main_v46_apply, val_main_v47_apply]
    rw [lab_at' t _ b y ⟨1, by decide⟩ rfl rfl rfl, lab_at' t _ b y ⟨0, by decide⟩ rfl rfl rfl]
  · by_cases hp1 : x'.val = 511
    · rw [cat3_last _ _ _ _ b y x' hp1, if_neg hp0, if_pos hp1]
      unfold Spec.lineAt
      rw [dif_pos (show 511 < 512 by decide), dif_pos (show 510 < 512 by decide)]
      rw [val_main_v56_apply, Ideal.subf_def, val_main_v54_apply, val_main_v55_apply]
      rw [lab_at' t _ b y ⟨511, by decide⟩ rfl rfl rfl, lab_at' t _ b y ⟨510, by decide⟩ rfl rfl rfl]
    · have hlt := x'.isLt
      rw [cat3_mid _ _ _ _ b y x' hp0 hp1, if_neg hp0, if_neg hp1]
      unfold Spec.lineAt
      rw [dif_pos (show x'.val + 1 < 512 by omega), dif_pos (show x'.val - 1 < 512 by omega)]
      rw [val_main_v53_apply, Ideal.mulf_def, val_main_v51_apply, Ideal.subf_def, val_main_v49_apply, val_main_v50_apply,
        val_main_v52_apply, val_main_cst_11_apply, Ideal.ofBits_def]
      rw [lab_at' t _ b y ⟨x'.val + 1, by omega⟩ rfl rfl (by show 2 + (x'.val - 1) = x'.val + 1; omega),
        lab_at' t _ b y ⟨x'.val - 1, by omega⟩ rfl rfl rfl]

/-- The gradient along a column (y moves), at a pixel. -/
theorem gradY_at (t : (⟨S8x512x512, .i32⟩ : BufTy).Contents (Elt Ideal)) (b : Fin 8) (y x' : Fin 512) :
    val_main_v45 (F := Ideal) t (ix3 b y x') = Spec.gradY t b y x' := by
  rw [val_main_v45_apply]
  have hi : idx_main_v45 (ix3 b y x') = ix3 b x' y := by
    funext a
    match a with
    | ⟨0, _⟩ => rfl
    | ⟨1, _⟩ => rfl
    | ⟨2, _⟩ => rfl
  rw [hi]
  unfold val_main_v44 Spec.gradY Spec.grad
  by_cases hp0 : y.val = 0
  · rw [cat3_first _ _ _ _ b x' y hp0, if_pos hp0]
    unfold Spec.lineAt
    rw [dif_pos (show 1 < 512 by decide), dif_pos (show 0 < 512 by decide)]
    rw [val_main_v35_apply, Ideal.subf_def, val_main_v33_apply, val_main_v34_apply]
    rw [labT_at' t _ b ⟨1, by decide⟩ x' rfl rfl rfl, labT_at' t _ b ⟨0, by decide⟩ x' rfl rfl rfl]
  · by_cases hp1 : y.val = 511
    · rw [cat3_last _ _ _ _ b x' y hp1, if_neg hp0, if_pos hp1]
      unfold Spec.lineAt
      rw [dif_pos (show 511 < 512 by decide), dif_pos (show 510 < 512 by decide)]
      rw [val_main_v43_apply, Ideal.subf_def, val_main_v41_apply, val_main_v42_apply]
      rw [labT_at' t _ b ⟨511, by decide⟩ x' rfl rfl rfl, labT_at' t _ b ⟨510, by decide⟩ x' rfl rfl rfl]
    · have hlt := y.isLt
      rw [cat3_mid _ _ _ _ b x' y hp0 hp1, if_neg hp0, if_neg hp1]
      unfold Spec.lineAt
      rw [dif_pos (show y.val + 1 < 512 by omega), dif_pos (show y.val - 1 < 512 by omega)]
      rw [val_main_v40_apply, Ideal.mulf_def, val_main_v38_apply, Ideal.subf_def, val_main_v36_apply, val_main_v37_apply,
        val_main_v39_apply, val_main_cst_10_apply, Ideal.ofBits_def]
      rw [labT_at' t _ b ⟨y.val + 1, by omega⟩ x' rfl rfl (by show 2 + (y.val - 1) = y.val + 1; omega),
        labT_at' t _ b ⟨y.val - 1, by omega⟩ x' rfl rfl rfl]

end Cert.ReferenceIdeal.RefGrad

end
-- ==== Proof.RefEdge.lean ====
/- The reference's edge term: the mean over every pixel of the binary cross-entropy of the masked edge logit against the
   masked edge indicator. -/
import proofs.«413300_j1606317769444_2_alg».proof.Proof.RefRead
import proofs.«413300_j1606317769444_2_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«413300_j1606317769444_2_alg».proof.Proof.RefGrad

noncomputable section

namespace Cert.ReferenceIdeal.RefEdge

open Cert.ReferenceIdeal Cert.ReferenceIdeal.Gen Cert.ReferenceIdeal.ReadP Idealize.ShloMosaic Idealize.ShloMosaic.ValueIdx

/-- The validity mask as a number, at any index: 1 on a labelled pixel, 0 on an ignored one. -/
theorem valid_at (t : (⟨S8x512x512, .i32⟩ : BufTy).Contents (Elt Ideal)) (i : S8x512x512.Idx) :
    val_main_v68 (F := Ideal) t i = Spec.valid (t i) := by
  rw [val_main_v68_apply, val_main_v67_apply, val_main_v66_apply, val_main_c_14_apply]
  rfl

/-- The edge indicator as a number, at a pixel: either gradient nonzero. -/
theorem edge_at (t : (⟨S8x512x512, .i32⟩ : BufTy).Contents (Elt Ideal)) (b : Fin 8) (y x : Fin 512) :
    val_main_v65 (F := Ideal) t (ix3 b y x) = Spec.bit01 (Spec.edgeBit (Spec.gradX t b y x) (Spec.gradY t b y x)) := by
  rw [val_main_v65_apply, val_main_v64_apply, val_main_v60_apply, val_main_v63_apply, val_main_v58_apply,
    val_main_v61_apply, val_main_v59_apply, val_main_v62_apply, val_main_cst_12_apply, val_main_cst_13_apply,
    RefGrad.gradX_at, RefGrad.gradY_at]
  rfl

/-- The reshaped edge logits read the four-axis array at (b, 0, y, x). -/
theorem idx_at (b : Fin 8) (y x : Fin 512) : idx_main_v69 (ix3 b y x) = ix4 b 0 y x := by
  have hb := b.isLt
  have hy := y.isLt
  have hx := x.isLt
  funext a
  match a with
  | ⟨0, _⟩ => apply Fin.ext; show ((b.val * 512 + y.val) * 512 + x.val) / 262144 = b.val; omega
  | ⟨1, _⟩ => rfl
  | ⟨2, _⟩ => apply Fin.ext; show ((b.val * 512 + y.val) * 512 + x.val) / 512 % 512 = y.val; omega
  | ⟨3, _⟩ => apply Fin.ext; show ((b.val * 512 + y.val) * 512 + x.val) % 512 = x.val; omega

/-- The reshaped edge logit at a pixel. -/
theorem elogit_at (e : (⟨S8x1x512x512, .f32⟩ : BufTy).Contents (Elt Ideal)) (b : Fin 8) (y x : Fin 512) :
    val_main_v69 (F := Ideal) e (ix3 b y x) = Spec.elogit e b y x := by
  rw [val_main_v69_apply, idx_at]
  rfl

/-- The masked edge logit at a pixel. -/
theorem z_at (e : (⟨S8x1x512x512, .f32⟩ : BufTy).Contents (Elt Ideal)) (t : (⟨S8x512x512, .i32⟩ : BufTy).Contents (Elt Ideal))
    (b : Fin 8) (y x : Fin 512) :
    val_main_v70 (F := Ideal) e t (ix3 b y x) = Spec.elogit e b y x * Spec.valid (Spec.label t b y x) := by
  rw [val_main_v70_apply, elogit_at, valid_at]
  rfl

/-- The masked edge target at a pixel. -/
theorem y_at (t : (⟨S8x512x512, .i32⟩ : BufTy).Contents (Elt Ideal)) (b : Fin 8) (y x : Fin 512) :
    val_main_v71 (F := Ideal) t (ix3 b y x)
      = Spec.bit01 (Spec.edgeBit (Spec.gradX t b y x) (Spec.gradY t b y x)) * Spec.valid (Spec.label t b y x) := by
  rw [val_main_v71_apply, edge_at, valid_at]
  rfl

/-- The summand at a pixel is that pixel's binary cross-entropy. -/
theorem pix_at (e : (⟨S8x1x512x512, .f32⟩ : BufTy).Contents (Elt Ideal)) (t : (⟨S8x512x512, .i32⟩ : BufTy).Contents (Elt Ideal))
    (b : Fin 8) (y x : Fin 512) :
    val_main_v80 (F := Ideal) e t (ix3 b y x) = Spec.pixE e t b y x := by
  rw [val_main_v80_apply, val_main_v75_apply, val_main_v79_apply, val_main_v78_apply, val_main_v77_apply,
    val_main_v76_apply, val_main_v73_apply, val_main_v74_apply, val_main_v72_apply, val_main_cst_15_apply,
    z_at, y_at]
  rfl

/-- The edge term. -/
theorem edge (e : (⟨S8x1x512x512, .f32⟩ : BufTy).Contents (Elt Ideal)) (t : (⟨S8x512x512, .i32⟩ : BufTy).Contents (Elt Ideal)) :
    val_main_v82 (F := Ideal) e t = fun _ => Ideal.div (Spec.sumPix (Spec.pixE e t)) Spec.npix := by
  funext i
  rw [val_main_v82_apply, val_main_v81_apply, val_main_cst_16_apply, val_main_cst_17_apply]
  have hsum : (∑ j : S8x512x512.Idx, val_main_v80 (F := Ideal) e t j) = Spec.sumPix (Spec.pixE e t) := by
    unfold Spec.sumPix
    refine Finset.sum_congr rfl (fun j _ => ?_)
    exact (congrArg (val_main_v80 (F := Ideal) e t) (eq_ix3 j)).trans (pix_at e t (j 0) (j 1) (j 2))
  rw [hsum]
  show Ideal.div (Ideal.ofBits .f32 0x00000000#32 + _) _ = _
  rw [Ideal.ofBits_zero_f32, zero_add]
  rfl

end Cert.ReferenceIdeal.RefEdge

end
-- ==== Proof.RefValue.lean ====
/- The reference program's result is the loss in the reference's arrangement, when every label is in range. -/
import proofs.«413300_j1606317769444_2_alg».proof.Proof.RefRead
import proofs.«413300_j1606317769444_2_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«413300_j1606317769444_2_alg».proof.Proof.RefCE
import proofs.«413300_j1606317769444_2_alg».proof.Proof.RefEdge

noncomputable section

namespace Cert.ReferenceIdeal.RefValue

open Cert.ReferenceIdeal Cert.ReferenceIdeal.Gen Cert.ReferenceIdeal.ReadP Idealize.ShloMosaic Idealize.ShloMosaic.ValueIdx

/-- The last stage: coarse term plus refined term plus 0.4 times the edge term. -/
theorem result_eq (x0 x1 : (⟨S8x20x512x512, .f32⟩ : BufTy).Contents (Elt Ideal)) (e : (⟨S8x1x512x512, .f32⟩ : BufTy).Contents (Elt Ideal))
    (t : (⟨S8x512x512, .i32⟩ : BufTy).Contents (Elt Ideal)) (hT : Spec.InRange t) :
    val_main_v85 (F := Ideal) x0 x1 e t = fun _ => Spec.refTotal x0 x1 e t := by
  funext i
  rw [val_main_v85_apply, val_main_v83_apply, val_main_v84_apply, val_main_cst_18_apply,
    RefCE.ce_coarse x0 t hT, RefCE.ce_refined x1 t hT, RefEdge.edge e t]
  rfl

end Cert.ReferenceIdeal.RefValue

end
-- ==== Proof.SumOrders.lean ====
/- The three orders of summing a pixel function agree: addition of extended reals is commutative and associative. -/
import proofs.«413300_j1606317769444_2_alg».proof.Proof.Spec
import Mathlib.Algebra.BigOperators.Fin
import Mathlib.Logic.Equiv.Fin.Basic

noncomputable section

namespace Cert.Spec

open Idealize.ShloMosaic Idealize.ShloMosaic.ValueIdx

/-- The pixel index set is the product of its three coordinate ranges. -/
def pixEquiv : ST.Idx ≃ Fin 8 × Fin 512 × Fin 512 where
  toFun i := (i 0, i 1, i 2)
  invFun p := ix3 p.1 p.2.1 p.2.2
  left_inv i := (eq_ix3 i).symm
  right_inv _ := rfl

/-- The sum over every pixel is the triple sum over image, row, column. -/
theorem sumPix_eq (f : Fin 8 → Fin 512 → Fin 512 → EReal) :
    sumPix f = ∑ b : Fin 8, ∑ i : Fin 512, ∑ j : Fin 512, f b i j := by
  unfold sumPix
  rw [← Equiv.sum_comp pixEquiv.symm (fun i : ST.Idx => f (i 0) (i 1) (i 2)), Fintype.sum_prod_type]
  refine Finset.sum_congr rfl fun b _ => ?_
  rw [Fintype.sum_prod_type]
  rfl

/-- A sum over the 512 rows is the sum over the four bands of the sum over the 128 rows of a band:
    row y is row y mod 128 of band y / 128. -/
theorem sum_band_row (g : Fin 512 → EReal) :
    ∑ h : Fin 4, ∑ i : Fin 128, g ⟨128 * h.val + i.val, by omega⟩ = ∑ y : Fin 512, g y := by
  rw [← Fintype.sum_prod_type (f := fun p : Fin 4 × Fin 128 => g ⟨128 * p.1.val + p.2.val, by omega⟩)]
  refine Fintype.sum_equiv (finProdFinEquiv (m := 4) (n := 128)) _ _ fun p => ?_
  congr 1
  apply Fin.ext
  simp only [finProdFinEquiv_apply_val]
  omega

/-- Summing by image, band, row, column is summing over every pixel. -/
theorem sumBands_eq_sumPix (f : Fin 8 → Fin 512 → Fin 512 → EReal) : sumBands f = sumPix f := by
  rw [sumPix_eq]
  unfold sumBands
  refine Finset.sum_congr rfl fun b _ => ?_
  exact sum_band_row (fun y => ∑ j : Fin 512, f b y j)

/-- Summing by image, row, column is summing over every pixel. -/
theorem sumRows_eq_sumPix (f : Fin 8 → Fin 512 → Fin 512 → EReal) : sumRows f = sumPix f := by
  rw [sumPix_eq]
  rfl

end Cert.Spec

end
-- ==== Proof.NllForms.lean ====
/- The two arrangements of a pixel's negative log-likelihood agree on real logits and an in-range class. -/
import proofs.«413300_j1606317769444_2_alg».proof.Proof.Spec

noncomputable section

namespace Cert.Spec

open Idealize.ShloMosaic

/-- The float word of zero is the number 0. -/
theorem zero_eq_zero : zero = 0 := by simp [zero, Ideal.ofBits, Ideal.ieee]

/-- The float word of −∞ is the bottom of the extended reals. -/
theorem neginf_eq_bot : Ideal.ofBits .f32 0xFF800000#32 = (⊥ : EReal) := by
  simp [Ideal.ofBits, Ideal.ieee]

/-- The class a pixel is scored at is below 20 when the label is 255 or below 20. -/
theorem tsafe_lt (t : BitVec 32) (ht : t = 255#32 ∨ t.toNat < 20) : (tsafe t).toNat < 20 := by
  unfold tsafe
  rcases ht with rfl | h
  · simp
  · split_ifs with h2
    · simp
    · exact h

/-- Among the twenty classes exactly the pixel's class carries the word of the scored class. -/
theorem ofNat_eq_tsafe_iff (t : BitVec 32) (ht : t = 255#32 ∨ t.toNat < 20) (k : Fin 20) :
    BitVec.ofNat 32 k.val = tsafe t ↔ k = classOf t := by
  have h := tsafe_lt t ht
  have hk : k.val < 20 := k.isLt
  constructor
  · intro e
    apply Fin.ext
    have e' := congrArg BitVec.toNat e
    rw [BitVec.toNat_ofNat] at e'
    show k.val = (tsafe t).toNat % 20
    omega
  · intro e
    subst e
    apply BitVec.eq_of_toNat_eq
    rw [BitVec.toNat_ofNat]
    show (tsafe t).toNat % 20 % 2 ^ 32 = (tsafe t).toNat
    omega

/-- The one-hot sum picks the logit of the pixel's class. -/
theorem onehot_sum (v : Fin 20 → EReal) (t : BitVec 32) (ht : t = 255#32 ∨ t.toNat < 20) :
    (∑ k : Fin 20, (if BitVec.ofNat 32 k.val = tsafe t then v k else zero)) = v (classOf t) := by
  rw [Finset.sum_eq_single (classOf t)]
  · rw [if_pos ((ofNat_eq_tsafe_iff t ht _).2 rfl)]
  · intro k _ hk
    rw [if_neg (fun e => hk ((ofNat_eq_tsafe_iff t ht k).1 e)), zero_eq_zero]
  · intro h
    exact absurd (Finset.mem_univ _) h

/-- A fold of max from −∞ over finitely many reals is −∞ or a real. -/
theorem fold_max_real (r : Fin 20 → ℝ) (s : Finset (Fin 20)) :
    s.fold max (⊥ : EReal) (fun k => (r k : EReal)) = ⊥ ∨
      ∃ M : ℝ, s.fold max (⊥ : EReal) (fun k => (r k : EReal)) = (M : EReal) := by
  induction s using Finset.induction_on with
  | empty => left; simp
  | insert a s ha ih =>
    right
    rw [Finset.fold_insert ha]
    rcases ih with h | ⟨M, h⟩
    · exact ⟨r a, by rw [h, max_eq_left bot_le]⟩
    · rcases le_total (r a) M with hle | hle
      · exact ⟨M, by rw [h, max_eq_right (EReal.coe_le_coe_iff.2 hle)]⟩
      · exact ⟨r a, by rw [h, max_eq_left (EReal.coe_le_coe_iff.2 hle)]⟩

/-- The largest of twenty real logits is a real. -/
theorem vmax_real (v : Fin 20 → EReal) (r : Fin 20 → ℝ) (hr : ∀ k, v k = (r k : EReal)) :
    ∃ M : ℝ, vmax v = (M : EReal) := by
  have hv : v = fun k => (r k : EReal) := funext hr
  unfold vmax
  rw [neginf_eq_bot, hv]
  rcases fold_max_real r Finset.univ with h | h
  · exfalso
    have h0 : ((r 0 : ℝ) : EReal) ≤ (Finset.univ : Finset (Fin 20)).fold max (⊥ : EReal) (fun k => (r k : EReal)) :=
      (Finset.le_fold_max _).2 (Or.inr ⟨0, Finset.mem_univ _, le_refl _⟩)
    rw [h] at h0
    exact absurd (le_bot_iff.1 h0) (EReal.coe_ne_bot _)
  · exact h

/-- A finite sum of reals, read in the extended reals, is the real sum. -/
theorem coe_sum_fin (f : Fin 20 → ℝ) (s : Finset (Fin 20)) :
    (∑ k ∈ s, ((f k : ℝ) : EReal)) = ((∑ k ∈ s, f k : ℝ) : EReal) := by
  induction s using Finset.induction_on with
  | empty => simp
  | insert a s ha ih => rw [Finset.sum_insert ha, Finset.sum_insert ha, ih, EReal.coe_add]

/-- On twenty real logits and a label that is 255 or a class below 20, the log-sum-exp minus the one-hot pick is minus
    the log-softmax at the class. -/
theorem nllK_eq_nllR (v : Fin 20 → EReal) (t : BitVec 32) (hv : ∀ k, ∃ r : ℝ, v k = (r : EReal))
    (ht : t = 255#32 ∨ t.toNat < 20) : nllK v t = nllR v t := by
  choose r hr using hv
  obtain ⟨M, hM⟩ := vmax_real v r hr
  have hS : sumexp v = ((∑ k : Fin 20, Real.exp (r k - M) : ℝ) : EReal) := by
    unfold sumexp
    rw [hM, ← coe_sum_fin]
    refine Finset.sum_congr rfl (fun k _ => ?_)
    rw [hr k, ← EReal.coe_sub, Ideal.exp_coe]
  have hpos : 0 < ∑ k : Fin 20, Real.exp (r k - M) :=
    Finset.sum_pos (fun k _ => Real.exp_pos _) ⟨0, Finset.mem_univ _⟩
  have hL : Ideal.log (sumexp v) = ((Real.log (∑ k : Fin 20, Real.exp (r k - M)) : ℝ) : EReal) := by
    rw [hS, Ideal.log_coe, if_neg (not_le.2 hpos)]
  unfold nllK nllR
  rw [onehot_sum v t ht, hL, hM, hr (classOf t)]
  rw [← EReal.coe_add, ← EReal.coe_sub, ← EReal.coe_sub, ← EReal.coe_sub, ← EReal.coe_neg]
  congr 1
  ring

end Cert.Spec

end
-- ==== Proof.Algebra.lean ====
/- The kernel's arrangement of the loss equals the reference's, on real logits and in-range labels. -/
import proofs.«413300_j1606317769444_2_alg».proof.Proof.Spec
import proofs.«413300_j1606317769444_2_alg».proof.Proof.SumOrders
import proofs.«413300_j1606317769444_2_alg».proof.Proof.NllForms

noncomputable section

namespace Cert.Spec

open Idealize.ShloMosaic Idealize.ShloMosaic.ValueIdx

theorem pixCK_eq_pixCR (X : Logits) (T : Labels) (hX : Real' X) (hT : InRange T) : pixCK X T = pixCR X T := by
  funext b y x
  unfold pixCK pixCR
  rw [nllK_eq_nllR (logits X b y x) (label T b y x) (fun k => hX (ix4 b k y x)) (hT (ix3 b y x))]

theorem kernelTotal_eq_refTotal (X0 X1 : Logits) (E : Edge) (T : Labels) (h0 : Real' X0) (h1 : Real' X1) (hT : InRange T) :
    kernelTotal X0 X1 E T = refTotal X0 X1 E T := by
  unfold kernelTotal refTotal
  rw [sumBands_eq_sumPix, sumBands_eq_sumPix, sumBands_eq_sumPix, sumRows_eq_sumPix, pixCK_eq_pixCR X0 T h0 hT,
    pixCK_eq_pixCR X1 T h1 hT]

end Cert.Spec

end
-- ==== Proof.PreDecode.lean ====
/- What the precondition says, entry by entry: every logit of the two logit arrays is a real number, and every
   label is the ignore mark 255 or one of the twenty classes. -/
import proofs.«413300_j1606317769444_2_alg».proof.Pre_finite_inputs
import proofs.«413300_j1606317769444_2_alg».proof.Proof.Gen.Pre_finite_inputs
import proofs.«413300_j1606317769444_2_alg».proof.Proof.Spec
import Idealize.ShloMosaic.Lib.ReduceAll
import Idealize.ShloMosaic.Lib.StableHlo.Predicate
import Idealize.ShloMosaic.Lib.ValueIdx
import Idealize.ShloMosaic.PureOps.Ideal.Laws

noncomputable section

namespace Cert.PreDecode

open Idealize.ShloMosaic Cert.Pre_finite_inputs

/-- The rank-0 shape has one index. -/
instance : Subsingleton S_.Idx := ⟨fun a b => funext fun d => d.elim0⟩

/-- A number whose absolute value max x (−x) is strictly below +∞ (the word 0x7F800000) is a real: −∞ and +∞ both have
    absolute value +∞. -/
theorem real_of_abs_lt_inf (x : EReal)
    (hx : Ideal.cmp .olt (max x (-x)) (Ideal.ofBits .f32 0x7F800000#32) = 1#1) : ∃ r : ℝ, x = (r : EReal) := by
  have hinf : Ideal.ofBits .f32 0x7F800000#32 = (⊤ : EReal) := by simp [Ideal.ofBits, Ideal.ieee]
  rw [hinf] at hx
  induction x using EReal.rec with
  | bot => simp [Ideal.cmp] at hx
  | top => simp [Ideal.cmp] at hx
  | coe r => exact ⟨r, rfl⟩

/-- A word that equals 255, or is at least 0 and below 20 as a signed number, is 255 or below 20 as a natural number. -/
theorem inRange_of (a : BitVec 32)
    (ha : IntOp.ori (IntOp.cmpi .eq a 255#32) (IntOp.andi (IntOp.cmpi .sge a 0#32) (IntOp.cmpi .slt a 20#32)) = 1#1) :
    a = 255#32 ∨ a.toNat < 20 := by
  rcases IntOp.ori_eq_one.1 ha with h | h
  · exact Or.inl (StableHlo.Predicate.cmpi_eq_iff.1 h)
  · obtain ⟨h1, h2⟩ := IntOp.andi_eq_one.1 h
    right
    -- 0 ≤ a.toInt and a.toInt < 20; a.toInt is a.toNat or a.toNat − 2³², and the second is negative
    simp only [IntOp.cmpi, StableHlo.Predicate.ofBool_eq_one_iff, BitVec.sle, BitVec.slt, decide_eq_true_eq] at h1 h2
    have e0 : (0#32 : BitVec 32).toInt = 0 := by decide
    have e20 : (20#32 : BitVec 32).toInt = 20 := by decide
    rw [e0] at h1; rw [e20] at h2
    rw [BitVec.toInt_eq_toNat_cond] at h1 h2
    have := a.isLt
    split_ifs at h1 h2 <;> omega

/-- From the printed precondition holding (its one bit set) to the entrywise facts the value proof uses. -/
theorem of_pre [Cert.Pre_finite_inputs.Facts] (x0 x1 : FVec Ideal S8x20x512x512 .f32) (x2 : FVec Ideal S8x1x512x512 .f32)
    (t : IVec S8x512x512 32) (h : Cert.Pre_finite_inputs.fn (F := Ideal) x0 x1 x2 t = fun _ => 1#1) :
    Spec.Real' x0 ∧ Spec.Real' x1 ∧ Spec.InRange t := by
  have h0 := congrFun h ValueIdx.ix0
  dsimp only [Cert.Pre_finite_inputs.fn, Cert.Pre_finite_inputs.fn_part1] at h0
  -- the one bit is the conjunction of four "every entry" bits
  obtain ⟨h012, h3⟩ := IntOp.andi_eq_one.1 h0
  obtain ⟨h01, h2⟩ := IntOp.andi_eq_one.1 h012
  obtain ⟨hx0, hx1⟩ := IntOp.andi_eq_one.1 h01
  refine ⟨fun i => ?_, fun i => ?_, fun i => ?_⟩
  · exact real_of_abs_lt_inf (x0 i) (Host.reduce_andi_all _ _ _ _ _ hx0 i)
  · exact real_of_abs_lt_inf (x1 i) (Host.reduce_andi_all _ _ _ _ _ hx1 i)
  · exact inRange_of (t i) (Host.reduce_andi_all _ _ _ _ _ h3 i)

end Cert.PreDecode

end
-- ==== Proof.lean ====
/-
  The kernel program — two launches, one accumulating per image the cross-entropy sums of the coarse and the refined
  logits and the count of labelled pixels over four bands of rows, one summing per image a binary cross-entropy of the
  edge logits against the label map's edge indicator, and host operations that add the per-image sums and combine them —
  and the reference program — log-softmax, a gather at the label, whole-array sums — compute the same loss on the
  extended reals whenever every logit is a real number and every label is the ignore mark 255 or one of the twenty
  classes (the precondition: finite float inputs, labels in their range).

  Both results are written over one vocabulary of pixel functions (Proof/Spec.lean). The kernel's result is the loss with
  the sums taken by image, band, row, column and the per-pixel negative log-likelihood as log-sum-exp minus a one-hot
  pick; the reference's is the loss with the sums over every pixel at once and the negative log-likelihood as minus the
  log-softmax at the class. The two agree: sums of extended reals re-index freely, and the two arrangements of the
  negative log-likelihood agree on real logits and an in-range class (Proof/Algebra.lean). The precondition gives exactly
  those two facts (Proof/PreDecode.lean). The idealization rewrote nothing, so `preserves` is trivial; the frames are the
  programs' runs with their results dropped.
-/
import proofs.«413300_j1606317769444_2_alg».proof.Defs
import proofs.«413300_j1606317769444_2_alg».proof.Proof.Gen.Kernel
import proofs.«413300_j1606317769444_2_alg».proof.Proof.Gen.Kernel.Frame
import proofs.«413300_j1606317769444_2_alg».proof.Proof.Gen.KernelIdeal
import proofs.«413300_j1606317769444_2_alg».proof.Proof.Gen.KernelIdeal.Frame
import proofs.«413300_j1606317769444_2_alg».proof.Proof.Gen.ReferenceIdeal
import proofs.«413300_j1606317769444_2_alg».proof.Proof.Gen.Pre_finite_inputs
import proofs.«413300_j1606317769444_2_alg».proof.Proof.KernelRun
import proofs.«413300_j1606317769444_2_alg».proof.Proof.HostTail
import proofs.«413300_j1606317769444_2_alg».proof.Proof.RefRun
import proofs.«413300_j1606317769444_2_alg».proof.Proof.RefRead
import proofs.«413300_j1606317769444_2_alg».proof.Proof.RefValue
import proofs.«413300_j1606317769444_2_alg».proof.Proof.Algebra
import proofs.«413300_j1606317769444_2_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The idealized reference runs and leaves its arguments as launched: its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- From memories agreeing on the arguments both programs end at the same loss: the kernel's arrangement of it, which
    under the precondition is the reference's. -/
theorem algebraic : Cert.algebraic_KernelIdeal_ReferenceIdeal := by
  intro m ρ m' ρ' hpre hagree
  refine ⟨fun c => fun _ => Spec.kernelTotal
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Tail.result_eq m ρ c), (h c).2⟩)
      (Cert.KernelIdeal.RunP.run (F := Ideal) m ρ)
  · refine (θ_run Cert.ReferenceIdeal.defs _ _).mono (fun _ h c => ⟨(h c).1.trans ?_, (h c).2⟩)
      (Cert.ReferenceIdeal.RunP.run (F := Ideal) m' ρ')
    obtain ⟨h0, h1, hT⟩ := Cert.PreDecode.of_pre _ _ _ _ (hpre c)
    rw [Cert.ReferenceIdeal.ReadP.val_main_v85_eq, (hagree c).1, (hagree c).2.1, (hagree c).2.2.1, (hagree c).2.2.2,
      Cert.ReferenceIdeal.RefValue.result_eq _ _ _ _ hT]
    funext i
    exact (Spec.kernelTotal_eq_refTotal _ _ _ _ h0 h1 hT).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
